-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x2048 : Shape := ⟨2, ![2048, 2048]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg1 : IVec S2048x2048 32) (main_v33 : IVec S_ 1) : IVec S_ 1 :=
  let main_c_12 : IVec S_ 32 := constantI S_ 32 0#32
  let main_v34 : IVec S2048x2048 32 := broadcastInDim S2048x2048 ![] bcast_S_S2048x2048 main_c_12
  let main_v35 : IVec S2048x2048 1 := cmpi .eq main_arg1 main_v34
  let main_c_13 : IVec S_ 32 := constantI S_ 32 1#32
  let main_v36 : IVec S2048x2048 32 := broadcastInDim S2048x2048 ![] bcast_S_S2048x2048 main_c_13
  let main_v37 : IVec S2048x2048 1 := cmpi .eq main_arg1 main_v36
  let main_v38 : IVec S2048x2048 1 := ori main_v35 main_v37
  let main_c_14 : IVec S_ 1 := constantI S_ 1 1#1
  let main_v39 : IVec S_ 1 := (fun x v => Host.reduce IntOp.andi x v reducesTo_S2048x2048_S_d0_1 h_S_) main_v38 main_c_14
  let main_v40 : IVec S_ 1 := andi main_v33 main_v39
  main_v40

def fn_part1 {F : FTy → Type} [FloatOps F] (main_arg1 : IVec S2048x2048 32) (main_arg5 : FVec F S32x64 .f32) (main_arg6 : FVec F S32 .f32) (main_arg7 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg1 main_v33

def fn {F : FTy → Type} [FloatOps F] (main_arg0 : FVec F S2048x64 .f32) (main_arg1 : IVec S2048x2048 32) (main_arg2 : FVec F S64x64 .f32) (main_arg3 : FVec F S64 .f32) (main_arg4 : FVec F S64x64 .f32) (main_arg5 : FVec F S32x64 .f32) (main_arg6 : FVec F S32 .f32) (main_arg7 : FVec F S32x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S2048x64 : Shape := ⟨2, ![2048, 64]⟩
abbrev S2048x2048 : Shape := ⟨2, ![2048, 2048]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1x32 : Shape := ⟨2, ![1, 32]⟩
abbrev S2048x32 : Shape := ⟨2, ![2048, 32]⟩
abbrev S128x2048 : Shape := ⟨2, ![128, 2048]⟩
abbrev S128x64 : Shape := ⟨2, ![128, 64]⟩
abbrev S2048 : Shape := ⟨1, ![2048]⟩
abbrev S2048x1 : Shape := ⟨2, ![2048, 1]⟩

abbrev nBuf : Space → Nat
  | .hbm => 11
  | .vmem => 12
  | .smem => 0
  | _ => 0

abbrev bufTy : (tb : Table) → Fin (tcTables nBuf tb) → BufTy
  | .hbm, ⟨0, _⟩ => ⟨S2048x64, .f32⟩
  | .hbm, ⟨1, _⟩ => ⟨S2048x2048, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x64, .f32⟩
  | .hbm, ⟨9, _⟩ => ⟨S1x32, .f32⟩
  | .hbm, ⟨10, _⟩ => ⟨S2048x32, .f32⟩
  | .local _ .vmem, ⟨0, _⟩ => ⟨S128x2048, .i32⟩
  | .local _ .vmem, ⟨1, _⟩ => ⟨S128x2048, .i32⟩
  | .local _ .vmem, ⟨2, _⟩ => ⟨S2048x64, .f32⟩
  | .local _ .vmem, ⟨3, _⟩ => ⟨S64x64, .f32⟩
  | .local _ .vmem, ⟨4, _⟩ => ⟨S64x64, .f32⟩
  | .local _ .vmem, ⟨5, _⟩ => ⟨S1x64, .f32⟩
  | .local _ .vmem, ⟨6, _⟩ => ⟨S32x64, .f32⟩
  | .local _ .vmem, ⟨7, _⟩ => ⟨S32x64, .f32⟩
  | .local _ .vmem, ⟨8, _⟩ => ⟨S1x32, .f32⟩
  | .local _ .vmem, ⟨9, _⟩ => ⟨S2048x32, .f32⟩
  | .local _ .vmem, ⟨10, _⟩ => ⟨S2048x2048, .f32⟩
  | .local _ .vmem, ⟨11, _⟩ => ⟨S2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c128_i32 : BitVec 32 := 128#32
  let v2 : BitVec 32 := Scalar.muli arg0 c128_i32
  let v3 : Index := Scalar.indexCast v2
  let c0_1 : Index := 0#32
  ![v3.toNat, 0]
def k0_off2 (i : grid0.Coords) : Fin 2 → Nat :=
  let arg0 : BitVec 32 := BitVec.ofNat 32 (i 0).val
  let c128_i32_2 : BitVec 32 := 128#32
  let v7 : BitVec 32 := Scalar.muli arg0 c128_i32_2
  let v8 : Index := Scalar.indexCast v7
  let c0_3 : Index := 0#32
  ![v8.toNat, 0]
def k0_cond3 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S64_S1x64 : S64.ShapeCasts S1x64
  shapeCasts_S32_S1x32 : S32.ShapeCasts S1x32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  h_S128x64 : 0 < S128x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S32x64_S32x64_0_0 : ∀ a, (![0, 0] : Fin 2 → Nat) a + S32x64.size a ≤ S32x64.size a
  h_S32x64 : 0 < S32x64.numel
  inb_S2048x2048_S2048x2048_0_0 : ∀ a, (![0, 0] : Fin 2 → Nat) a + S2048x2048.size a ≤ S2048x2048.size a
  h_S2048x2048 : 0 < S2048x2048.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  reduces_S2048x32_S2048 : S2048x32.Reduces [1] S2048
  shapeCasts_S2048_S2048x1 : S2048.ShapeCasts S2048x1
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  dot_S128x2048_S128x64_S2048x64_0_0_1_1_n_n_wf : DotDims.WF S128x2048 S128x64 S2048x64 [0] [0] [1] [1] [] []
  dot_S2048x64_S64x64_S2048x64_1_1_0_0_n_n_wf : DotDims.WF S2048x64 S64x64 S2048x64 [1] [1] [0] [0] [] []
  dot_S2048x64_S32x64_S2048x32_1_1_0_0_n_n_wf : DotDims.WF S2048x64 S32x64 S2048x32 [1] [1] [0] [0] [] []
  dot_S2048x2048_S2048x32_S2048x32_0_0_1_1_n_n_wf : DotDims.WF S2048x2048 S2048x32 S2048x32 [0] [0] [1] [1] [] []
  hrank0 : 0 < grid0.rank
  k0_off1_inb : ∀ i : grid0.Coords, ∀ a, (k0_off1 i) a + S128x2048.size a ≤ S2048x2048.size a
  k0_off2_inb : ∀ i : grid0.Coords, ∀ a, (k0_off2 i) a + S128x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .i32 = 32 ∨ (Rect.block (s := S2048x2048) S128x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x32.size a ≤ S2048x32.size a
  hwx0_8 : ∀ i : grid0.Coords, EltTy.bits .f32 = 32 ∨ (Rect.block (s := S2048x32) S2048x32.size (cc0_transform_8 i) (hinb0_8 i)).WholeWords (EltTy.packing .f32)

variable [Facts₀]

def dot_S128x2048_S128x64_S2048x64_0_0_1_1_n_n : DotDims S128x2048 S128x64 S2048x64 where
  lhsContracting := [0]
  rhsContracting := [0]
  lhsNonContracting := [1]
  rhsNonContracting := [1]
  lhsBatch := []
  rhsBatch := []
  wf := dot_S128x2048_S128x64_S2048x64_0_0_1_1_n_n_wf
def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S2048x64_S32x64_S2048x32_1_1_0_0_n_n : DotDims S2048x64 S32x64 S2048x32 where
  lhsContracting := [1]
  rhsContracting := [1]
  lhsNonContracting := [0]
  rhsNonContracting := [0]
  lhsBatch := []
  rhsBatch := []
  wf := dot_S2048x64_S32x64_S2048x32_1_1_0_0_n_n_wf
def dot_S2048x2048_S2048x32_S2048x32_0_0_1_1_n_n : DotDims S2048x2048 S2048x32 S2048x32 where
  lhsContracting := [0]
  rhsContracting := [0]
  lhsNonContracting := [1]
  rhsNonContracting := [1]
  lhsBatch := []
  rhsBatch := []
  wf := dot_S2048x2048_S2048x32_S2048x32_0_0_1_1_n_n_wf

abbrev win0_0 : Pipeline.Window sig grid0 :=
  Pipeline.Window.ofSpec (Memref.whole main_arg1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S2048x32.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | ⟨_ + 9, h⟩ => absurd h (Nat.not_lt.2 (Nat.le_add_left _ _))

class Facts : Prop extends Facts₀ where

variable [Facts]
-- ==== ReferenceIdeal.lean ====
abbrev S2048x64 : Shape := ⟨2, ![2048, 64]⟩
abbrev S2048x2048 : Shape := ⟨2, ![2048, 2048]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩
abbrev S4194304 : Shape := ⟨1, ![4194304]⟩
abbrev S4194304x1 : Shape := ⟨2, ![4194304, 1]⟩
abbrev S1 : Shape := ⟨1, ![1]⟩
abbrev S1x1 : Shape := ⟨2, ![1, 1]⟩
abbrev S4194304x64 : Shape := ⟨2, ![4194304, 64]⟩
abbrev S1x64 : Shape := ⟨2, ![1, 64]⟩
abbrev S64x32 : Shape := ⟨2, ![64, 32]⟩
abbrev S2048x32 : Shape := ⟨2, ![2048, 32]⟩
abbrev S1x32 : Shape := ⟨2, ![1, 32]⟩
abbrev S2048 : Shape := ⟨1, ![2048]⟩
abbrev S2048x1 : Shape := ⟨2, ![2048, 1]⟩

abbrev nBuf : Space → Nat
  | .hbm => 216
  | .vmem => 0
  | .smem => 0
  | _ => 0

abbrev hbmTy0_0 (i : Nat) : BufTy := match i % 128 with
  | 0 => ⟨S2048x64, .f32⟩
  | 1 => ⟨S2048x2048, .i32⟩
  | 2 => ⟨S64x64, .f32⟩
  | 3 => ⟨S64, .f32⟩
  | 4 => ⟨S64x64, .f32⟩
  | 5 => ⟨S32x64, .f32⟩
  | 6 => ⟨S32, .f32⟩
  | 7 => ⟨S32x64, .f32⟩
  | 8 => ⟨S_, .i32⟩
  | 9 => ⟨S2048x2048, .i32⟩
  | 10 => ⟨S2048x2048, .i1⟩
  | 11 => ⟨S4194304, .i1⟩
  | 12 => ⟨S4194304, .i32⟩
  | 13 => ⟨S_, .i32⟩
  | 14 => ⟨S_, .i32⟩
  | 15 => ⟨S4194304, .i32⟩
  | 16 => ⟨S_, .i32⟩
  | 17 => ⟨S4194304, .i32⟩
  | 18 => ⟨S_, .i32⟩
  | 19 => ⟨S_, .i32⟩
  | 20 => ⟨S4194304, .i32⟩
  | 21 => ⟨S4194304, .i32⟩
  | 22 => ⟨S_, .i32⟩
  | 23 => ⟨S4194304, .i32⟩
  | 24 => ⟨S4194304, .i1⟩
  | 25 => ⟨S_, .i32⟩
  | 26 => ⟨S4194304, .i32⟩
  | 27 => ⟨S4194304, .i32⟩
  | 28 => ⟨S4194304, .i32⟩
  | 29 => ⟨S4194304x1, .i32⟩
  | 30 => ⟨S_, .i32⟩
  | 31 => ⟨S4194304, .i32⟩
  | 32 => ⟨S4194304, .i32⟩
  | 33 => ⟨S_, .i32⟩
  | 34 => ⟨S_, .i32⟩
  | 35 => ⟨S4194304, .i32⟩
  | 36 => ⟨S_, .i32⟩
  | 37 => ⟨S4194304, .i32⟩
  | 38 => ⟨S4194304, .i32⟩
  | 39 => ⟨S4194304, .i32⟩
  | 40 => ⟨S_, .i32⟩
  | 41 => ⟨S4194304, .i32⟩
  | 42 => ⟨S4194304, .i1⟩
  | 43 => ⟨S4194304, .i32⟩
  | 44 => ⟨S4194304, .i32⟩
  | 45 => ⟨S_, .i32⟩
  | 46 => ⟨S4194304, .i32⟩
  | 47 => ⟨S4194304, .i1⟩
  | 48 => ⟨S4194304, .i1⟩
  | 49 => ⟨S_, .i32⟩
  | 50 => ⟨S4194304, .i32⟩
  | 51 => ⟨S4194304, .i32⟩
  | 52 => ⟨S4194304, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S4194304, .i32⟩
  | 60 => ⟨S4194304, .i32⟩
  | 61 => ⟨S_, .i32⟩
  | 62 => ⟨S4194304, .i32⟩
  | 63 => ⟨S4194304, .i1⟩
  | 64 => ⟨S_, .i32⟩
  | 65 => ⟨S4194304, .i32⟩
  | 66 => ⟨S4194304, .i1⟩
  | 67 => ⟨S_, .i32⟩
  | 68 => ⟨S_, .i1⟩
  | 69 => ⟨S4194304, .i1⟩
  | 70 => ⟨S4194304, .i1⟩
  | 71 => ⟨S4194304, .i1⟩
  | 72 => ⟨S4194304, .i32⟩
  | 73 => ⟨S4194304, .i32⟩
  | 74 => ⟨S4194304, .i32⟩
  | 75 => ⟨S_, .i32⟩
  | 76 => ⟨S4194304, .i32⟩
  | 77 => ⟨S4194304, .i32⟩
  | 78 => ⟨S4194304, .i32⟩
  | 79 => ⟨S_, .i32⟩
  | 80 => ⟨S4194304, .i32⟩
  | 81 => ⟨S4194304, .i1⟩
  | 82 => ⟨S4194304, .i32⟩
  | 83 => ⟨S4194304, .i32⟩
  | 84 => ⟨S_, .i32⟩
  | 85 => ⟨S4194304, .i32⟩
  | 86 => ⟨S4194304, .i1⟩
  | 87 => ⟨S4194304, .i1⟩
  | 88 => ⟨S_, .i32⟩
  | 89 => ⟨S4194304, .i32⟩
  | 90 => ⟨S4194304, .i32⟩
  | 91 => ⟨S4194304, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S4194304, .i32⟩
  | 99 => ⟨S4194304, .i32⟩
  | 100 => ⟨S_, .i32⟩
  | 101 => ⟨S4194304, .i32⟩
  | 102 => ⟨S4194304, .i1⟩
  | 103 => ⟨S_, .i32⟩
  | 104 => ⟨S4194304, .i32⟩
  | 105 => ⟨S4194304, .i1⟩
  | 106 => ⟨S_, .i32⟩
  | 107 => ⟨S_, .i1⟩
  | 108 => ⟨S4194304, .i1⟩
  | 109 => ⟨S4194304, .i1⟩
  | 110 => ⟨S4194304, .i1⟩
  | 111 => ⟨S4194304, .i32⟩
  | 112 => ⟨S4194304, .i32⟩
  | 113 => ⟨S4194304, .i32⟩
  | 114 => ⟨S4194304, .i32⟩
  | 115 => ⟨S2048x2048, .i32⟩
  | 116 => ⟨S_, .i32⟩
  | 117 => ⟨S_, .i32⟩
  | 118 => ⟨S4194304, .i32⟩
  | 119 => ⟨S4194304, .i1⟩
  | 120 => ⟨S_, .i32⟩
  | 121 => ⟨S_, .i32⟩
  | 122 => ⟨S4194304, .i32⟩
  | 123 => ⟨S4194304, .i32⟩
  | 124 => ⟨S_, .i32⟩
  | 125 => ⟨S_, .i32⟩
  | 126 => ⟨S4194304, .i32⟩
  | 127 => ⟨S4194304, .i32⟩
  | _ => ⟨S2048x64, .f32⟩

abbrev hbmTy0_1 (i : Nat) : BufTy := match i % 128 with
  | 0 => ⟨S_, .i32⟩
  | 1 => ⟨S4194304, .i32⟩
  | 2 => ⟨S4194304, .i1⟩
  | 3 => ⟨S_, .i32⟩
  | 4 => ⟨S4194304, .i32⟩
  | 5 => ⟨S4194304, .i32⟩
  | 6 => ⟨S4194304, .i32⟩
  | 7 => ⟨S4194304x1, .i32⟩
  | 8 => ⟨S1, .i32⟩
  | 9 => ⟨S_, .i32⟩
  | 10 => ⟨S4194304x1, .i32⟩
  | 11 => ⟨S4194304x1, .i1⟩
  | 12 => ⟨S1x1, .i32⟩
  | 13 => ⟨S4194304x1, .i32⟩
  | 14 => ⟨S4194304x1, .i1⟩
  | 15 => ⟨S4194304x1, .i1⟩
  | 16 => ⟨S_, .i1⟩
  | 17 => ⟨S4194304, .i1⟩
  | 18 => ⟨S4194304x64, .f32⟩
  | 19 => ⟨S4194304x64, .i1⟩
  | 20 => ⟨S_, .f32⟩
  | 21 => ⟨S4194304x64, .f32⟩
  | 22 => ⟨S4194304x64, .f32⟩
  | 23 => ⟨S_, .f32⟩
  | 24 => ⟨S2048x64, .f32⟩
  | 25 => ⟨S4194304x1, .i32⟩
  | 26 => ⟨S2048x64, .f32⟩
  | 27 => ⟨S64x64, .f32⟩
  | 28 => ⟨S2048x64, .f32⟩
  | 29 => ⟨S1x64, .f32⟩
  | 30 => ⟨S2048x64, .f32⟩
  | 31 => ⟨S2048x64, .f32⟩
  | 32 => ⟨S64x64, .f32⟩
  | 33 => ⟨S2048x64, .f32⟩
  | 34 => ⟨S2048x64, .f32⟩
  | 35 => ⟨S_, .f32⟩
  | 36 => ⟨S2048x64, .f32⟩
  | 37 => ⟨S2048x64, .f32⟩
  | 38 => ⟨S_, .i32⟩
  | 39 => ⟨S4194304, .i32⟩
  | 40 => ⟨S4194304, .i1⟩
  | 41 => ⟨S_, .i32⟩
  | 42 => ⟨S4194304, .i32⟩
  | 43 => ⟨S4194304, .i32⟩
  | 44 => ⟨S4194304, .i32⟩
  | 45 => ⟨S4194304x1, .i32⟩
  | 46 => ⟨S1, .i32⟩
  | 47 => ⟨S_, .i32⟩
  | 48 => ⟨S4194304x1, .i32⟩
  | 49 => ⟨S4194304x1, .i1⟩
  | 50 => ⟨S1x1, .i32⟩
  | 51 => ⟨S4194304x1, .i32⟩
  | 52 => ⟨S4194304x1, .i1⟩
  | 53 => ⟨S4194304x1, .i1⟩
  | 54 => ⟨S_, .i1⟩
  | 55 => ⟨S4194304, .i1⟩
  | 56 => ⟨S4194304x64, .f32⟩
  | 57 => ⟨S4194304x64, .i1⟩
  | 58 => ⟨S_, .f32⟩
  | 59 => ⟨S4194304x64, .f32⟩
  | 60 => ⟨S4194304x64, .f32⟩
  | 61 => ⟨S_, .f32⟩
  | 62 => ⟨S2048x64, .f32⟩
  | 63 => ⟨S4194304x1, .i32⟩
  | 64 => ⟨S2048x64, .f32⟩
  | 65 => ⟨S64x32, .f32⟩
  | 66 => ⟨S2048x32, .f32⟩
  | 67 => ⟨S1x32, .f32⟩
  | 68 => ⟨S2048x32, .f32⟩
  | 69 => ⟨S2048x32, .f32⟩
  | 70 => ⟨S64x32, .f32⟩
  | 71 => ⟨S2048x32, .f32⟩
  | 72 => ⟨S2048x32, .f32⟩
  | 73 => ⟨S_, .f32⟩
  | 74 => ⟨S2048, .f32⟩
  | 75 => ⟨S_, .f32⟩
  | 76 => ⟨S2048, .f32⟩
  | 77 => ⟨S2048, .f32⟩
  | 78 => ⟨S2048x1, .f32⟩
  | 79 => ⟨S2048x32, .f32⟩
  | 80 => ⟨S2048x32, .f32⟩
  | 81 => ⟨S2048x32, .f32⟩
  | 82 => ⟨S_, .f32⟩
  | 83 => ⟨S2048, .f32⟩
  | 84 => ⟨S2048x1, .f32⟩
  | 85 => ⟨S2048x1, .f32⟩
  | 86 => ⟨S2048x32, .f32⟩
  | 87 => ⟨S2048x32, .f32⟩
  | _ => ⟨S2048x64, .f32⟩

abbrev hbmTy (i : Nat) : BufTy := match i / 128 with
  | 0 => hbmTy0_0 i
  | 1 => hbmTy0_1 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_call0_c : Ref sig .tc := ⟨.hbm, 13, rfl⟩
abbrev main_call0_call0_v0 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_v4 : Ref sig .tc := ⟨.hbm, 21, rfl⟩
abbrev main_c_2 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_call2_call0_c : Ref sig .tc := ⟨.hbm, 33, rfl⟩
abbrev main_call2_call0_v0 : Ref sig .tc := ⟨.hbm, 34, rfl⟩
abbrev main_v13 : Ref sig .tc := ⟨.hbm, 35, rfl⟩
abbrev main_c_5 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_c : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_c_0 : Ref sig .tc := ⟨.hbm, 49, rfl⟩
abbrev main_call3_v11 : Ref sig .tc := ⟨.hbm, 50, rfl⟩
abbrev main_call3_v12 : Ref sig .tc := ⟨.hbm, 51, rfl⟩
abbrev main_v14 : Ref sig .tc := ⟨.hbm, 52, rfl⟩
abbrev main_c_6 : Ref sig .tc := ⟨.hbm, 53, rfl⟩
abbrev main_call4_v0 : Ref sig .tc := ⟨.hbm, 54, rfl⟩
abbrev main_call4_c : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_c_1 : Ref sig .tc := ⟨.hbm, 61, rfl⟩
abbrev main_call4_v5 : Ref sig .tc := ⟨.hbm, 62, rfl⟩
abbrev main_call4_v6 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_c_3 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v15 : Ref sig .tc := ⟨.hbm, 74, rfl⟩
abbrev main_c_7 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_v6 : Ref sig .tc := ⟨.hbm, 82, rfl⟩
abbrev main_call5_v7 : Ref sig .tc := ⟨.hbm, 83, rfl⟩
abbrev main_call5_c : Ref sig .tc := ⟨.hbm, 84, rfl⟩
abbrev main_call5_v8 : Ref sig .tc := ⟨.hbm, 85, rfl⟩
abbrev main_call5_v9 : Ref sig .tc := ⟨.hbm, 86, rfl⟩
abbrev main_call5_v10 : Ref sig .tc := ⟨.hbm, 87, rfl⟩
abbrev main_call5_c_0 : Ref sig .tc := ⟨.hbm, 88, rfl⟩
abbrev main_call5_v11 : Ref sig .tc := ⟨.hbm, 89, rfl⟩
abbrev main_call5_v12 : Ref sig .tc := ⟨.hbm, 90, rfl⟩
abbrev main_v16 : Ref sig .tc := ⟨.hbm, 91, rfl⟩
abbrev main_c_8 : Ref sig .tc := ⟨.hbm, 92, rfl⟩
abbrev main_call6_v0 : Ref sig .tc := ⟨.hbm, 93, rfl⟩
abbrev main_call6_c : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_c_1 : Ref sig .tc := ⟨.hbm, 100, rfl⟩
abbrev main_call6_v5 : Ref sig .tc := ⟨.hbm, 101, rfl⟩
abbrev main_call6_v6 : Ref sig .tc := ⟨.hbm, 102, rfl⟩
abbrev main_call6_c_2 : Ref sig .tc := ⟨.hbm, 103, rfl⟩
abbrev main_call6_v7 : Ref sig .tc := ⟨.hbm, 104, rfl⟩
abbrev main_call6_v8 : Ref sig .tc := ⟨.hbm, 105, rfl⟩
abbrev main_call6_c_3 : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_v12 : Ref sig .tc := ⟨.hbm, 110, rfl⟩
abbrev main_call6_v13 : Ref sig .tc := ⟨.hbm, 111, rfl⟩
abbrev main_call6_v14 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_c_9 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_c_10 : Ref sig .tc := ⟨.hbm, 120, rfl⟩
abbrev main_call7_v0 : Ref sig .tc := ⟨.hbm, 121, rfl⟩
abbrev main_call7_v1 : Ref sig .tc := ⟨.hbm, 122, rfl⟩
abbrev main_v23 : Ref sig .tc := ⟨.hbm, 123, rfl⟩
abbrev main_c_11 : Ref sig .tc := ⟨.hbm, 124, rfl⟩
abbrev main_call8_v0 : Ref sig .tc := ⟨.hbm, 125, rfl⟩
abbrev main_call8_v1 : Ref sig .tc := ⟨.hbm, 126, rfl⟩
abbrev main_v24 : Ref sig .tc := ⟨.hbm, 127, rfl⟩
abbrev main_call9_c : Ref sig .tc := ⟨.hbm, 128, rfl⟩
abbrev main_call9_v0 : Ref sig .tc := ⟨.hbm, 129, rfl⟩
abbrev main_call9_v1 : Ref sig .tc := ⟨.hbm, 130, rfl⟩
abbrev main_call9_c_0 : Ref sig .tc := ⟨.hbm, 131, rfl⟩
abbrev main_call9_v2 : Ref sig .tc := ⟨.hbm, 132, rfl⟩
abbrev main_call9_v3 : Ref sig .tc := ⟨.hbm, 133, rfl⟩
abbrev main_call9_v4 : Ref sig .tc := ⟨.hbm, 134, rfl⟩
abbrev main_call9_v5 : Ref sig .tc := ⟨.hbm, 135, rfl⟩
abbrev main_call9_c_1 : Ref sig .tc := ⟨.hbm, 136, rfl⟩
abbrev main_call9_c_2 : Ref sig .tc := ⟨.hbm, 137, rfl⟩
abbrev main_call9_v6 : Ref sig .tc := ⟨.hbm, 138, rfl⟩
abbrev main_call9_v7 : Ref sig .tc := ⟨.hbm, 139, rfl⟩
abbrev main_call9_v8 : Ref sig .tc := ⟨.hbm, 140, rfl⟩
abbrev main_call9_v9 : Ref sig .tc := ⟨.hbm, 141, rfl⟩
abbrev main_call9_v10 : Ref sig .tc := ⟨.hbm, 142, rfl⟩
abbrev main_call9_v11 : Ref sig .tc := ⟨.hbm, 143, rfl⟩
abbrev main_call9_c_3 : Ref sig .tc := ⟨.hbm, 144, rfl⟩
abbrev main_call9_v12 : Ref sig .tc := ⟨.hbm, 145, rfl⟩
abbrev main_call9_v13 : Ref sig .tc := ⟨.hbm, 146, rfl⟩
abbrev main_call9_v14 : Ref sig .tc := ⟨.hbm, 147, rfl⟩
abbrev main_call9_cst : Ref sig .tc := ⟨.hbm, 148, rfl⟩
abbrev main_call9_v15 : Ref sig .tc := ⟨.hbm, 149, rfl⟩
abbrev main_v25 : Ref sig .tc := ⟨.hbm, 150, rfl⟩
abbrev main_cst : Ref sig .tc := ⟨.hbm, 151, rfl⟩
abbrev main_v26 : Ref sig .tc := ⟨.hbm, 152, rfl⟩
abbrev main_v27 : Ref sig .tc := ⟨.hbm, 153, rfl⟩
abbrev main_v28 : Ref sig .tc := ⟨.hbm, 154, rfl⟩
abbrev main_v29 : Ref sig .tc := ⟨.hbm, 155, rfl⟩
abbrev main_v30 : Ref sig .tc := ⟨.hbm, 156, rfl⟩
abbrev main_v31 : Ref sig .tc := ⟨.hbm, 157, rfl⟩
abbrev main_v32 : Ref sig .tc := ⟨.hbm, 158, rfl⟩
abbrev main_v33 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_call10_cst : Ref sig .tc := ⟨.hbm, 163, rfl⟩
abbrev main_call10_v0 : Ref sig .tc := ⟨.hbm, 164, rfl⟩
abbrev main_v37 : Ref sig .tc := ⟨.hbm, 165, rfl⟩
abbrev main_call11_c : Ref sig .tc := ⟨.hbm, 166, rfl⟩
abbrev main_call11_v0 : Ref sig .tc := ⟨.hbm, 167, rfl⟩
abbrev main_call11_v1 : Ref sig .tc := ⟨.hbm, 168, rfl⟩
abbrev main_call11_c_0 : Ref sig .tc := ⟨.hbm, 169, rfl⟩
abbrev main_call11_v2 : Ref sig .tc := ⟨.hbm, 170, rfl⟩
abbrev main_call11_v3 : Ref sig .tc := ⟨.hbm, 171, rfl⟩
abbrev main_call11_v4 : Ref sig .tc := ⟨.hbm, 172, rfl⟩
abbrev main_call11_v5 : Ref sig .tc := ⟨.hbm, 173, rfl⟩
abbrev main_call11_c_1 : Ref sig .tc := ⟨.hbm, 174, rfl⟩
abbrev main_call11_c_2 : Ref sig .tc := ⟨.hbm, 175, rfl⟩
abbrev main_call11_v6 : Ref sig .tc := ⟨.hbm, 176, rfl⟩
abbrev main_call11_v7 : Ref sig .tc := ⟨.hbm, 177, rfl⟩
abbrev main_call11_v8 : Ref sig .tc := ⟨.hbm, 178, rfl⟩
abbrev main_call11_v9 : Ref sig .tc := ⟨.hbm, 179, rfl⟩
abbrev main_call11_v10 : Ref sig .tc := ⟨.hbm, 180, rfl⟩
abbrev main_call11_v11 : Ref sig .tc := ⟨.hbm, 181, rfl⟩
abbrev main_call11_c_3 : Ref sig .tc := ⟨.hbm, 182, rfl⟩
abbrev main_call11_v12 : Ref sig .tc := ⟨.hbm, 183, rfl⟩
abbrev main_call11_v13 : Ref sig .tc := ⟨.hbm, 184, rfl⟩
abbrev main_call11_v14 : Ref sig .tc := ⟨.hbm, 185, rfl⟩
abbrev main_call11_cst : Ref sig .tc := ⟨.hbm, 186, rfl⟩
abbrev main_call11_v15 : Ref sig .tc := ⟨.hbm, 187, rfl⟩
abbrev main_v38 : Ref sig .tc := ⟨.hbm, 188, rfl⟩
abbrev main_cst_12 : Ref sig .tc := ⟨.hbm, 189, rfl⟩
abbrev main_v39 : Ref sig .tc := ⟨.hbm, 190, rfl⟩
abbrev main_v40 : Ref sig .tc := ⟨.hbm, 191, rfl⟩
abbrev main_v41 : Ref sig .tc := ⟨.hbm, 192, rfl⟩
abbrev main_v42 : Ref sig .tc := ⟨.hbm, 193, rfl⟩
abbrev main_v43 : Ref sig .tc := ⟨.hbm, 194, rfl⟩
abbrev main_v44 : Ref sig .tc := ⟨.hbm, 195, rfl⟩
abbrev main_v45 : Ref sig .tc := ⟨.hbm, 196, rfl⟩
abbrev main_v46 : Ref sig .tc := ⟨.hbm, 197, rfl⟩
abbrev main_v47 : Ref sig .tc := ⟨.hbm, 198, rfl⟩
abbrev main_v48 : Ref sig .tc := ⟨.hbm, 199, rfl⟩
abbrev main_v49 : Ref sig .tc := ⟨.hbm, 200, rfl⟩
abbrev main_call12_cst : Ref sig .tc := ⟨.hbm, 201, rfl⟩
abbrev main_call12_v0 : Ref sig .tc := ⟨.hbm, 202, rfl⟩
abbrev main_call12_cst_0 : Ref sig .tc := ⟨.hbm, 203, rfl⟩
abbrev main_call12_v1 : Ref sig .tc := ⟨.hbm, 204, rfl⟩
abbrev main_call12_v2 : Ref sig .tc := ⟨.hbm, 205, rfl⟩
abbrev main_call12_v3 : Ref sig .tc := ⟨.hbm, 206, rfl⟩
abbrev main_call12_v4 : Ref sig .tc := ⟨.hbm, 207, rfl⟩
abbrev main_call12_v5 : Ref sig .tc := ⟨.hbm, 208, rfl⟩
abbrev main_call12_v6 : Ref sig .tc := ⟨.hbm, 209, rfl⟩
abbrev main_call12_cst_1 : Ref sig .tc := ⟨.hbm, 210, rfl⟩
abbrev main_call12_v7 : Ref sig .tc := ⟨.hbm, 211, rfl⟩
abbrev main_call12_v8 : Ref sig .tc := ⟨.hbm, 212, rfl⟩
abbrev main_call12_v9 : Ref sig .tc := ⟨.hbm, 213, rfl⟩
abbrev main_call12_v10 : Ref sig .tc := ⟨.hbm, 214, rfl⟩
abbrev main_v50 : Ref sig .tc := ⟨.hbm, 215, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S4194304 : S2048x2048.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S2048x2048_S_d0_1 : S2048x2048.ReducesTo [0, 1] S_
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  bcast_S4194304_S4194304x64_0 : S4194304.BroadcastsInDim S4194304x64 (![0] : Fin 1 → Fin S4194304x64.rank)
  bcast_S_S4194304x64 : S_.BroadcastsInDim S4194304x64 (![] : Fin 0 → Fin S4194304x64.rank)
  bcast_S_S2048x64 : S_.BroadcastsInDim S2048x64 (![] : Fin 0 → Fin S2048x64.rank)
  transposes_S64x64_S64x64_1_0 : S64x64.Transposes [1, 0] S64x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S32x64_S64x32_1_0 : S32x64.Transposes [1, 0] S64x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  reducesTo_S2048x32_S2048_d1 : S2048x32.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  scatter_S4194304_S4194304x1_S4194304_n_0_0_1_wf : ScatterDims.WF S4194304 S4194304x1 S4194304 [] [0] [0] 1
  gather_S2048x64_S4194304x1_S4194304x64_1_0_n_n_0_1_164_wf : GatherDims.WF S2048x64 S4194304x1 S4194304x64 [1] [0] [] [0] [] 1 ![1, 64]
  scatter_S2048x64_S4194304x1_S4194304x64_1_0_0_1_wf : ScatterDims.WF S2048x64 S4194304x1 S4194304x64 [1] [0] [0] 1
  dot_S2048x64_S64x64_S2048x64_1_0_0_1_n_n_wf : DotDims.WF S2048x64 S64x64 S2048x64 [1] [0] [0] [1] [] []
  dot_S2048x64_S64x32_S2048x32_1_0_0_1_n_n_wf : DotDims.WF S2048x64 S64x32 S2048x32 [1] [0] [0] [1] [] []

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf
def gather_S2048x64_S4194304x1_S4194304x64_1_0_n_n_0_1_164 : GatherDims S2048x64 S4194304x1 S4194304x64 where
  offsetDims := [1]
  collapsedSliceDims := [0]
  operandBatchingDims := []
  startIndicesBatchingDims := []
  startIndexMap := [0]
  indexVectorDim := 1
  sliceSizes := ![1, 64]
  wf := gather_S2048x64_S4194304x1_S4194304x64_1_0_n_n_0_1_164_wf
def scatter_S2048x64_S4194304x1_S4194304x64_1_0_0_1 : ScatterDims S2048x64 S4194304x1 S4194304x64 where
  updateWindowDims := [1]
  insertedWindowDims := [0]
  scatterDimsToOperandDims := [0]
  indexVectorDim := 1
  wf := scatter_S2048x64_S4194304x1_S4194304x64_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf

class Facts : Prop extends Facts₀ where

variable [Facts]
-- ==== Proof.KData.lean ====
import proofs.«114369_g3530463117553_cont_sun_c4_324_4_alg».proof.Proof.Gen.KernelIdeal.Frame
import proofs.«114369_g3530463117553_cont_sun_c4_324_4_alg».proof.Proof.Gen.KernelIdeal.Skeleton
import Idealize.ShloMosaic.Lib.Pipeline.Value
import Idealize.ShloMosaic.Lib.WholeRead
import Idealize.ShloMosaic.Lib.ValueIdx

/-!
# What the kernel holds, point by point

The kernel visits the sixteen row slabs of the 2048 × 2048 adjacency in order. At slab `t` it casts the
slab to floats and keeps it in rows `[128 t, 128 t + 128)` of a 2048 × 2048 scratch, and adds the slab's
contribution `slabᵀ · x[128 t … 128 t + 127]` to a 2048 × 64 running sum kept in a second scratch (at slab 0
the sum is SET, not added to). After the last slab every row of the first scratch has been overwritten, so
it holds the whole cast adjacency whatever it held at entry, the second scratch holds the sum over all
slabs, and the two layers and the log-softmax are computed from them and from the weights.

This module names those quantities as functions of the launch memory: the slab and the rows of `x` a
point reads, the running sum after each point (by recursion on the point), the first scratch after each
point over arbitrary entry contents, the whole cast adjacency, the result, the invariant between points
and the pipeline's proof data; and it states how each is read at an index.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

/-! ## The grid, the two scratch buffers, the two row slabs -/

/-- The grid has sixteen points. -/
theorem N16 : cfg0.N = 16 := Gen.N_0

/-- The last point. -/
abbrev lastPt : Fin cfg0.N := ⟨15, by decide⟩

/-- The one coordinate of a point is its number. -/
theorem coord_val : ∀ t : Fin cfg0.N, ((grid0.coords t) 0).val = t.val :=
  (by decide +kernel : ∀ t : Fin grid0.N, ((grid0.coords t) 0).val = t.val)

/-- The 2048 × 2048 scratch (the cast adjacency, slab by slab) and the 2048 × 64 scratch (the running sum). -/
abbrev scM10 : Memref sig .tc .vmem S2048x2048 .f32 := Memref.whole cc0_scratch0
abbrev scM11 : Memref sig .tc .vmem S2048x64 .f32 := Memref.whole cc0_scratch1

/-- Rows `[128 i, 128 i + 128)` of the 2048 × 2048 scratch: where point `i` stores its cast slab. -/
abbrev slab10 (i : grid0.Coords) : Rect S2048x2048 :=
  Rect.unit (s := S2048x2048) (k0_off1 i) S128x2048.size (Gen.k0_off1_inb i)

/-- Rows `[128 i, 128 i + 128)` of `x`: the rows point `i` multiplies its slab with. -/
abbrev slabX (i : grid0.Coords) : Rect S2048x64 :=
  Rect.unit (s := S2048x64) (k0_off2 i) S128x64.size (Gen.k0_off2_inb i)

/-- The slab a row of the adjacency lies in. -/
def slabOf (r : Fin 2048) : Fin cfg0.N := ⟨r.val / 128, by rw [N16]; omega⟩

theorem slabOf_val (r : Fin 2048) : (slabOf r).val = r.val / 128 := rfl

/-- A point's number is below sixteen. -/
theorem pt_lt (t : Fin cfg0.N) : t.val < 16 := lt_of_lt_of_eq t.isLt N16

variable (m : (ℓ : Loc nD τ sig) → Buf (Elt F) ℓ) (ρ : Dev nD → PrngReg)

/-! ## What a point reads, and what it adds -/

/-- The adjacency slab of point `t` (integers). -/
def adj (c : Dev nD) (t : Fin cfg0.N) : Vec F S128x2048 .i32 := Gen.iblk m c 0 t

/-- The same slab as floats: what point `t` stores into its rows of the first scratch. -/
def castAdj (c : Dev nD) (t : Fin cfg0.N) : Vec F S128x2048 .f32 := Gen.k0_pay2 (adj m c t)

/-- The 128 rows of `x` point `t` reads: rows `[128 t, 128 t + 128)` of the staged `x`. -/
def xRows (c : Dev nD) (t : Fin cfg0.N) : Vec F S128x64 .f32 :=
  View.ld (Val := Elt F) (Gen.iblk m c 1 t : Vec F S2048x64 .f32) (slabX (grid0.coords t))

/-- THE RUNNING SUM after point `n`: set at point 0 to the first slab's contribution, each later slab's added. -/
def acc (c : Dev nD) : (n : ℕ) → n < cfg0.N → Vec F S2048x64 .f32
  | 0, h => Gen.k0_pay4 (adj m c ⟨0, h⟩) (xRows m c ⟨0, h⟩)
  | n + 1, h => Gen.k0_pay5 (adj m c ⟨n + 1, h⟩) (xRows m c ⟨n + 1, h⟩) (acc c n (Nat.lt_of_succ_lt h))

/-- THE FIRST SCRATCH after point `n`, if it held `J` when the kernel started: the slabs of points `0 … n`
    overwritten by their cast adjacency slabs, the other rows still `J`'s. -/
def filled (c : Dev nD) (J : Vec F S2048x2048 .f32) : (n : ℕ) → n < cfg0.N → Vec F S2048x2048 .f32
  | 0, h => (slab10 (grid0.coords ⟨0, h⟩)).overlay J (castAdj m c ⟨0, h⟩)
  | n + 1, h => (slab10 (grid0.coords ⟨n + 1, h⟩)).overlay (filled c J n (Nat.lt_of_succ_lt h)) (castAdj m c ⟨n + 1, h⟩)

/-- THE WHOLE CAST ADJACENCY: row `r` is row `r % 128` of the cast slab `r / 128`. -/
def adjAll (c : Dev nD) : Vec F S2048x2048 .f32 := fun y =>
  castAdj m c (slabOf (y 0)) (ix2 (⟨(y 0).val % 128, Nat.mod_lt _ (by decide)⟩ : Fin 128) (y 1 : Fin 2048))

/-- THE RESULT: the two layers and the row-wise log-softmax, of the staged `x`, the running sum over all sixteen
    slabs, the weights and biases, and the whole cast adjacency. -/
def result (c : Dev nD) : Vec F S2048x32 .f32 :=
  Gen.k0_pay6 (Gen.iblk m c 1 lastPt) (acc m c 15 lastPt.isLt) (Gen.iblk m c 2 lastPt) (Gen.iblk m c 4 lastPt)
    (Gen.iblk m c 3 lastPt) (Gen.iblk m c 5 lastPt) (adjAll m c) (Gen.iblk m c 7 lastPt) (Gen.iblk m c 6 lastPt)

/-! ## The invariant between points and the proof data -/

/-- Before point `n`: at the start nothing is known of the scratch buffers (the class invariant); after point
    `n - 1` the first scratch holds its filled slabs over SOME entry contents, the second the running sum, and the
    generator register is at some state. -/
def Phi (c : Dev nD) : (n : ℕ) → n ≤ cfg0.N → sProp 𝕄
  | 0, _ => Pipeline.ΦA spec0 c
  | n + 1, hn => iprop((∃ J, owns (c : Thread nD τ) scM10 fullShare (filled m c J n hn))
      ∗ owns (c : Thread nD τ) scM11 fullShare (acc m c n hn) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop((∃ J, owns (c : Thread nD τ) scM10 fullShare (filled m c J n hn))
      ∗ owns (c : Thread nD τ) scM11 fullShare (acc m c n hn) ∗ (∃ r, prngReg c r)) := rfl

theorem Phi_pos (c : Dev nD) (n : ℕ) (h : n ≤ cfg0.N) (hz : n ≠ 0) :
    Phi m c n h = iprop((∃ J, owns (c : Thread nD τ) scM10 fullShare (filled m c J (n - 1) (by omega)))
      ∗ owns (c : Thread nD τ) scM11 fullShare (acc m c (n - 1) (by omega)) ∗ (∃ r, prngReg c r)) := by
  cases n with
  | zero => exact absurd rfl hz
  | succ n => rfl

/-- The class invariant with the two scratch buffers as whole memrefs at some contents. -/
theorem PhiA_eq (c : Dev nD) :
    (Pipeline.ΦA spec0 c : sProp 𝕄)
      = iprop(iprop((∃ d, owns (c : Thread nD τ) scM10 fullShare d) ∗ (∃ d, owns (c : Thread nD τ) scM11 fullShare d))
          ∗ (∃ r, prngReg c r)) := by
  unfold Pipeline.ΦA; rw [Gen.scopedRest0_eq]; simp only [scM10, scM11, owns_whole]; try rfl

/-- THE PROOF DATA of the one pipeline on core `c`: the arrays as the region finds them; after the body each input's
    staging buffer still at its block, the output's at the result (read only where the body stores it: the last
    point); the invariant `Phi`; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => result m c
  Φ t := Phi m c t.val (Nat.le_of_lt_succ t.isLt)
  q _ := fullShare
  owed _ := 0

/-- The proof data's arrays are the region-entry contents. -/
theorem dats_A (c : Dev nD) (w : Fin cfg0.W) : (dats m 0 c).A w = Gen.V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = Gen.iblk m c 5 t := by dsimp only [dats]
theorem after_6 (c : Dev nD) (t : Fin cfg0.N) : (dats m 0 c).after 6 t = Gen.iblk m c 6 t := by dsimp only [dats]
theorem after_7 (c : Dev nD) (t : Fin cfg0.N) : (dats m 0 c).after 7 t = Gen.iblk m c 7 t := by dsimp only [dats]
theorem after_8 (c : Dev nD) (t : Fin cfg0.N) : (dats m 0 c).after 8 t = result m c := by dsimp only [dats]

/-! ## One slab stored over the scratch: rows of the slab take the cast adjacency, the others keep -/

/-- Storing point `t`'s cast slab over contents `X`: a row of slab `t` now reads the whole cast adjacency there,
    every other row still reads `X`. -/
theorem overlay_slab (c : Dev nD) (t : Fin cfg0.N) (X : Vec F S2048x2048 .f32) (y : S2048x2048.Idx) :
    (slab10 (grid0.coords t)).overlay X (castAdj m c t) y
      = if (y 0).val / 128 = t.val then adjAll m c y else X y := by
  have hoff : k0_off1 (grid0.coords t) = ![128 * t.val, 0] := by rw [Gen.k0_off1_eq, coord_val]
  by_cases h : (y 0).val / 128 = t.val
  · rw [if_pos h]
    have hy : y = (slab10 (grid0.coords t)).emb (ix2 (⟨(y 0).val % 128, Nat.mod_lt _ (by decide)⟩ : Fin 128) (y 1 : Fin 2048)) := by
      funext a
      apply Fin.ext
      rw [Rect.emb_apply]
      match a with
      | ⟨0, _⟩ =>
        show (y 0).val = (k0_off1 (grid0.coords t)) 0 + 1 * ((y 0).val % 128)
        rw [hoff]
        show (y 0).val = 128 * t.val + 1 * ((y 0).val % 128)
        omega
      | ⟨1, _⟩ =>
        show (y 1).val = (k0_off1 (grid0.coords t)) 1 + 1 * (y 1).val
        rw [hoff]
        show (y 1).val = 0 + 1 * (y 1).val
        omega
    have ht : slabOf (y 0) = t := Fin.ext h
    conv_lhs => rw [hy]
    rw [Rect.overlay_emb]
    unfold adjAll
    rw [ht]
  · rw [if_neg h]
    refine Rect.overlay_of_not_mem _ _ _ fun hm => h ?_
    have h0 := (Rect.mem_set_unit.mp hm) 0
    rw [hoff] at h0
    have h1 : 128 * t.val ≤ (y 0).val ∧ (y 0).val < 128 * t.val + 128 := h0
    omega

/-- After point `n` the rows of slabs `0 … n` read the whole cast adjacency. -/
theorem filled_apply_of_le (c : Dev nD) (J : Vec F S2048x2048 .f32) :
    ∀ (n : ℕ) (h : n < cfg0.N) (y : S2048x2048.Idx), (y 0).val / 128 ≤ n → filled m c J n h y = adjAll m c y
  | 0, h, y, hy => by
    show (slab10 (grid0.coords ⟨0, h⟩)).overlay J (castAdj m c ⟨0, h⟩) y = _
    rw [overlay_slab, if_pos (by show (y 0).val / 128 = 0; omega)]
  | n + 1, h, y, hy => by
    show (slab10 (grid0.coords ⟨n + 1, h⟩)).overlay (filled m c J n (Nat.lt_of_succ_lt h)) (castAdj m c ⟨n + 1, h⟩) y = _
    rw [overlay_slab]
    by_cases e : (y 0).val / 128 = n + 1
    · rw [if_pos e]
    · rw [if_neg e]
      exact filled_apply_of_le c J n (Nat.lt_of_succ_lt h) y (by omega)

/-! ## The interface: the result and its ingredients, read at an index -/

/-- (i) What the output's staging buffer holds after the last point, spelt out. -/
theorem after8_last (c : Dev nD) :
    (dats m 0 c).after 8 lastPt
      = Gen.k0_pay6 (Gen.iblk m c 1 lastPt) (acc m c 15 lastPt.isLt) (Gen.iblk m c 2 lastPt) (Gen.iblk m c 4 lastPt)
          (Gen.iblk m c 3 lastPt) (Gen.iblk m c 5 lastPt) (adjAll m c) (Gen.iblk m c 7 lastPt) (Gen.iblk m c 6 lastPt) := by
  rw [after_8]; rfl

/-- (ii-a) The whole cast adjacency at row `i`, column `j`: the cast slab `i / 128` at row `i % 128`, column `j`. -/
theorem adjAll_apply (c : Dev nD) (i j : Fin 2048) :
    adjAll m c (ix2 i j)
      = Gen.k0_pay2 (Gen.iblk m c 0 (slabOf i)) (ix2 (⟨i.val % 128, Nat.mod_lt _ (by decide)⟩ : Fin 128) j) := rfl

/-- (ii-b) The rows of `x` point `t` reads, at local row `r` and column `k`: row `128 t + r` of the staged `x`. -/
theorem xRows_apply (c : Dev nD) (t : Fin cfg0.N) (r : Fin 128) (k : Fin 64) :
    xRows m c t (ix2 r k)
      = Gen.iblk m c 1 t (ix2 (⟨128 * t.val + r.val, by have := pt_lt t; omega⟩ : Fin 2048) k) := by
  unfold xRows
  show (Gen.iblk m c 1 t : Vec F S2048x64 .f32) ((slabX (grid0.coords t)).toLoadRect.idx (ix2 r k)) = _
  congr 1
  funext a
  apply Fin.ext
  rw [LoadRect.idx_apply]
  match a with
  | ⟨0, _⟩ =>
    show (k0_off2 (grid0.coords t)) 0 + 1 * r.val = 128 * t.val + r.val
    rw [Gen.k0_off2_eq]
    show 128 * ((grid0.coords t) 0).val + 1 * r.val = 128 * t.val + r.val
    rw [coord_val]; omega
  | ⟨1, _⟩ =>
    show (k0_off2 (grid0.coords t)) 1 + 1 * k.val = k.val
    rw [Gen.k0_off2_eq]
    show 0 + 1 * k.val = k.val
    omega

/-- (ii-c) After the last point the first scratch holds the whole cast adjacency, whatever it held at entry. -/
theorem filled_last (c : Dev nD) (J : Vec F S2048x2048 .f32) : filled m c J 15 lastPt.isLt = adjAll m c :=
  funext fun y => filled_apply_of_le m c J 15 lastPt.isLt y (by have := (y 0).isLt; show (y 0).val / 128 ≤ 15; have h : (y 0).val < 2048 := this; omega)

/-- (iii) The output array after the region, read through the output window's one block (the whole array), is what
    the last point left in the staging buffer. -/
theorem arrAt8 (c : Dev nD) :
    ((cfg0.win 8).blk lastPt).view.read (Elt F) ((dats m 0 c).arrAt 8 cfg0.N) = (dats m 0 c).after 8 lastPt := by
  have hval : ∀ t : Fin cfg0.N, (cfg0.win 8).flush t = true → t = lastPt := fun t hf => by
    have h := (Gen.flush0_8 t).mp hf
    have := pt_lt t
    exact Fin.ext (by show t.val = 15; omega)
  refine (Pipeline.Dat.read_blk_arrAt_eq_flushed (dats m 0 c) 8 (fun t t' hf hf' hne => ?_) cfg0.N lastPt lastPt.isLt
    ((Gen.flush0_8 lastPt).mpr rfl)).trans ?_
  · exact absurd ((hval t hf).trans (hval t' hf').symm) hne
  · rfl

end Cert.KernelIdeal.Body

end
-- ==== Proof.KBody.lean ====
import proofs.«114369_g3530463117553_cont_sun_c4_324_4_alg».proof.Proof.KData
import Idealize.ShloMosaic.Lib.Exec
import Idealize.ShloMosaic.Lib.Tactic
import Idealize.ShloMosaic.Lib.Pipeline.FrameBody

/-!
# The kernel body at each point, and the launch

Three kinds of point: the first (the running sum is SET), the middle ones (it is added to), the last (added to,
then the two layers and the log-softmax are computed from the scratch buffers and stored into the output's
staging buffer). Each is one run of the body's memory operations; what the run leaves is restated through the
views as plain functions of what it found: a slab store over contents `J` leaves `J` with the slab's rows replaced,
a whole store leaves its payload, a whole load through a whole buffer reads the contents. The body obligation
follows by cases on the point, and the launch theorem carries the invariant across the sixteen points.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

/-! ## Reading through views: whole loads, whole stores, a slab store -/

section Views

variable {sg : RefSig} {κ : Kind} {sp : Space} {s : Shape} {e : EltTy} {Val : EltTy → Type}

/-- The two-axis zero offsets, as the constant function. -/
theorem off00 : (![0, 0] : Fin 2 → ℕ) = fun _ => 0 := by
  funext a; match a with | ⟨0, _⟩ => rfl | ⟨1, _⟩ => rfl

/-- A load of the whole shape reads the contents as the view reads them. -/
theorem readAt_whole (v : View sg κ sp s e) {off : Fin s.rank → ℕ} (ho : off = fun _ => 0)
    (inb : ∀ a, off a + s.size a ≤ s.size a) (f : v.ty.Contents Val) :
    v.readAt Val (Rect.unit off s.size inb).toLoadRect f = v.read Val f := by
  rw [View.readAt_eq_ld, View.ld_unit_zero ho]

/-- A load through a rectangle of a whole buffer held at the contents that read `X` reads `X` on the rectangle. -/
theorem readAt_unread (M : Memref sg κ sp s e) (h : M.IsWhole) (R : Rect s) (X : s.Idx → Val e) :
    M.view.readAt Val R.toLoadRect (h.unread X) = View.ld X R := by
  rw [View.readAt_eq_ld, h.read_unread]

/-- A load of the whole shape through a whole buffer held at the contents that read `X` reads `X`. -/
theorem readAt_whole_unread (M : Memref sg κ sp s e) (h : M.IsWhole) {off : Fin s.rank → ℕ} (ho : off = fun _ => 0)
    (inb : ∀ a, off a + s.size a ≤ s.size a) (X : s.Idx → Val e) :
    M.view.readAt Val (Rect.unit off s.size inb).toLoadRect (h.unread X) = X := by
  rw [readAt_whole _ ho, h.read_unread]

/-- A store through a rectangle, last: the rectangle reads the payload, the rest what the earlier stores left. -/
theorem read_writes_cons_overlay (v : View sg κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    rw [show r.idx x = r.emb x from rfl, View.read_writes_cons_emb, Rect.overlay_emb]
  · rw [View.writes_cons, View.read_slice_write_of_not_mem r _ _ _ (by rwa [Rect.map_emb_univ]),
      Rect.overlay_of_not_mem _ _ _ hy]

/-- A store of the whole shape, last, leaves its payload. -/
theorem read_writes_whole (v : View sg κ sp s e) (f : v.ty.Contents Val) {off : Fin s.rank → ℕ} (ho : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst ho; funext y
  have e := View.read_writes_cons_emb v f (Rect.whole s) w L y
  rw [Rect.emb_whole_apply] at e
  exact e

end Views

/-! ## The three conditions of the body, decided over the grid -/

/-- "This is the first point." -/
abbrev cond1 (i : grid0.Coords) : Prop :=
  (Scalar.cmpi .ne (Scalar.extui (Scalar.cmpi .eq (BitVec.ofNat 32 (i 0).val) 0#32)) 0#32) = 1#1
/-- "This is a later point." -/
abbrev cond2 (i : grid0.Coords) : Prop :=
  (Scalar.cmpi .ne (Scalar.extui (Scalar.cmpi .sgt (BitVec.ofNat 32 (i 0).val) 0#32)) 0#32) = 1#1
/-- "This is the last point." -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val ≠ 0 :=
  (by decide +kernel : ∀ t : Fin grid0.N, cond2 (grid0.coords t) ↔ t.val ≠ 0)
theorem hcond3 : ∀ t : Fin cfg0.N, cond3 (grid0.coords t) ↔ t.val = 15 :=
  (by decide +kernel : ∀ t : Fin grid0.N, cond3 (grid0.coords t) ↔ t.val = 15)

/-- The inputs are never idle; the output is idle, and not written back, except at the last point. -/
theorem live_in : ∀ (w : Fin cfg0.W), w.val < 8 → ∀ t : Fin cfg0.N, cfg0.idle w (grid0.coords t) = false := by decide +kernel
theorem idle8 : ∀ t : Fin cfg0.N, ¬cond3 (grid0.coords t) → cfg0.idle 8 (grid0.coords t) = true := by decide +kernel
theorem noFlush8 : ∀ t : Fin cfg0.N, ¬cond3 (grid0.coords t) → (cfg0.win 8).flush t = false := by decide +kernel
theorem live8 : ∀ t : Fin cfg0.N, cond3 (grid0.coords t) → cfg0.idle 8 (grid0.coords t) = false := by decide +kernel

/-! ## The body's runs, one per kind of point -/

set_option maxHeartbeats 1000000 in
/-- THE FIRST POINT. On whole buffers — the adjacency slab's at `x₁`, `x`'s at `x₂`, the first scratch at `J`, the
    second at anything — the body leaves the inputs as they were, the first scratch at `J` with the point's rows
    replaced by the cast slab, and the second at the slab's contribution. -/
theorem run_first (c : Dev nD) (i : grid0.Coords) (arg1 : Memref sig .tc .vmem S128x2048 .i32) (harg1 : arg1.IsWhole) (arg2 : Memref sig .tc .vmem S2048x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S32x64 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x2048 .f32) (harg10 : arg10.IsWhole) (arg11 : Memref sig .tc .vmem S2048x64 .f32) (harg11 : arg11.IsWhole)
    (hc1 : cond1 i) (hc2 : ¬cond2 i) (hc3 : ¬cond3 i)
    (x1 : Vec F S128x2048 .i32) (x2 : Vec F S2048x64 .f32)
    (J : Vec F S2048x2048 .f32) (A : Vec F S2048x64 .f32) (E : Set ℕ) (K : PUnit → sProp 𝕄) :
    iprop(owns (c : Thread nD τ) arg1 fullShare x1 ∗ owns (c : Thread nD τ) arg2 fullShare x2
        ∗ owns (c : Thread nD τ) arg10 fullShare J ∗ owns (c : Thread nD τ) arg11 fullShare A
        ∗ (iprop(owns (c : Thread nD τ) arg1 fullShare x1 ∗ owns (c : Thread nD τ) arg2 fullShare x2
            ∗ owns (c : Thread nD τ) arg10 fullShare ((slab10 i).overlay J (Gen.k0_pay2 x1))
            ∗ owns (c : Thread nD τ) arg11 fullShare (Gen.k0_pay4 x1 (View.ld (Val := Elt F) x2 (slabX i)))) -∗ K ⟨⟩))
      ⊢ wp frame (wpE (defs₀ (F := F)) Variants.none c none) E (cc0__gnn_fused i arg1 harg1 arg2 harg2 arg3 harg3 arg4 harg4 arg5 harg5 arg6 harg6 arg7 harg7 arg8 harg8 arg9 harg9 arg10 harg10 arg11 harg11) K := by
  simp only [Gen.cc0__gnn_fused_eq_skeleton]; unfold Gen.cc0__gnn_fused_skel
  unfold owns
  iintro ⟨⟨%f1, %hf1, H1⟩, ⟨%f2, %hf2, H2⟩, ⟨%f10, %hf10, H10⟩, ⟨%f11, %hf11, H11⟩, Hk⟩
  obtain rfl := harg1.eq_unread hf1; obtain rfl := harg2.eq_unread hf2
  obtain rfl := harg10.eq_unread hf10; obtain rfl := harg11.eq_unread hf11
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H10]
  · iexists _; isplitr
    swap; · iexact H10
    ipureintro
    sl_unfold_run_names
    rw [read_writes_cons_overlay, View.writes_nil, harg10.read_unread, readAt_whole_unread arg1 harg1 off00]
  · iexists _; isplitr
    swap; · iexact H11
    ipureintro
    sl_unfold_run_names
    rw [read_writes_whole _ _ off00, readAt_whole_unread arg1 harg1 off00, readAt_unread arg2 harg2]

set_option maxHeartbeats 1000000 in
/-- A MIDDLE POINT. As the first, but the second scratch, found at `A`, is left at `A` plus the slab's contribution. -/
theorem run_mid (c : Dev nD) (i : grid0.Coords) (arg1 : Memref sig .tc .vmem S128x2048 .i32) (harg1 : arg1.IsWhole) (arg2 : Memref sig .tc .vmem S2048x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S32x64 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x2048 .f32) (harg10 : arg10.IsWhole) (arg11 : Memref sig .tc .vmem S2048x64 .f32) (harg11 : arg11.IsWhole)
    (hc1 : ¬cond1 i) (hc2 : cond2 i) (hc3 : ¬cond3 i)
    (x1 : Vec F S128x2048 .i32) (x2 : Vec F S2048x64 .f32)
    (J : Vec F S2048x2048 .f32) (A : Vec F S2048x64 .f32) (E : Set ℕ) (K : PUnit → sProp 𝕄) :
    iprop(owns (c : Thread nD τ) arg1 fullShare x1 ∗ owns (c : Thread nD τ) arg2 fullShare x2
        ∗ owns (c : Thread nD τ) arg10 fullShare J ∗ owns (c : Thread nD τ) arg11 fullShare A
        ∗ (iprop(owns (c : Thread nD τ) arg1 fullShare x1 ∗ owns (c : Thread nD τ) arg2 fullShare x2
            ∗ owns (c : Thread nD τ) arg10 fullShare ((slab10 i).overlay J (Gen.k0_pay2 x1))
            ∗ owns (c : Thread nD τ) arg11 fullShare (Gen.k0_pay5 x1 (View.ld (Val := Elt F) x2 (slabX i)) A)) -∗ K ⟨⟩))
      ⊢ wp frame (wpE (defs₀ (F := F)) Variants.none c none) E (cc0__gnn_fused i arg1 harg1 arg2 harg2 arg3 harg3 arg4 harg4 arg5 harg5 arg6 harg6 arg7 harg7 arg8 harg8 arg9 harg9 arg10 harg10 arg11 harg11) K := by
  simp only [Gen.cc0__gnn_fused_eq_skeleton]; unfold Gen.cc0__gnn_fused_skel
  unfold owns
  iintro ⟨⟨%f1, %hf1, H1⟩, ⟨%f2, %hf2, H2⟩, ⟨%f10, %hf10, H10⟩, ⟨%f11, %hf11, H11⟩, Hk⟩
  obtain rfl := harg1.eq_unread hf1; obtain rfl := harg2.eq_unread hf2
  obtain rfl := harg10.eq_unread hf10; obtain rfl := harg11.eq_unread hf11
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H10]
  · iexists _; isplitr
    swap; · iexact H10
    ipureintro
    sl_unfold_run_names
    rw [read_writes_cons_overlay, View.writes_nil, harg10.read_unread, readAt_whole_unread arg1 harg1 off00]
  · iexists _; isplitr
    swap; · iexact H11
    ipureintro
    sl_unfold_run_names
    rw [read_writes_whole _ _ off00, readAt_whole_unread arg1 harg1 off00, readAt_whole_unread arg11 harg11 off00,
      readAt_unread arg2 harg2]

set_option maxHeartbeats 1000000 in
/-- THE LAST POINT. On whole buffers — the inputs' at `x₁ … x₈`, the output's at anything, the first scratch at `J`,
    the second at `A` — the body leaves the inputs as they were, the first scratch at `J` with the point's rows
    replaced by the cast slab, the second at `A` plus the slab's contribution, and the output's buffer at the
    result computed from those two and the weights. -/
theorem run_last (c : Dev nD) (i : grid0.Coords) (arg1 : Memref sig .tc .vmem S128x2048 .i32) (harg1 : arg1.IsWhole) (arg2 : Memref sig .tc .vmem S2048x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S32x64 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x2048 .f32) (harg10 : arg10.IsWhole) (arg11 : Memref sig .tc .vmem S2048x64 .f32) (harg11 : arg11.IsWhole)
    (hc1 : ¬cond1 i) (hc2 : cond2 i) (hc3 : cond3 i)
    (x1 : Vec F S128x2048 .i32) (x2 : Vec F S2048x64 .f32) (x3 : Vec F S64x64 .f32) (x4 : Vec F S64x64 .f32)
    (x5 : Vec F S1x64 .f32) (x6 : Vec F S32x64 .f32) (x7 : Vec F S32x64 .f32) (x8 : Vec F S1x32 .f32)
    (J : Vec F S2048x2048 .f32) (A : Vec F S2048x64 .f32) (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d)
        ∗ owns (c : Thread nD τ) arg10 fullShare J ∗ owns (c : Thread nD τ) arg11 fullShare A
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare
                (Gen.k0_pay6 x2 (Gen.k0_pay5 x1 (View.ld (Val := Elt F) x2 (slabX i)) A) x3 x5 x4 x6
                  ((slab10 i).overlay J (Gen.k0_pay2 x1)) x8 x7)
            ∗ owns (c : Thread nD τ) arg10 fullShare ((slab10 i).overlay J (Gen.k0_pay2 x1))
            ∗ owns (c : Thread nD τ) arg11 fullShare (Gen.k0_pay5 x1 (View.ld (Val := Elt F) x2 (slabX i)) A)) -∗ K ⟨⟩))
      ⊢ wp frame (wpE (defs₀ (F := F)) Variants.none c none) E (cc0__gnn_fused i arg1 harg1 arg2 harg2 arg3 harg3 arg4 harg4 arg5 harg5 arg6 harg6 arg7 harg7 arg8 harg8 arg9 harg9 arg10 harg10 arg11 harg11) K := by
  simp only [Gen.cc0__gnn_fused_eq_skeleton]; unfold Gen.cc0__gnn_fused_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  obtain rfl := harg10.eq_unread hf10; obtain rfl := harg11.eq_unread hf11
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    rw [read_writes_whole _ _ off00]
    rw [readAt_whole_unread arg2 harg2 off00, readAt_whole_unread arg3 harg3 off00, readAt_whole_unread arg4 harg4 off00,
      readAt_whole_unread arg5 harg5 off00, readAt_whole_unread arg6 harg6 off00, readAt_whole_unread arg7 harg7 off00,
      readAt_whole_unread arg8 harg8 off00, View.readCov_unit_zero _ off00, readAt_whole_unread arg1 harg1 off00,
      readAt_whole_unread arg11 harg11 off00, readAt_unread arg2 harg2, readAt_whole _ off00,
      read_writes_cons_overlay, View.writes_nil, harg10.read_unread]
  isplitl [H10]
  · iexists _; isplitr
    swap; · iexact H10
    ipureintro
    sl_unfold_run_names
    rw [read_writes_cons_overlay, View.writes_nil, harg10.read_unread, readAt_whole_unread arg1 harg1 off00]
  · iexists _; isplitr
    swap; · iexact H11
    ipureintro
    sl_unfold_run_names
    rw [read_writes_whole _ _ off00, readAt_whole_unread arg1 harg1 off00, readAt_whole_unread arg11 harg11 off00,
      readAt_unread arg2 harg2]

variable (m : (ℓ : Loc nD τ sig) → Buf (Elt F) ℓ) (ρ : Dev nD → PrngReg)

/-! ## The quantities at a point in terms of the point before -/

theorem acc_zero (c : Dev nD) (t : Fin cfg0.N) (h : t.val = 0) :
    acc m c t.val t.isLt
      = Gen.k0_pay4 (Gen.iblk m c 0 t) (View.ld (Val := Elt F) (Gen.iblk m c 1 t : Vec F S2048x64 .f32) (slabX (grid0.coords t))) := by
  obtain ⟨n, hn⟩ := t
  cases n with
  | zero => rfl
  | succ n => exact absurd h (Nat.succ_ne_zero n)

theorem acc_pos (c : Dev nD) (t : Fin cfg0.N) (h : t.val ≠ 0) :
    acc m c t.val t.isLt
      = Gen.k0_pay5 (Gen.iblk m c 0 t) (View.ld (Val := Elt F) (Gen.iblk m c 1 t : Vec F S2048x64 .f32) (slabX (grid0.coords t)))
          (acc m c (t.val - 1) (Nat.lt_of_le_of_lt (Nat.sub_le _ _) t.isLt)) := by
  obtain ⟨n, hn⟩ := t
  cases n with
  | zero => exact absurd rfl h
  | succ n => rfl

theorem filled_zero (c : Dev nD) (J : Vec F S2048x2048 .f32) (t : Fin cfg0.N) (h : t.val = 0) :
    filled m c J t.val t.isLt = (slab10 (grid0.coords t)).overlay J (Gen.k0_pay2 (Gen.iblk m c 0 t)) := by
  obtain ⟨n, hn⟩ := t
  cases n with
  | zero => rfl
  | succ n => exact absurd h (Nat.succ_ne_zero n)

theorem filled_pos (c : Dev nD) (J : Vec F S2048x2048 .f32) (t : Fin cfg0.N) (h : t.val ≠ 0) :
    filled m c J t.val t.isLt
      = (slab10 (grid0.coords t)).overlay (filled m c J (t.val - 1) (Nat.lt_of_le_of_lt (Nat.sub_le _ _) t.isLt))
          (Gen.k0_pay2 (Gen.iblk m c 0 t)) := by
  obtain ⟨n, hn⟩ := t
  cases n with
  | zero => exact absurd rfl h
  | succ n => rfl

/-- At the last point the output's buffer, as the run leaves it, is the result. -/
theorem result_of_last (c : Dev nD) (J : Vec F S2048x2048 .f32) (t : Fin cfg0.N) (h : t.val = 15) :
    Gen.k0_pay6 (Gen.iblk m c 1 t) (acc m c t.val t.isLt) (Gen.iblk m c 2 t) (Gen.iblk m c 4 t) (Gen.iblk m c 3 t)
        (Gen.iblk m c 5 t) (filled m c J t.val t.isLt) (Gen.iblk m c 7 t) (Gen.iblk m c 6 t)
      = result m c := by
  obtain rfl : t = lastPt := Fin.ext h
  rw [show filled m c J lastPt.val lastPt.isLt = adjAll m c from filled_last m c J]
  rfl

/-! ## The staging memrefs at a point, and what the body finds and leaves in them -/

abbrev ms0 (t : Fin cfg0.N) : Memref sig .tc .vmem S128x2048 .i32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S2048x64 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S64x64 .f32 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S64x64 .f32 := win0_3.stage (cfg0.slots t 3)
abbrev hs3 (t : Fin cfg0.N) : (ms3 t).IsWhole := Gen.hstage0_3 ((cfg0.slots t 3).cast Gen.nbuf0_3)
abbrev ms4 (t : Fin cfg0.N) : Memref sig .tc .vmem S1x64 .f32 := win0_4.stage (cfg0.slots t 4)
abbrev hs4 (t : Fin cfg0.N) : (ms4 t).IsWhole := Gen.hstage0_4 ((cfg0.slots t 4).cast Gen.nbuf0_4)
abbrev ms5 (t : Fin cfg0.N) : Memref sig .tc .vmem S32x64 .f32 := win0_5.stage (cfg0.slots t 5)
abbrev hs5 (t : Fin cfg0.N) : (ms5 t).IsWhole := Gen.hstage0_5 ((cfg0.slots t 5).cast Gen.nbuf0_5)
abbrev ms6 (t : Fin cfg0.N) : Memref sig .tc .vmem S32x64 .f32 := win0_6.stage (cfg0.slots t 6)
abbrev hs6 (t : Fin cfg0.N) : (ms6 t).IsWhole := Gen.hstage0_6 ((cfg0.slots t 6).cast Gen.nbuf0_6)
abbrev ms7 (t : Fin cfg0.N) : Memref sig .tc .vmem S1x32 .f32 := win0_7.stage (cfg0.slots t 7)
abbrev hs7 (t : Fin cfg0.N) : (ms7 t).IsWhole := Gen.hstage0_7 ((cfg0.slots t 7).cast Gen.nbuf0_7)
abbrev ms8 (t : Fin cfg0.N) : Memref sig .tc .vmem S2048x32 .f32 := win0_8.stage (cfg0.slots t 8)
abbrev hs8 (t : Fin cfg0.N) : (ms8 t).IsWhole := Gen.hstage0_8 ((cfg0.slots t 8).cast Gen.nbuf0_8)

theorem before_0 (c : Dev nD) (t : Fin cfg0.N) (d) : (dats m 0 c).before 0 t d = Gen.iblk m c 0 t :=
  Gen.before0_0_of m (dats m 0 c) (dats_A m c 0) (after_0 m c) t d
theorem before_1 (c : Dev nD) (t : Fin cfg0.N) (d) : (dats m 0 c).before 1 t d = Gen.iblk m c 1 t :=
  Gen.before0_1_of m (dats m 0 c) (dats_A m c 1) (after_1 m c) t d
theorem before_2 (c : Dev nD) (t : Fin cfg0.N) (d) : (dats m 0 c).before 2 t d = Gen.iblk m c 2 t :=
  Gen.before0_2_of m (dats m 0 c) (dats_A m c 2) (after_2 m c) t d
theorem before_3 (c : Dev nD) (t : Fin cfg0.N) (d) : (dats m 0 c).before 3 t d = Gen.iblk m c 3 t :=
  Gen.before0_3_of m (dats m 0 c) (dats_A m c 3) (after_3 m c) t d
theorem before_4 (c : Dev nD) (t : Fin cfg0.N) (d) : (dats m 0 c).before 4 t d = Gen.iblk m c 4 t :=
  Gen.before0_4_of m (dats m 0 c) (dats_A m c 4) (after_4 m c) t d
theorem before_5 (c : Dev nD) (t : Fin cfg0.N) (d) : (dats m 0 c).before 5 t d = Gen.iblk m c 5 t :=
  Gen.before0_5_of m (dats m 0 c) (dats_A m c 5) (after_5 m c) t d
theorem before_6 (c : Dev nD) (t : Fin cfg0.N) (d) : (dats m 0 c).before 6 t d = Gen.iblk m c 6 t :=
  Gen.before0_6_of m (dats m 0 c) (dats_A m c 6) (after_6 m c) t d
theorem before_7 (c : Dev nD) (t : Fin cfg0.N) (d) : (dats m 0 c).before 7 t d = Gen.iblk m c 7 t :=
  Gen.before0_7_of m (dats m 0 c) (dats_A m c 7) (after_7 m c) t d

theorem leaves_0 (c : Dev nD) (t : Fin cfg0.N) :
    ((dats m 0 c).leavesExact 0 t : sProp 𝕄) = owns (c : Thread nD τ) (ms0 t) fullShare (Gen.iblk m c 0 t) := by
  unfold Dat.leavesExact; rw [live_in 0 (by decide) t, after_0]
theorem leaves_1 (c : Dev nD) (t : Fin cfg0.N) :
    ((dats m 0 c).leavesExact 1 t : sProp 𝕄) = owns (c : Thread nD τ) (ms1 t) fullShare (Gen.iblk m c 1 t) := by
  unfold Dat.leavesExact; rw [live_in 1 (by decide) t, after_1]
theorem leaves_2 (c : Dev nD) (t : Fin cfg0.N) :
    ((dats m 0 c).leavesExact 2 t : sProp 𝕄) = owns (c : Thread nD τ) (ms2 t) fullShare (Gen.iblk m c 2 t) := by
  unfold Dat.leavesExact; rw [live_in 2 (by decide) t, after_2]
theorem leaves_3 (c : Dev nD) (t : Fin cfg0.N) :
    ((dats m 0 c).leavesExact 3 t : sProp 𝕄) = owns (c : Thread nD τ) (ms3 t) fullShare (Gen.iblk m c 3 t) := by
  unfold Dat.leavesExact; rw [live_in 3 (by decide) t, after_3]
theorem leaves_4 (c : Dev nD) (t : Fin cfg0.N) :
    ((dats m 0 c).leavesExact 4 t : sProp 𝕄) = owns (c : Thread nD τ) (ms4 t) fullShare (Gen.iblk m c 4 t) := by
  unfold Dat.leavesExact; rw [live_in 4 (by decide) t, after_4]
theorem leaves_5 (c : Dev nD) (t : Fin cfg0.N) :
    ((dats m 0 c).leavesExact 5 t : sProp 𝕄) = owns (c : Thread nD τ) (ms5 t) fullShare (Gen.iblk m c 5 t) := by
  unfold Dat.leavesExact; rw [live_in 5 (by decide) t, after_5]
theorem leaves_6 (c : Dev nD) (t : Fin cfg0.N) :
    ((dats m 0 c).leavesExact 6 t : sProp 𝕄) = owns (c : Thread nD τ) (ms6 t) fullShare (Gen.iblk m c 6 t) := by
  unfold Dat.leavesExact; rw [live_in 6 (by decide) t, after_6]
theorem leaves_7 (c : Dev nD) (t : Fin cfg0.N) :
    ((dats m 0 c).leavesExact 7 t : sProp 𝕄) = owns (c : Thread nD τ) (ms7 t) fullShare (Gen.iblk m c 7 t) := by
  unfold Dat.leavesExact; rw [live_in 7 (by decide) t, after_7]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the inputs' staging buffers hold their blocks; the point's number decides the case; the
    invariant hands the run the two scratch buffers (at anything before the first point, else at what the point
    before left) and takes them back at this point's contents; the output's staging buffer is handed back as found
    except at the last point, where it takes the result. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4, before_5, before_6, before_7]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, leaves_5, leaves_6, leaves_7]
  rw [Phi_castSucc]
  have h16 := pt_lt t
  by_cases h0 : t.val = 0
  · have hc1 : cond1 (grid0.coords t) := (hcond1 t).mpr h0
    have hc2 : ¬cond2 (grid0.coords t) := fun h => (hcond2 t).mp h h0
    have hc3 : ¬cond3 (grid0.coords t) := fun h => by have := (hcond3 t).mp h; omega
    rw [Dat.leavesExact_idle (dats m 0 c) 8 t (idle8 t hc3) (noFlush8 t hc3)]
    rw [Phi_zero m c _ _ h0, PhiA_eq, acc_zero m c t h0]
    iintro ⟨⟨⟨⟨%J, H10⟩, ⟨%A, H11⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run_first c (grid0.coords t) _ _ _ _ _ _ _ _ _ _ _ _ _ _ _ _ _ _ _ _ _ _ hc1 hc2 hc3 (Gen.iblk m c 0 t) (Gen.iblk m c 1 t) J A Set.univ _)
    isplitl [H0]; · iexact H0
    isplitl [H1]; · iexact H1
    isplitl [H10]; · iexact H10
    isplitl [H11]; · iexact H11
    iintro ⟨H0, H1, H10, H11⟩
    isplitl [H10 H11 Hg]
    · isplitl [H10]
      · iexists J; rw [filled_zero m c J t h0]; iexact H10
      isplitl [H11]; · iexact H11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond1 (grid0.coords t) := fun h => h0 ((hcond1 t).mp h)
    have hc2 : cond2 (grid0.coords t) := (hcond2 t).mpr h0
    rw [Phi_pos m c _ _ h0, acc_pos m c t h0]
    by_cases h15 : t.val = 15
    · have hc3 : cond3 (grid0.coords t) := (hcond3 t).mpr h15
      rw [show ((dats m 0 c).leavesExact 8 t : sProp 𝕄) = owns (c : Thread nD τ) (ms8 t) fullShare ((dats m 0 c).after 8 t) from by
        unfold Dat.leavesExact; rw [live8 t hc3], after_8]
      iintro ⟨⟨⟨%J, H10⟩, H11, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) _ _ _ _ _ _ _ _ _ _ _ _ _ _ _ _ _ _ _ _ _ _ hc1 hc2 hc3 (Gen.iblk m c 0 t) (Gen.iblk m c 1 t) (Gen.iblk m c 2 t)
        (Gen.iblk m c 3 t) (Gen.iblk m c 4 t) (Gen.iblk m c 5 t) (Gen.iblk m c 6 t) (Gen.iblk m c 7 t)
        (filled m c J (t.val - 1) (Nat.lt_of_le_of_lt (Nat.sub_le _ _) t.isLt))
        (acc m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H10]; · iexact H10
      isplitl [H11]; · iexact H11
      iintro ⟨H0, H1, H2, H3, H4, H5, H6, H7, H9, H10, H11⟩
      isplitl [H10 H11 Hg]
      · isplitl [H10]
        · iexists J; rw [filled_pos m c J t h0]; iexact H10
        isplitl [H11]; · iexact H11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [← result_of_last m c J t h15, acc_pos m c t h0, filled_pos m c J t h0]
      iexact H9
    · have hc3 : ¬cond3 (grid0.coords t) := fun h => h15 ((hcond3 t).mp h)
      rw [Dat.leavesExact_idle (dats m 0 c) 8 t (idle8 t hc3) (noFlush8 t hc3)]
      iintro ⟨⟨⟨%J, H10⟩, H11, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_mid c (grid0.coords t) _ _ _ _ _ _ _ _ _ _ _ _ _ _ _ _ _ _ _ _ _ _ hc1 hc2 hc3 (Gen.iblk m c 0 t) (Gen.iblk m c 1 t)
        (filled m c J (t.val - 1) (Nat.lt_of_le_of_lt (Nat.sub_le _ _) t.isLt))
        (acc m c (t.val - 1) (Nat.lt_of_le_of_lt (Nat.sub_le _ _) t.isLt)) Set.univ _)
      isplitl [H0]; · iexact H0
      isplitl [H1]; · iexact H1
      isplitl [H10]; · iexact H10
      isplitl [H11]; · iexact H11
      iintro ⟨H0, H1, H10, H11⟩
      isplitl [H10 H11 Hg]
      · isplitl [H10]
        · iexists J; rw [filled_pos m c J t h0]; iexact H10
        isplitl [H11]; · iexact H11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation (c : Dev nD) : BodyObligation (dats (F := F) m 0 c) (defs₀ (F := F)) Variants.none () Set.univ := fun t => by
  rw [Gen.bigSep_W0, Gen.bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the class invariant back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N16]; decide), PhiA_eq]
  iintro ⟨⟨%J, H10⟩, H11, Hg⟩
  isplitl [H10 H11]
  · isplitl [H10]
    · iexists _; iexact H10
    iexists _; iexact H11
  iexact Hg

/-! ## The run and the frame -/

set_option backward.isDefEq.respectTransparency.types false in
/-- At the compiled mesh, for any values, from any memory with zero counters: every weakly fair execution of @main on the
    TensorCores terminates, and every final state has every array of the pipeline at what the library computes from
    the proof data and every other unscoped buffer as the region found it. -/
theorem run_main : θ_run defs (onTc (τ := τ) (main (F := F))) (s₀ m ρ) (Pipeline.FramePost cfgs (dats m) 0 (Gen.V m)) :=
  Pipeline.θ_run_frame_track cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := dats_A m) (hin := hin m) (hout := hout m)

/-- THE FRAME: the launch leaves every argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_of m ρ (dats m) (dats_A m) (run_main m ρ)

end Cert.KernelIdeal.Body

end
-- ==== Proof.KDataBits.lean ====
import proofs.«114369_g3530463117553_cont_sun_c4_324_4_alg».proof.Proof.Gen.Kernel.Frame
import proofs.«114369_g3530463117553_cont_sun_c4_324_4_alg».proof.Proof.Gen.Kernel.Skeleton
import Idealize.ShloMosaic.Lib.Pipeline.Value
import Idealize.ShloMosaic.Lib.WholeRead
import Idealize.ShloMosaic.Lib.ValueIdx

/-!
# What the kernel holds, point by point

The kernel visits the sixteen row slabs of the 2048 × 2048 adjacency in order. At slab `t` it casts the
slab to floats and keeps it in rows `[128 t, 128 t + 128)` of a 2048 × 2048 scratch, and adds the slab's
contribution `slabᵀ · x[128 t … 128 t + 127]` to a 2048 × 64 running sum kept in a second scratch (at slab 0
the sum is SET, not added to). After the last slab every row of the first scratch has been overwritten, so
it holds the whole cast adjacency whatever it held at entry, the second scratch holds the sum over all
slabs, and the two layers and the log-softmax are computed from them and from the weights.

This module names those quantities as functions of the launch memory: the slab and the rows of `x` a
point reads, the running sum after each point (by recursion on the point), the first scratch after each
point over arbitrary entry contents, the whole cast adjacency, the result, the invariant between points
and the pipeline's proof data; and it states how each is read at an index.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

/-! ## The grid, the two scratch buffers, the two row slabs -/

/-- The grid has sixteen points. -/
theorem N16 : cfg0.N = 16 := Gen.N_0

/-- The last point. -/
abbrev lastPt : Fin cfg0.N := ⟨15, by decide⟩

/-- The one coordinate of a point is its number. -/
theorem coord_val : ∀ t : Fin cfg0.N, ((grid0.coords t) 0).val = t.val :=
  (by decide +kernel : ∀ t : Fin grid0.N, ((grid0.coords t) 0).val = t.val)

/-- The 2048 × 2048 scratch (the cast adjacency, slab by slab) and the 2048 × 64 scratch (the running sum). -/
abbrev scM10 : Memref sig .tc .vmem S2048x2048 .f32 := Memref.whole cc0_scratch0
abbrev scM11 : Memref sig .tc .vmem S2048x64 .f32 := Memref.whole cc0_scratch1

/-- Rows `[128 i, 128 i + 128)` of the 2048 × 2048 scratch: where point `i` stores its cast slab. -/
abbrev slab10 (i : grid0.Coords) : Rect S2048x2048 :=
  Rect.unit (s := S2048x2048) (k0_off1 i) S128x2048.size (Gen.k0_off1_inb i)

/-- Rows `[128 i, 128 i + 128)` of `x`: the rows point `i` multiplies its slab with. -/
abbrev slabX (i : grid0.Coords) : Rect S2048x64 :=
  Rect.unit (s := S2048x64) (k0_off2 i) S128x64.size (Gen.k0_off2_inb i)

/-- The slab a row of the adjacency lies in. -/
def slabOf (r : Fin 2048) : Fin cfg0.N := ⟨r.val / 128, by rw [N16]; omega⟩

theorem slabOf_val (r : Fin 2048) : (slabOf r).val = r.val / 128 := rfl

/-- A point's number is below sixteen. -/
theorem pt_lt (t : Fin cfg0.N) : t.val < 16 := lt_of_lt_of_eq t.isLt N16

variable (m : (ℓ : Loc nD τ sig) → Buf (Elt F) ℓ) (ρ : Dev nD → PrngReg)

/-! ## What a point reads, and what it adds -/

/-- The adjacency slab of point `t` (integers). -/
def adj (c : Dev nD) (t : Fin cfg0.N) : Vec F S128x2048 .i32 := Gen.iblk m c 0 t

/-- The same slab as floats: what point `t` stores into its rows of the first scratch. -/
def castAdj (c : Dev nD) (t : Fin cfg0.N) : Vec F S128x2048 .f32 := Gen.k0_pay2 (adj m c t)

/-- The 128 rows of `x` point `t` reads: rows `[128 t, 128 t + 128)` of the staged `x`. -/
def xRows (c : Dev nD) (t : Fin cfg0.N) : Vec F S128x64 .f32 :=
  View.ld (Val := Elt F) (Gen.iblk m c 1 t : Vec F S2048x64 .f32) (slabX (grid0.coords t))

/-- THE RUNNING SUM after point `n`: set at point 0 to the first slab's contribution, each later slab's added. -/
def acc (c : Dev nD) : (n : ℕ) → n < cfg0.N → Vec F S2048x64 .f32
  | 0, h => Gen.k0_pay4 (adj m c ⟨0, h⟩) (xRows m c ⟨0, h⟩)
  | n + 1, h => Gen.k0_pay5 (adj m c ⟨n + 1, h⟩) (xRows m c ⟨n + 1, h⟩) (acc c n (Nat.lt_of_succ_lt h))

/-- THE FIRST SCRATCH after point `n`, if it held `J` when the kernel started: the slabs of points `0 … n`
    overwritten by their cast adjacency slabs, the other rows still `J`'s. -/
def filled (c : Dev nD) (J : Vec F S2048x2048 .f32) : (n : ℕ) → n < cfg0.N → Vec F S2048x2048 .f32
  | 0, h => (slab10 (grid0.coords ⟨0, h⟩)).overlay J (castAdj m c ⟨0, h⟩)
  | n + 1, h => (slab10 (grid0.coords ⟨n + 1, h⟩)).overlay (filled c J n (Nat.lt_of_succ_lt h)) (castAdj m c ⟨n + 1, h⟩)

/-- THE WHOLE CAST ADJACENCY: row `r` is row `r % 128` of the cast slab `r / 128`. -/
def adjAll (c : Dev nD) : Vec F S2048x2048 .f32 := fun y =>
  castAdj m c (slabOf (y 0)) (ix2 (⟨(y 0).val % 128, Nat.mod_lt _ (by decide)⟩ : Fin 128) (y 1 : Fin 2048))

/-- THE RESULT: the two layers and the row-wise log-softmax, of the staged `x`, the running sum over all sixteen
    slabs, the weights and biases, and the whole cast adjacency. -/
def result (c : Dev nD) : Vec F S2048x32 .f32 :=
  Gen.k0_pay6 (Gen.iblk m c 1 lastPt) (acc m c 15 lastPt.isLt) (Gen.iblk m c 2 lastPt) (Gen.iblk m c 4 lastPt)
    (Gen.iblk m c 3 lastPt) (Gen.iblk m c 5 lastPt) (adjAll m c) (Gen.iblk m c 7 lastPt) (Gen.iblk m c 6 lastPt)

/-! ## The invariant between points and the proof data -/

/-- Before point `n`: at the start nothing is known of the scratch buffers (the class invariant); after point
    `n - 1` the first scratch holds its filled slabs over SOME entry contents, the second the running sum, and the
    generator register is at some state. -/
def Phi (c : Dev nD) : (n : ℕ) → n ≤ cfg0.N → sProp 𝕄
  | 0, _ => Pipeline.ΦA spec0 c
  | n + 1, hn => iprop((∃ J, owns (c : Thread nD τ) scM10 fullShare (filled m c J n hn))
      ∗ owns (c : Thread nD τ) scM11 fullShare (acc m c n hn) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop((∃ J, owns (c : Thread nD τ) scM10 fullShare (filled m c J n hn))
      ∗ owns (c : Thread nD τ) scM11 fullShare (acc m c n hn) ∗ (∃ r, prngReg c r)) := rfl

theorem Phi_pos (c : Dev nD) (n : ℕ) (h : n ≤ cfg0.N) (hz : n ≠ 0) :
    Phi m c n h = iprop((∃ J, owns (c : Thread nD τ) scM10 fullShare (filled m c J (n - 1) (by omega)))
      ∗ owns (c : Thread nD τ) scM11 fullShare (acc m c (n - 1) (by omega)) ∗ (∃ r, prngReg c r)) := by
  cases n with
  | zero => exact absurd rfl hz
  | succ n => rfl

/-- The class invariant with the two scratch buffers as whole memrefs at some contents. -/
theorem PhiA_eq (c : Dev nD) :
    (Pipeline.ΦA spec0 c : sProp 𝕄)
      = iprop(iprop((∃ d, owns (c : Thread nD τ) scM10 fullShare d) ∗ (∃ d, owns (c : Thread nD τ) scM11 fullShare d))
          ∗ (∃ r, prngReg c r)) := by
  unfold Pipeline.ΦA; rw [Gen.scopedRest0_eq]; simp only [scM10, scM11, owns_whole]; try rfl

/-- THE PROOF DATA of the one pipeline on core `c`: the arrays as the region finds them; after the body each input's
    staging buffer still at its block, the output's at the result (read only where the body stores it: the last
    point); the invariant `Phi`; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => result m c
  Φ t := Phi m c t.val (Nat.le_of_lt_succ t.isLt)
  q _ := fullShare
  owed _ := 0

/-- The proof data's arrays are the region-entry contents. -/
theorem dats_A (c : Dev nD) (w : Fin cfg0.W) : (dats m 0 c).A w = Gen.V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = Gen.iblk m c 5 t := by dsimp only [dats]
theorem after_6 (c : Dev nD) (t : Fin cfg0.N) : (dats m 0 c).after 6 t = Gen.iblk m c 6 t := by dsimp only [dats]
theorem after_7 (c : Dev nD) (t : Fin cfg0.N) : (dats m 0 c).after 7 t = Gen.iblk m c 7 t := by dsimp only [dats]
theorem after_8 (c : Dev nD) (t : Fin cfg0.N) : (dats m 0 c).after 8 t = result m c := by dsimp only [dats]

/-! ## One slab stored over the scratch: rows of the slab take the cast adjacency, the others keep -/

/-- Storing point `t`'s cast slab over contents `X`: a row of slab `t` now reads the whole cast adjacency there,
    every other row still reads `X`. -/
theorem overlay_slab (c : Dev nD) (t : Fin cfg0.N) (X : Vec F S2048x2048 .f32) (y : S2048x2048.Idx) :
    (slab10 (grid0.coords t)).overlay X (castAdj m c t) y
      = if (y 0).val / 128 = t.val then adjAll m c y else X y := by
  have hoff : k0_off1 (grid0.coords t) = ![128 * t.val, 0] := by rw [Gen.k0_off1_eq, coord_val]
  by_cases h : (y 0).val / 128 = t.val
  · rw [if_pos h]
    have hy : y = (slab10 (grid0.coords t)).emb (ix2 (⟨(y 0).val % 128, Nat.mod_lt _ (by decide)⟩ : Fin 128) (y 1 : Fin 2048)) := by
      funext a
      apply Fin.ext
      rw [Rect.emb_apply]
      match a with
      | ⟨0, _⟩ =>
        show (y 0).val = (k0_off1 (grid0.coords t)) 0 + 1 * ((y 0).val % 128)
        rw [hoff]
        show (y 0).val = 128 * t.val + 1 * ((y 0).val % 128)
        omega
      | ⟨1, _⟩ =>
        show (y 1).val = (k0_off1 (grid0.coords t)) 1 + 1 * (y 1).val
        rw [hoff]
        show (y 1).val = 0 + 1 * (y 1).val
        omega
    have ht : slabOf (y 0) = t := Fin.ext h
    conv_lhs => rw [hy]
    rw [Rect.overlay_emb]
    unfold adjAll
    rw [ht]
  · rw [if_neg h]
    refine Rect.overlay_of_not_mem _ _ _ fun hm => h ?_
    have h0 := (Rect.mem_set_unit.mp hm) 0
    rw [hoff] at h0
    have h1 : 128 * t.val ≤ (y 0).val ∧ (y 0).val < 128 * t.val + 128 := h0
    omega

/-- After point `n` the rows of slabs `0 … n` read the whole cast adjacency. -/
theorem filled_apply_of_le (c : Dev nD) (J : Vec F S2048x2048 .f32) :
    ∀ (n : ℕ) (h : n < cfg0.N) (y : S2048x2048.Idx), (y 0).val / 128 ≤ n → filled m c J n h y = adjAll m c y
  | 0, h, y, hy => by
    show (slab10 (grid0.coords ⟨0, h⟩)).overlay J (castAdj m c ⟨0, h⟩) y = _
    rw [overlay_slab, if_pos (by show (y 0).val / 128 = 0; omega)]
  | n + 1, h, y, hy => by
    show (slab10 (grid0.coords ⟨n + 1, h⟩)).overlay (filled m c J n (Nat.lt_of_succ_lt h)) (castAdj m c ⟨n + 1, h⟩) y = _
    rw [overlay_slab]
    by_cases e : (y 0).val / 128 = n + 1
    · rw [if_pos e]
    · rw [if_neg e]
      exact filled_apply_of_le c J n (Nat.lt_of_succ_lt h) y (by omega)

/-! ## The interface: the result and its ingredients, read at an index -/

/-- (i) What the output's staging buffer holds after the last point, spelt out. -/
theorem after8_last (c : Dev nD) :
    (dats m 0 c).after 8 lastPt
      = Gen.k0_pay6 (Gen.iblk m c 1 lastPt) (acc m c 15 lastPt.isLt) (Gen.iblk m c 2 lastPt) (Gen.iblk m c 4 lastPt)
          (Gen.iblk m c 3 lastPt) (Gen.iblk m c 5 lastPt) (adjAll m c) (Gen.iblk m c 7 lastPt) (Gen.iblk m c 6 lastPt) := by
  rw [after_8]; rfl

/-- (ii-a) The whole cast adjacency at row `i`, column `j`: the cast slab `i / 128` at row `i % 128`, column `j`. -/
theorem adjAll_apply (c : Dev nD) (i j : Fin 2048) :
    adjAll m c (ix2 i j)
      = Gen.k0_pay2 (Gen.iblk m c 0 (slabOf i)) (ix2 (⟨i.val % 128, Nat.mod_lt _ (by decide)⟩ : Fin 128) j) := rfl

/-- (ii-b) The rows of `x` point `t` reads, at local row `r` and column `k`: row `128 t + r` of the staged `x`. -/
theorem xRows_apply (c : Dev nD) (t : Fin cfg0.N) (r : Fin 128) (k : Fin 64) :
    xRows m c t (ix2 r k)
      = Gen.iblk m c 1 t (ix2 (⟨128 * t.val + r.val, by have := pt_lt t; omega⟩ : Fin 2048) k) := by
  unfold xRows
  show (Gen.iblk m c 1 t : Vec F S2048x64 .f32) ((slabX (grid0.coords t)).toLoadRect.idx (ix2 r k)) = _
  congr 1
  funext a
  apply Fin.ext
  rw [LoadRect.idx_apply]
  match a with
  | ⟨0, _⟩ =>
    show (k0_off2 (grid0.coords t)) 0 + 1 * r.val = 128 * t.val + r.val
    rw [Gen.k0_off2_eq]
    show 128 * ((grid0.coords t) 0).val + 1 * r.val = 128 * t.val + r.val
    rw [coord_val]; omega
  | ⟨1, _⟩ =>
    show (k0_off2 (grid0.coords t)) 1 + 1 * k.val = k.val
    rw [Gen.k0_off2_eq]
    show 0 + 1 * k.val = k.val
    omega

/-- (ii-c) After the last point the first scratch holds the whole cast adjacency, whatever it held at entry. -/
theorem filled_last (c : Dev nD) (J : Vec F S2048x2048 .f32) : filled m c J 15 lastPt.isLt = adjAll m c :=
  funext fun y => filled_apply_of_le m c J 15 lastPt.isLt y (by have := (y 0).isLt; show (y 0).val / 128 ≤ 15; have h : (y 0).val < 2048 := this; omega)

/-- (iii) The output array after the region, read through the output window's one block (the whole array), is what
    the last point left in the staging buffer. -/
theorem arrAt8 (c : Dev nD) :
    ((cfg0.win 8).blk lastPt).view.read (Elt F) ((dats m 0 c).arrAt 8 cfg0.N) = (dats m 0 c).after 8 lastPt := by
  have hval : ∀ t : Fin cfg0.N, (cfg0.win 8).flush t = true → t = lastPt := fun t hf => by
    have h := (Gen.flush0_8 t).mp hf
    have := pt_lt t
    exact Fin.ext (by show t.val = 15; omega)
  refine (Pipeline.Dat.read_blk_arrAt_eq_flushed (dats m 0 c) 8 (fun t t' hf hf' hne => ?_) cfg0.N lastPt lastPt.isLt
    ((Gen.flush0_8 lastPt).mpr rfl)).trans ?_
  · exact absurd ((hval t hf).trans (hval t' hf').symm) hne
  · rfl

end Cert.Kernel.Body

end
-- ==== Proof.KBodyBits.lean ====
import proofs.«114369_g3530463117553_cont_sun_c4_324_4_alg».proof.Proof.KDataBits
import Idealize.ShloMosaic.Lib.Exec
import Idealize.ShloMosaic.Lib.Tactic
import Idealize.ShloMosaic.Lib.Pipeline.FrameBody

/-!
# The kernel body at each point, and the launch

Three kinds of point: the first (the running sum is SET), the middle ones (it is added to), the last (added to,
then the two layers and the log-softmax are computed from the scratch buffers and stored into the output's
staging buffer). Each is one run of the body's memory operations; what the run leaves is restated through the
views as plain functions of what it found: a slab store over contents `J` leaves `J` with the slab's rows replaced,
a whole store leaves its payload, a whole load through a whole buffer reads the contents. The body obligation
follows by cases on the point, and the launch theorem carries the invariant across the sixteen points.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

/-! ## Reading through views: whole loads, whole stores, a slab store -/

section Views

variable {sg : RefSig} {κ : Kind} {sp : Space} {s : Shape} {e : EltTy} {Val : EltTy → Type}

/-- The two-axis zero offsets, as the constant function. -/
theorem off00 : (![0, 0] : Fin 2 → ℕ) = fun _ => 0 := by
  funext a; match a with | ⟨0, _⟩ => rfl | ⟨1, _⟩ => rfl

/-- A load of the whole shape reads the contents as the view reads them. -/
theorem readAt_whole (v : View sg κ sp s e) {off : Fin s.rank → ℕ} (ho : off = fun _ => 0)
    (inb : ∀ a, off a + s.size a ≤ s.size a) (f : v.ty.Contents Val) :
    v.readAt Val (Rect.unit off s.size inb).toLoadRect f = v.read Val f := by
  rw [View.readAt_eq_ld, View.ld_unit_zero ho]

/-- A load through a rectangle of a whole buffer held at the contents that read `X` reads `X` on the rectangle. -/
theorem readAt_unread (M : Memref sg κ sp s e) (h : M.IsWhole) (R : Rect s) (X : s.Idx → Val e) :
    M.view.readAt Val R.toLoadRect (h.unread X) = View.ld X R := by
  rw [View.readAt_eq_ld, h.read_unread]

/-- A load of the whole shape through a whole buffer held at the contents that read `X` reads `X`. -/
theorem readAt_whole_unread (M : Memref sg κ sp s e) (h : M.IsWhole) {off : Fin s.rank → ℕ} (ho : off = fun _ => 0)
    (inb : ∀ a, off a + s.size a ≤ s.size a) (X : s.Idx → Val e) :
    M.view.readAt Val (Rect.unit off s.size inb).toLoadRect (h.unread X) = X := by
  rw [readAt_whole _ ho, h.read_unread]

/-- A store through a rectangle, last: the rectangle reads the payload, the rest what the earlier stores left. -/
theorem read_writes_cons_overlay (v : View sg κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    rw [show r.idx x = r.emb x from rfl, View.read_writes_cons_emb, Rect.overlay_emb]
  · rw [View.writes_cons, View.read_slice_write_of_not_mem r _ _ _ (by rwa [Rect.map_emb_univ]),
      Rect.overlay_of_not_mem _ _ _ hy]

/-- A store of the whole shape, last, leaves its payload. -/
theorem read_writes_whole (v : View sg κ sp s e) (f : v.ty.Contents Val) {off : Fin s.rank → ℕ} (ho : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst ho; funext y
  have e := View.read_writes_cons_emb v f (Rect.whole s) w L y
  rw [Rect.emb_whole_apply] at e
  exact e

end Views

/-! ## The three conditions of the body, decided over the grid -/

/-- "This is the first point." -/
abbrev cond1 (i : grid0.Coords) : Prop :=
  (Scalar.cmpi .ne (Scalar.extui (Scalar.cmpi .eq (BitVec.ofNat 32 (i 0).val) 0#32)) 0#32) = 1#1
/-- "This is a later point." -/
abbrev cond2 (i : grid0.Coords) : Prop :=
  (Scalar.cmpi .ne (Scalar.extui (Scalar.cmpi .sgt (BitVec.ofNat 32 (i 0).val) 0#32)) 0#32) = 1#1
/-- "This is the last point." -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val ≠ 0 :=
  (by decide +kernel : ∀ t : Fin grid0.N, cond2 (grid0.coords t) ↔ t.val ≠ 0)
theorem hcond3 : ∀ t : Fin cfg0.N, cond3 (grid0.coords t) ↔ t.val = 15 :=
  (by decide +kernel : ∀ t : Fin grid0.N, cond3 (grid0.coords t) ↔ t.val = 15)

/-- The inputs are never idle; the output is idle, and not written back, except at the last point. -/
theorem live_in : ∀ (w : Fin cfg0.W), w.val < 8 → ∀ t : Fin cfg0.N, cfg0.idle w (grid0.coords t) = false := by decide +kernel
theorem idle8 : ∀ t : Fin cfg0.N, ¬cond3 (grid0.coords t) → cfg0.idle 8 (grid0.coords t) = true := by decide +kernel
theorem noFlush8 : ∀ t : Fin cfg0.N, ¬cond3 (grid0.coords t) → (cfg0.win 8).flush t = false := by decide +kernel
theorem live8 : ∀ t : Fin cfg0.N, cond3 (grid0.coords t) → cfg0.idle 8 (grid0.coords t) = false := by decide +kernel

/-! ## The body's runs, one per kind of point -/

set_option maxHeartbeats 1000000 in
/-- THE FIRST POINT. On whole buffers — the adjacency slab's at `x₁`, `x`'s at `x₂`, the first scratch at `J`, the
    second at anything — the body leaves the inputs as they were, the first scratch at `J` with the point's rows
    replaced by the cast slab, and the second at the slab's contribution. -/
theorem run_first (c : Dev nD) (i : grid0.Coords) (arg1 : Memref sig .tc .vmem S128x2048 .i32) (harg1 : arg1.IsWhole) (arg2 : Memref sig .tc .vmem S2048x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S32x64 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x2048 .f32) (harg10 : arg10.IsWhole) (arg11 : Memref sig .tc .vmem S2048x64 .f32) (harg11 : arg11.IsWhole)
    (hc1 : cond1 i) (hc2 : ¬cond2 i) (hc3 : ¬cond3 i)
    (x1 : Vec F S128x2048 .i32) (x2 : Vec F S2048x64 .f32)
    (J : Vec F S2048x2048 .f32) (A : Vec F S2048x64 .f32) (E : Set ℕ) (K : PUnit → sProp 𝕄) :
    iprop(owns (c : Thread nD τ) arg1 fullShare x1 ∗ owns (c : Thread nD τ) arg2 fullShare x2
        ∗ owns (c : Thread nD τ) arg10 fullShare J ∗ owns (c : Thread nD τ) arg11 fullShare A
        ∗ (iprop(owns (c : Thread nD τ) arg1 fullShare x1 ∗ owns (c : Thread nD τ) arg2 fullShare x2
            ∗ owns (c : Thread nD τ) arg10 fullShare ((slab10 i).overlay J (Gen.k0_pay2 x1))
            ∗ owns (c : Thread nD τ) arg11 fullShare (Gen.k0_pay4 x1 (View.ld (Val := Elt F) x2 (slabX i)))) -∗ K ⟨⟩))
      ⊢ wp frame (wpE (defs₀ (F := F)) Variants.none c none) E (cc0__gnn_fused i arg1 harg1 arg2 harg2 arg3 harg3 arg4 harg4 arg5 harg5 arg6 harg6 arg7 harg7 arg8 harg8 arg9 harg9 arg10 harg10 arg11 harg11) K := by
  simp only [Gen.cc0__gnn_fused_eq_skeleton]; unfold Gen.cc0__gnn_fused_skel
  unfold owns
  iintro ⟨⟨%f1, %hf1, H1⟩, ⟨%f2, %hf2, H2⟩, ⟨%f10, %hf10, H10⟩, ⟨%f11, %hf11, H11⟩, Hk⟩
  obtain rfl := harg1.eq_unread hf1; obtain rfl := harg2.eq_unread hf2
  obtain rfl := harg10.eq_unread hf10; obtain rfl := harg11.eq_unread hf11
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H10]
  · iexists _; isplitr
    swap; · iexact H10
    ipureintro
    sl_unfold_run_names
    rw [read_writes_cons_overlay, View.writes_nil, harg10.read_unread, readAt_whole_unread arg1 harg1 off00]
  · iexists _; isplitr
    swap; · iexact H11
    ipureintro
    sl_unfold_run_names
    rw [read_writes_whole _ _ off00, readAt_whole_unread arg1 harg1 off00, readAt_unread arg2 harg2]

set_option maxHeartbeats 1000000 in
/-- A MIDDLE POINT. As the first, but the second scratch, found at `A`, is left at `A` plus the slab's contribution. -/
theorem run_mid (c : Dev nD) (i : grid0.Coords) (arg1 : Memref sig .tc .vmem S128x2048 .i32) (harg1 : arg1.IsWhole) (arg2 : Memref sig .tc .vmem S2048x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S32x64 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x2048 .f32) (harg10 : arg10.IsWhole) (arg11 : Memref sig .tc .vmem S2048x64 .f32) (harg11 : arg11.IsWhole)
    (hc1 : ¬cond1 i) (hc2 : cond2 i) (hc3 : ¬cond3 i)
    (x1 : Vec F S128x2048 .i32) (x2 : Vec F S2048x64 .f32)
    (J : Vec F S2048x2048 .f32) (A : Vec F S2048x64 .f32) (E : Set ℕ) (K : PUnit → sProp 𝕄) :
    iprop(owns (c : Thread nD τ) arg1 fullShare x1 ∗ owns (c : Thread nD τ) arg2 fullShare x2
        ∗ owns (c : Thread nD τ) arg10 fullShare J ∗ owns (c : Thread nD τ) arg11 fullShare A
        ∗ (iprop(owns (c : Thread nD τ) arg1 fullShare x1 ∗ owns (c : Thread nD τ) arg2 fullShare x2
            ∗ owns (c : Thread nD τ) arg10 fullShare ((slab10 i).overlay J (Gen.k0_pay2 x1))
            ∗ owns (c : Thread nD τ) arg11 fullShare (Gen.k0_pay5 x1 (View.ld (Val := Elt F) x2 (slabX i)) A)) -∗ K ⟨⟩))
      ⊢ wp frame (wpE (defs₀ (F := F)) Variants.none c none) E (cc0__gnn_fused i arg1 harg1 arg2 harg2 arg3 harg3 arg4 harg4 arg5 harg5 arg6 harg6 arg7 harg7 arg8 harg8 arg9 harg9 arg10 harg10 arg11 harg11) K := by
  simp only [Gen.cc0__gnn_fused_eq_skeleton]; unfold Gen.cc0__gnn_fused_skel
  unfold owns
  iintro ⟨⟨%f1, %hf1, H1⟩, ⟨%f2, %hf2, H2⟩, ⟨%f10, %hf10, H10⟩, ⟨%f11, %hf11, H11⟩, Hk⟩
  obtain rfl := harg1.eq_unread hf1; obtain rfl := harg2.eq_unread hf2
  obtain rfl := harg10.eq_unread hf10; obtain rfl := harg11.eq_unread hf11
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H10]
  · iexists _; isplitr
    swap; · iexact H10
    ipureintro
    sl_unfold_run_names
    rw [read_writes_cons_overlay, View.writes_nil, harg10.read_unread, readAt_whole_unread arg1 harg1 off00]
  · iexists _; isplitr
    swap; · iexact H11
    ipureintro
    sl_unfold_run_names
    rw [read_writes_whole _ _ off00, readAt_whole_unread arg1 harg1 off00, readAt_whole_unread arg11 harg11 off00,
      readAt_unread arg2 harg2]

set_option maxHeartbeats 1000000 in
/-- THE LAST POINT. On whole buffers — the inputs' at `x₁ … x₈`, the output's at anything, the first scratch at `J`,
    the second at `A` — the body leaves the inputs as they were, the first scratch at `J` with the point's rows
    replaced by the cast slab, the second at `A` plus the slab's contribution, and the output's buffer at the
    result computed from those two and the weights. -/
theorem run_last (c : Dev nD) (i : grid0.Coords) (arg1 : Memref sig .tc .vmem S128x2048 .i32) (harg1 : arg1.IsWhole) (arg2 : Memref sig .tc .vmem S2048x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S32x64 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x2048 .f32) (harg10 : arg10.IsWhole) (arg11 : Memref sig .tc .vmem S2048x64 .f32) (harg11 : arg11.IsWhole)
    (hc1 : ¬cond1 i) (hc2 : cond2 i) (hc3 : cond3 i)
    (x1 : Vec F S128x2048 .i32) (x2 : Vec F S2048x64 .f32) (x3 : Vec F S64x64 .f32) (x4 : Vec F S64x64 .f32)
    (x5 : Vec F S1x64 .f32) (x6 : Vec F S32x64 .f32) (x7 : Vec F S32x64 .f32) (x8 : Vec F S1x32 .f32)
    (J : Vec F S2048x2048 .f32) (A : Vec F S2048x64 .f32) (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d)
        ∗ owns (c : Thread nD τ) arg10 fullShare J ∗ owns (c : Thread nD τ) arg11 fullShare A
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare
                (Gen.k0_pay6 x2 (Gen.k0_pay5 x1 (View.ld (Val := Elt F) x2 (slabX i)) A) x3 x5 x4 x6
                  ((slab10 i).overlay J (Gen.k0_pay2 x1)) x8 x7)
            ∗ owns (c : Thread nD τ) arg10 fullShare ((slab10 i).overlay J (Gen.k0_pay2 x1))
            ∗ owns (c : Thread nD τ) arg11 fullShare (Gen.k0_pay5 x1 (View.ld (Val := Elt F) x2 (slabX i)) A)) -∗ K ⟨⟩))
      ⊢ wp frame (wpE (defs₀ (F := F)) Variants.none c none) E (cc0__gnn_fused i arg1 harg1 arg2 harg2 arg3 harg3 arg4 harg4 arg5 harg5 arg6 harg6 arg7 harg7 arg8 harg8 arg9 harg9 arg10 harg10 arg11 harg11) K := by
  simp only [Gen.cc0__gnn_fused_eq_skeleton]; unfold Gen.cc0__gnn_fused_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  obtain rfl := harg10.eq_unread hf10; obtain rfl := harg11.eq_unread hf11
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    rw [read_writes_whole _ _ off00]
    rw [readAt_whole_unread arg2 harg2 off00, readAt_whole_unread arg3 harg3 off00, readAt_whole_unread arg4 harg4 off00,
      readAt_whole_unread arg5 harg5 off00, readAt_whole_unread arg6 harg6 off00, readAt_whole_unread arg7 harg7 off00,
      readAt_whole_unread arg8 harg8 off00, View.readCov_unit_zero _ off00, readAt_whole_unread arg1 harg1 off00,
      readAt_whole_unread arg11 harg11 off00, readAt_unread arg2 harg2, readAt_whole _ off00,
      read_writes_cons_overlay, View.writes_nil, harg10.read_unread]
  isplitl [H10]
  · iexists _; isplitr
    swap; · iexact H10
    ipureintro
    sl_unfold_run_names
    rw [read_writes_cons_overlay, View.writes_nil, harg10.read_unread, readAt_whole_unread arg1 harg1 off00]
  · iexists _; isplitr
    swap; · iexact H11
    ipureintro
    sl_unfold_run_names
    rw [read_writes_whole _ _ off00, readAt_whole_unread arg1 harg1 off00, readAt_whole_unread arg11 harg11 off00,
      readAt_unread arg2 harg2]

variable (m : (ℓ : Loc nD τ sig) → Buf (Elt F) ℓ) (ρ : Dev nD → PrngReg)

/-! ## The quantities at a point in terms of the point before -/

theorem acc_zero (c : Dev nD) (t : Fin cfg0.N) (h : t.val = 0) :
    acc m c t.val t.isLt
      = Gen.k0_pay4 (Gen.iblk m c 0 t) (View.ld (Val := Elt F) (Gen.iblk m c 1 t : Vec F S2048x64 .f32) (slabX (grid0.coords t))) := by
  obtain ⟨n, hn⟩ := t
  cases n with
  | zero => rfl
  | succ n => exact absurd h (Nat.succ_ne_zero n)

theorem acc_pos (c : Dev nD) (t : Fin cfg0.N) (h : t.val ≠ 0) :
    acc m c t.val t.isLt
      = Gen.k0_pay5 (Gen.iblk m c 0 t) (View.ld (Val := Elt F) (Gen.iblk m c 1 t : Vec F S2048x64 .f32) (slabX (grid0.coords t)))
          (acc m c (t.val - 1) (Nat.lt_of_le_of_lt (Nat.sub_le _ _) t.isLt)) := by
  obtain ⟨n, hn⟩ := t
  cases n with
  | zero => exact absurd rfl h
  | succ n => rfl

theorem filled_zero (c : Dev nD) (J : Vec F S2048x2048 .f32) (t : Fin cfg0.N) (h : t.val = 0) :
    filled m c J t.val t.isLt = (slab10 (grid0.coords t)).overlay J (Gen.k0_pay2 (Gen.iblk m c 0 t)) := by
  obtain ⟨n, hn⟩ := t
  cases n with
  | zero => rfl
  | succ n => exact absurd h (Nat.succ_ne_zero n)

theorem filled_pos (c : Dev nD) (J : Vec F S2048x2048 .f32) (t : Fin cfg0.N) (h : t.val ≠ 0) :
    filled m c J t.val t.isLt
      = (slab10 (grid0.coords t)).overlay (filled m c J (t.val - 1) (Nat.lt_of_le_of_lt (Nat.sub_le _ _) t.isLt))
          (Gen.k0_pay2 (Gen.iblk m c 0 t)) := by
  obtain ⟨n, hn⟩ := t
  cases n with
  | zero => exact absurd rfl h
  | succ n => rfl

/-- At the last point the output's buffer, as the run leaves it, is the result. -/
theorem result_of_last (c : Dev nD) (J : Vec F S2048x2048 .f32) (t : Fin cfg0.N) (h : t.val = 15) :
    Gen.k0_pay6 (Gen.iblk m c 1 t) (acc m c t.val t.isLt) (Gen.iblk m c 2 t) (Gen.iblk m c 4 t) (Gen.iblk m c 3 t)
        (Gen.iblk m c 5 t) (filled m c J t.val t.isLt) (Gen.iblk m c 7 t) (Gen.iblk m c 6 t)
      = result m c := by
  obtain rfl : t = lastPt := Fin.ext h
  rw [show filled m c J lastPt.val lastPt.isLt = adjAll m c from filled_last m c J]
  rfl

/-! ## The staging memrefs at a point, and what the body finds and leaves in them -/

abbrev ms0 (t : Fin cfg0.N) : Memref sig .tc .vmem S128x2048 .i32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S2048x64 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S64x64 .f32 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S64x64 .f32 := win0_3.stage (cfg0.slots t 3)
abbrev hs3 (t : Fin cfg0.N) : (ms3 t).IsWhole := Gen.hstage0_3 ((cfg0.slots t 3).cast Gen.nbuf0_3)
abbrev ms4 (t : Fin cfg0.N) : Memref sig .tc .vmem S1x64 .f32 := win0_4.stage (cfg0.slots t 4)
abbrev hs4 (t : Fin cfg0.N) : (ms4 t).IsWhole := Gen.hstage0_4 ((cfg0.slots t 4).cast Gen.nbuf0_4)
abbrev ms5 (t : Fin cfg0.N) : Memref sig .tc .vmem S32x64 .f32 := win0_5.stage (cfg0.slots t 5)
abbrev hs5 (t : Fin cfg0.N) : (ms5 t).IsWhole := Gen.hstage0_5 ((cfg0.slots t 5).cast Gen.nbuf0_5)
abbrev ms6 (t : Fin cfg0.N) : Memref sig .tc .vmem S32x64 .f32 := win0_6.stage (cfg0.slots t 6)
abbrev hs6 (t : Fin cfg0.N) : (ms6 t).IsWhole := Gen.hstage0_6 ((cfg0.slots t 6).cast Gen.nbuf0_6)
abbrev ms7 (t : Fin cfg0.N) : Memref sig .tc .vmem S1x32 .f32 := win0_7.stage (cfg0.slots t 7)
abbrev hs7 (t : Fin cfg0.N) : (ms7 t).IsWhole := Gen.hstage0_7 ((cfg0.slots t 7).cast Gen.nbuf0_7)
abbrev ms8 (t : Fin cfg0.N) : Memref sig .tc .vmem S2048x32 .f32 := win0_8.stage (cfg0.slots t 8)
abbrev hs8 (t : Fin cfg0.N) : (ms8 t).IsWhole := Gen.hstage0_8 ((cfg0.slots t 8).cast Gen.nbuf0_8)

theorem before_0 (c : Dev nD) (t : Fin cfg0.N) (d) : (dats m 0 c).before 0 t d = Gen.iblk m c 0 t :=
  Gen.before0_0_of m (dats m 0 c) (dats_A m c 0) (after_0 m c) t d
theorem before_1 (c : Dev nD) (t : Fin cfg0.N) (d) : (dats m 0 c).before 1 t d = Gen.iblk m c 1 t :=
  Gen.before0_1_of m (dats m 0 c) (dats_A m c 1) (after_1 m c) t d
theorem before_2 (c : Dev nD) (t : Fin cfg0.N) (d) : (dats m 0 c).before 2 t d = Gen.iblk m c 2 t :=
  Gen.before0_2_of m (dats m 0 c) (dats_A m c 2) (after_2 m c) t d
theorem before_3 (c : Dev nD) (t : Fin cfg0.N) (d) : (dats m 0 c).before 3 t d = Gen.iblk m c 3 t :=
  Gen.before0_3_of m (dats m 0 c) (dats_A m c 3) (after_3 m c) t d
theorem before_4 (c : Dev nD) (t : Fin cfg0.N) (d) : (dats m 0 c).before 4 t d = Gen.iblk m c 4 t :=
  Gen.before0_4_of m (dats m 0 c) (dats_A m c 4) (after_4 m c) t d
theorem before_5 (c : Dev nD) (t : Fin cfg0.N) (d) : (dats m 0 c).before 5 t d = Gen.iblk m c 5 t :=
  Gen.before0_5_of m (dats m 0 c) (dats_A m c 5) (after_5 m c) t d
theorem before_6 (c : Dev nD) (t : Fin cfg0.N) (d) : (dats m 0 c).before 6 t d = Gen.iblk m c 6 t :=
  Gen.before0_6_of m (dats m 0 c) (dats_A m c 6) (after_6 m c) t d
theorem before_7 (c : Dev nD) (t : Fin cfg0.N) (d) : (dats m 0 c).before 7 t d = Gen.iblk m c 7 t :=
  Gen.before0_7_of m (dats m 0 c) (dats_A m c 7) (after_7 m c) t d

theorem leaves_0 (c : Dev nD) (t : Fin cfg0.N) :
    ((dats m 0 c).leavesExact 0 t : sProp 𝕄) = owns (c : Thread nD τ) (ms0 t) fullShare (Gen.iblk m c 0 t) := by
  unfold Dat.leavesExact; rw [live_in 0 (by decide) t, after_0]
theorem leaves_1 (c : Dev nD) (t : Fin cfg0.N) :
    ((dats m 0 c).leavesExact 1 t : sProp 𝕄) = owns (c : Thread nD τ) (ms1 t) fullShare (Gen.iblk m c 1 t) := by
  unfold Dat.leavesExact; rw [live_in 1 (by decide) t, after_1]
theorem leaves_2 (c : Dev nD) (t : Fin cfg0.N) :
    ((dats m 0 c).leavesExact 2 t : sProp 𝕄) = owns (c : Thread nD τ) (ms2 t) fullShare (Gen.iblk m c 2 t) := by
  unfold Dat.leavesExact; rw [live_in 2 (by decide) t, after_2]
theorem leaves_3 (c : Dev nD) (t : Fin cfg0.N) :
    ((dats m 0 c).leavesExact 3 t : sProp 𝕄) = owns (c : Thread nD τ) (ms3 t) fullShare (Gen.iblk m c 3 t) := by
  unfold Dat.leavesExact; rw [live_in 3 (by decide) t, after_3]
theorem leaves_4 (c : Dev nD) (t : Fin cfg0.N) :
    ((dats m 0 c).leavesExact 4 t : sProp 𝕄) = owns (c : Thread nD τ) (ms4 t) fullShare (Gen.iblk m c 4 t) := by
  unfold Dat.leavesExact; rw [live_in 4 (by decide) t, after_4]
theorem leaves_5 (c : Dev nD) (t : Fin cfg0.N) :
    ((dats m 0 c).leavesExact 5 t : sProp 𝕄) = owns (c : Thread nD τ) (ms5 t) fullShare (Gen.iblk m c 5 t) := by
  unfold Dat.leavesExact; rw [live_in 5 (by decide) t, after_5]
theorem leaves_6 (c : Dev nD) (t : Fin cfg0.N) :
    ((dats m 0 c).leavesExact 6 t : sProp 𝕄) = owns (c : Thread nD τ) (ms6 t) fullShare (Gen.iblk m c 6 t) := by
  unfold Dat.leavesExact; rw [live_in 6 (by decide) t, after_6]
theorem leaves_7 (c : Dev nD) (t : Fin cfg0.N) :
    ((dats m 0 c).leavesExact 7 t : sProp 𝕄) = owns (c : Thread nD τ) (ms7 t) fullShare (Gen.iblk m c 7 t) := by
  unfold Dat.leavesExact; rw [live_in 7 (by decide) t, after_7]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the inputs' staging buffers hold their blocks; the point's number decides the case; the
    invariant hands the run the two scratch buffers (at anything before the first point, else at what the point
    before left) and takes them back at this point's contents; the output's staging buffer is handed back as found
    except at the last point, where it takes the result. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4, before_5, before_6, before_7]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, leaves_5, leaves_6, leaves_7]
  rw [Phi_castSucc]
  have h16 := pt_lt t
  by_cases h0 : t.val = 0
  · have hc1 : cond1 (grid0.coords t) := (hcond1 t).mpr h0
    have hc2 : ¬cond2 (grid0.coords t) := fun h => (hcond2 t).mp h h0
    have hc3 : ¬cond3 (grid0.coords t) := fun h => by have := (hcond3 t).mp h; omega
    rw [Dat.leavesExact_idle (dats m 0 c) 8 t (idle8 t hc3) (noFlush8 t hc3)]
    rw [Phi_zero m c _ _ h0, PhiA_eq, acc_zero m c t h0]
    iintro ⟨⟨⟨⟨%J, H10⟩, ⟨%A, H11⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run_first c (grid0.coords t) _ _ _ _ _ _ _ _ _ _ _ _ _ _ _ _ _ _ _ _ _ _ hc1 hc2 hc3 (Gen.iblk m c 0 t) (Gen.iblk m c 1 t) J A Set.univ _)
    isplitl [H0]; · iexact H0
    isplitl [H1]; · iexact H1
    isplitl [H10]; · iexact H10
    isplitl [H11]; · iexact H11
    iintro ⟨H0, H1, H10, H11⟩
    isplitl [H10 H11 Hg]
    · isplitl [H10]
      · iexists J; rw [filled_zero m c J t h0]; iexact H10
      isplitl [H11]; · iexact H11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond1 (grid0.coords t) := fun h => h0 ((hcond1 t).mp h)
    have hc2 : cond2 (grid0.coords t) := (hcond2 t).mpr h0
    rw [Phi_pos m c _ _ h0, acc_pos m c t h0]
    by_cases h15 : t.val = 15
    · have hc3 : cond3 (grid0.coords t) := (hcond3 t).mpr h15
      rw [show ((dats m 0 c).leavesExact 8 t : sProp 𝕄) = owns (c : Thread nD τ) (ms8 t) fullShare ((dats m 0 c).after 8 t) from by
        unfold Dat.leavesExact; rw [live8 t hc3], after_8]
      iintro ⟨⟨⟨%J, H10⟩, H11, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) _ _ _ _ _ _ _ _ _ _ _ _ _ _ _ _ _ _ _ _ _ _ hc1 hc2 hc3 (Gen.iblk m c 0 t) (Gen.iblk m c 1 t) (Gen.iblk m c 2 t)
        (Gen.iblk m c 3 t) (Gen.iblk m c 4 t) (Gen.iblk m c 5 t) (Gen.iblk m c 6 t) (Gen.iblk m c 7 t)
        (filled m c J (t.val - 1) (Nat.lt_of_le_of_lt (Nat.sub_le _ _) t.isLt))
        (acc m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H10]; · iexact H10
      isplitl [H11]; · iexact H11
      iintro ⟨H0, H1, H2, H3, H4, H5, H6, H7, H9, H10, H11⟩
      isplitl [H10 H11 Hg]
      · isplitl [H10]
        · iexists J; rw [filled_pos m c J t h0]; iexact H10
        isplitl [H11]; · iexact H11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [← result_of_last m c J t h15, acc_pos m c t h0, filled_pos m c J t h0]
      iexact H9
    · have hc3 : ¬cond3 (grid0.coords t) := fun h => h15 ((hcond3 t).mp h)
      rw [Dat.leavesExact_idle (dats m 0 c) 8 t (idle8 t hc3) (noFlush8 t hc3)]
      iintro ⟨⟨⟨%J, H10⟩, H11, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_mid c (grid0.coords t) _ _ _ _ _ _ _ _ _ _ _ _ _ _ _ _ _ _ _ _ _ _ hc1 hc2 hc3 (Gen.iblk m c 0 t) (Gen.iblk m c 1 t)
        (filled m c J (t.val - 1) (Nat.lt_of_le_of_lt (Nat.sub_le _ _) t.isLt))
        (acc m c (t.val - 1) (Nat.lt_of_le_of_lt (Nat.sub_le _ _) t.isLt)) Set.univ _)
      isplitl [H0]; · iexact H0
      isplitl [H1]; · iexact H1
      isplitl [H10]; · iexact H10
      isplitl [H11]; · iexact H11
      iintro ⟨H0, H1, H10, H11⟩
      isplitl [H10 H11 Hg]
      · isplitl [H10]
        · iexists J; rw [filled_pos m c J t h0]; iexact H10
        isplitl [H11]; · iexact H11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation (c : Dev nD) : BodyObligation (dats (F := F) m 0 c) (defs₀ (F := F)) Variants.none () Set.univ := fun t => by
  rw [Gen.bigSep_W0, Gen.bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the class invariant back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N16]; decide), PhiA_eq]
  iintro ⟨⟨%J, H10⟩, H11, Hg⟩
  isplitl [H10 H11]
  · isplitl [H10]
    · iexists _; iexact H10
    iexists _; iexact H11
  iexact Hg

/-! ## The run and the frame -/

set_option backward.isDefEq.respectTransparency.types false in
/-- At the compiled mesh, for any values, from any memory with zero counters: every weakly fair execution of @main on the
    TensorCores terminates, and every final state has every array of the pipeline at what the library computes from
    the proof data and every other unscoped buffer as the region found it. -/
theorem run_main : θ_run defs (onTc (τ := τ) (main (F := F))) (s₀ m ρ) (Pipeline.FramePost cfgs (dats m) 0 (Gen.V m)) :=
  Pipeline.θ_run_frame_track cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := dats_A m) (hin := hin m) (hout := hout m)

/-- THE FRAME: the launch leaves every argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_of m ρ (dats m) (dats_A m) (run_main m ρ)

end Cert.Kernel.Body

end
-- ==== Proof.Spec.lean ====
/-
  The two-layer graph convolution with a row-wise log-softmax, as functions of the argument arrays over the
  extended reals.

  With an edge weight `e i j` (row `i` of the adjacency is the source node, column `j` the destination), node
  features `x`, and the two layers' weights, the network is

    aggr e y   (j, c) = ∑ i, e i j * y i c                      -- messages summed into their destination
    lin y w    (r, o) = ∑ k, y r k * w o k                      -- y · wᵀ
    hidden            = max (lin (aggr e x) w1r + b1 + lin x w1s) 0
    logits            = lin (aggr e hidden) w2r + b2 + lin hidden w2s
    result     (r, o) = (logits r o - M r) - log (∑ o', exp (logits r o' - M r)),   M r = max over o' of logits r o'

  The second layer's aggregation can be taken before or after the product with `w2r`:
  `lin (aggr e h) w2r = aggr e (lin h w2r)`, which is a change of the order of two finite sums and the distributive
  law, valid on the extended reals when every entry is finite.
-/
import Idealize.ShloMosaic.PureOps.Ideal
import Idealize.ShloMosaic.Lib.ValueIdx

noncomputable section

namespace Cert.GraphConvSpec

open Idealize.ShloMosaic

/-- Every entry is a real number (neither infinity). -/
def IsReal {ι : Type} (f : ι → EReal) : Prop := ∀ i, f i ≠ ⊤ ∧ f i ≠ ⊥

/-- Messages `y i` summed into their destination node `j` with the edge weight `e i j`. -/
def aggr {K : ℕ} (e : Fin 2048 → Fin 2048 → EReal) (y : Fin 2048 → Fin K → EReal) (j : Fin 2048) (c : Fin K) : EReal :=
  ∑ i : Fin 2048, e i j * y i c

/-- The linear map `y · wᵀ`. -/
def lin {n K O : ℕ} (y : Fin n → Fin K → EReal) (w : Fin O → Fin K → EReal) (r : Fin n) (o : Fin O) : EReal :=
  ∑ k : Fin K, y r k * w o k

/-- An array of rank two as a function of its two coordinates. -/
abbrev fn2 {a b : ℕ} {α : Type} (v : (⟨2, ![a, b]⟩ : Shape).Idx → α) : Fin a → Fin b → α := fun i j => v (ValueIdx.ix2 i j)

/-- A function of two coordinates as an array of rank two. -/
abbrev arr2 {a b : ℕ} {α : Type} (f : Fin a → Fin b → α) : (⟨2, ![a, b]⟩ : Shape).Idx → α := fun j => f (j 0) (j 1)

/-- An array of rank one as a function of its coordinate. -/
abbrev fn1 {a : ℕ} {α : Type} (v : (⟨1, ![a]⟩ : Shape).Idx → α) : Fin a → α := fun i => v (ValueIdx.ix1 i)

/-- The hidden layer from the aggregated features `agg`: the two linear maps, the bias and the rectifier. -/
def hiddenOf (agg : Fin 2048 → Fin 64 → EReal) (x : Fin 2048 → Fin 64 → EReal) (w1r : Fin 64 → Fin 64 → EReal)
    (b1 : Fin 64 → EReal) (w1s : Fin 64 → Fin 64 → EReal) (r : Fin 2048) (k : Fin 64) : EReal :=
  max (lin agg w1r r k + b1 k + lin x w1s r k) 0

/-- The hidden layer: the first graph convolution followed by the rectifier. -/
def hidden (e : Fin 2048 → Fin 2048 → EReal) (x : Fin 2048 → Fin 64 → EReal) (w1r : Fin 64 → Fin 64 → EReal)
    (b1 : Fin 64 → EReal) (w1s : Fin 64 → Fin 64 → EReal) : Fin 2048 → Fin 64 → EReal :=
  hiddenOf (aggr e x) x w1r b1 w1s

/-- The second graph convolution of a hidden layer `h`, aggregating first (the reference's association). -/
def logitsAggrFirst (e : Fin 2048 → Fin 2048 → EReal) (h : Fin 2048 → Fin 64 → EReal) (w2r : Fin 32 → Fin 64 → EReal)
    (b2 : Fin 32 → EReal) (w2s : Fin 32 → Fin 64 → EReal) (r : Fin 2048) (o : Fin 32) : EReal :=
  lin (aggr e h) w2r r o + b2 o + lin h w2s r o

/-- The second graph convolution of a hidden layer `h`, multiplying by `w2r` first (the kernel's association). -/
def logitsLinFirst (e : Fin 2048 → Fin 2048 → EReal) (h : Fin 2048 → Fin 64 → EReal) (w2r : Fin 32 → Fin 64 → EReal)
    (b2 : Fin 32 → EReal) (w2s : Fin 32 → Fin 64 → EReal) (r : Fin 2048) (o : Fin 32) : EReal :=
  aggr e (lin h w2r) r o + b2 o + lin h w2s r o

/-- A row's maximum, as a fold of `max` from `-∞`. -/
def rowMax (z : Fin 2048 → Fin 32 → EReal) (r : Fin 2048) : EReal :=
  (Finset.univ : Finset (Fin 32)).fold max ⊥ (z r)

/-- The row-wise log-softmax. -/
def logSoftmax (z : Fin 2048 → Fin 32 → EReal) (r : Fin 2048) (o : Fin 32) : EReal :=
  (z r o - rowMax z r) - Ideal.log (∑ o' : Fin 32, Ideal.exp (z r o' - rowMax z r))

/-- The network's result with the second layer aggregated first. -/
def resultAggrFirst (e : Fin 2048 → Fin 2048 → EReal) (x : Fin 2048 → Fin 64 → EReal) (w1r : Fin 64 → Fin 64 → EReal)
    (b1 : Fin 64 → EReal) (w1s : Fin 64 → Fin 64 → EReal) (w2r : Fin 32 → Fin 64 → EReal) (b2 : Fin 32 → EReal)
    (w2s : Fin 32 → Fin 64 → EReal) : Fin 2048 → Fin 32 → EReal :=
  logSoftmax (logitsAggrFirst e (hidden e x w1r b1 w1s) w2r b2 w2s)

/-- The network's result with the second layer multiplied by `w2r` first. -/
def resultLinFirst (e : Fin 2048 → Fin 2048 → EReal) (x : Fin 2048 → Fin 64 → EReal) (w1r : Fin 64 → Fin 64 → EReal)
    (b1 : Fin 64 → EReal) (w1s : Fin 64 → Fin 64 → EReal) (w2r : Fin 32 → Fin 64 → EReal) (b2 : Fin 32 → EReal)
    (w2s : Fin 32 → Fin 64 → EReal) : Fin 2048 → Fin 32 → EReal :=
  logSoftmax (logitsLinFirst e (hidden e x w1r b1 w1s) w2r b2 w2s)

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of finite extended reals with one index is the image of a family of reals. -/
theorem exists_real1 {α : Type} (f : α → EReal) (hf : ∀ a, f a ≠ ⊤ ∧ f a ≠ ⊥) :
    ∃ g : α → ℝ, f = fun a => (g a : EReal) :=
  ⟨fun a => (f a).toReal, by funext a; exact (EReal.coe_toReal (hf a).1 (hf a).2).symm⟩

/-- A family of finite extended reals with two indices is the image of a family of reals. -/
theorem exists_real2 {α β : Type} (f : α → β → EReal) (hf : ∀ a b, f a b ≠ ⊤ ∧ f a b ≠ ⊥) :
    ∃ g : α → β → ℝ, f = fun a b => (g a b : EReal) :=
  ⟨fun a b => (f a b).toReal, by funext a b; exact (EReal.coe_toReal (hf a b).1 (hf a b).2).symm⟩

/-- The maximum with zero of a finite extended real is finite. -/
theorem max_zero_isReal {y : EReal} (hy : y ≠ ⊤ ∧ y ≠ ⊥) : max y 0 ≠ ⊤ ∧ max y 0 ≠ ⊥ := by
  rcases max_choice y 0 with h | h <;> rw [h]
  · exact hy
  · exact ⟨EReal.zero_ne_top, EReal.zero_ne_bot⟩

/-- The hidden layer of finite inputs is finite. -/
theorem hidden_isReal (e : Fin 2048 → Fin 2048 → EReal) (x : Fin 2048 → Fin 64 → EReal) (w1r : Fin 64 → Fin 64 → EReal)
    (b1 : Fin 64 → EReal) (w1s : Fin 64 → Fin 64 → EReal)
    (he : ∀ i j, e i j ≠ ⊤ ∧ e i j ≠ ⊥) (hx : ∀ i c, x i c ≠ ⊤ ∧ x i c ≠ ⊥) (hw1r : ∀ o k, w1r o k ≠ ⊤ ∧ w1r o k ≠ ⊥)
    (hb1 : ∀ k, b1 k ≠ ⊤ ∧ b1 k ≠ ⊥) (hw1s : ∀ o k, w1s o k ≠ ⊤ ∧ w1s o k ≠ ⊥) :
    ∀ r k, hidden e x w1r b1 w1s r k ≠ ⊤ ∧ hidden e x w1r b1 w1s r k ≠ ⊥ := by
  obtain ⟨e', rfl⟩ := exists_real2 e he
  obtain ⟨x', rfl⟩ := exists_real2 x hx
  obtain ⟨w1r', rfl⟩ := exists_real2 w1r hw1r
  obtain ⟨b1', rfl⟩ := exists_real1 b1 hb1
  obtain ⟨w1s', rfl⟩ := exists_real2 w1s hw1s
  intro r k
  -- the argument of the rectifier is the image of a real number
  have hreal : lin (aggr (fun a b => (e' a b : EReal)) (fun a b => (x' a b : EReal))) (fun a b => (w1r' a b : EReal)) r k
        + (b1' k : EReal) + lin (fun a b => (x' a b : EReal)) (fun a b => (w1s' a b : EReal)) r k
      = ((∑ k' : Fin 64, (∑ i : Fin 2048, e' i r * x' i k') * w1r' k k') + b1' k
          + ∑ k' : Fin 64, x' r k' * w1s' k k' : ℝ) := by
    simp only [lin, aggr, EReal.coe_add, EReal.coe_mul, coe_sum]
  unfold hidden hiddenOf
  apply max_zero_isReal
  rw [hreal]
  exact ⟨EReal.coe_ne_top _, EReal.coe_ne_bot _⟩

/-- Aggregating before or after the product with `w2r` is the same on finite entries. -/
theorem lin_aggr_eq_aggr_lin (e : Fin 2048 → Fin 2048 → EReal) (h : Fin 2048 → Fin 64 → EReal) (w : Fin 32 → Fin 64 → EReal)
    (he : ∀ i j, e i j ≠ ⊤ ∧ e i j ≠ ⊥) (hh : ∀ r k, h r k ≠ ⊤ ∧ h r k ≠ ⊥) (hw : ∀ o k, w o k ≠ ⊤ ∧ w o k ≠ ⊥) :
    lin (aggr e h) w = aggr e (lin h w) := by
  obtain ⟨e', rfl⟩ := exists_real2 e he
  obtain ⟨h', rfl⟩ := exists_real2 h hh
  obtain ⟨w', rfl⟩ := exists_real2 w hw
  funext r o
  -- both sides are images of real numbers; in the reals it is distributivity and a swap of the two sums
  have hl : lin (aggr (fun a b => (e' a b : EReal)) (fun a b => (h' a b : EReal))) (fun a b => (w' a b : EReal)) r o
      = ((∑ k : Fin 64, (∑ i : Fin 2048, e' i r * h' i k) * w' o k : ℝ) : EReal) := by
    simp only [lin, aggr, EReal.coe_mul, coe_sum]
  have hr : aggr (fun a b => (e' a b : EReal)) (lin (fun a b => (h' a b : EReal)) (fun a b => (w' a b : EReal))) r o
      = ((∑ i : Fin 2048, e' i r * ∑ k : Fin 64, h' i k * w' o k : ℝ) : EReal) := by
    simp only [lin, aggr, EReal.coe_mul, coe_sum]
  have hreal : (∑ k : Fin 64, (∑ i : Fin 2048, e' i r * h' i k) * w' o k : ℝ)
      = ∑ i : Fin 2048, e' i r * ∑ k : Fin 64, h' i k * w' o k := by
    simp only [Finset.sum_mul, Finset.mul_sum]
    rw [Finset.sum_comm]
    refine Finset.sum_congr rfl (fun i _ => Finset.sum_congr rfl (fun k _ => ?_))
    ring
  rw [hl, hr, hreal]

/-- On finite inputs the two associations of the second layer give the same network. -/
theorem resultLinFirst_eq_resultAggrFirst (e : Fin 2048 → Fin 2048 → EReal) (x : Fin 2048 → Fin 64 → EReal)
    (w1r : Fin 64 → Fin 64 → EReal) (b1 : Fin 64 → EReal) (w1s : Fin 64 → Fin 64 → EReal) (w2r : Fin 32 → Fin 64 → EReal)
    (b2 : Fin 32 → EReal) (w2s : Fin 32 → Fin 64 → EReal)
    (he : ∀ i j, e i j ≠ ⊤ ∧ e i j ≠ ⊥) (hx : ∀ i c, x i c ≠ ⊤ ∧ x i c ≠ ⊥) (hw1r : ∀ o k, w1r o k ≠ ⊤ ∧ w1r o k ≠ ⊥)
    (hb1 : ∀ k, b1 k ≠ ⊤ ∧ b1 k ≠ ⊥) (hw1s : ∀ o k, w1s o k ≠ ⊤ ∧ w1s o k ≠ ⊥) (hw2r : ∀ o k, w2r o k ≠ ⊤ ∧ w2r o k ≠ ⊥) :
    resultLinFirst e x w1r b1 w1s w2r b2 w2s = resultAggrFirst e x w1r b1 w1s w2r b2 w2s := by
  unfold resultLinFirst resultAggrFirst logitsLinFirst logitsAggrFirst
  rw [lin_aggr_eq_aggr_lin e _ w2r he (hidden_isReal e x w1r b1 w1s he hx hw1r hb1 hw1s) hw2r]

end Cert.GraphConvSpec

end
-- ==== Proof.KRead.lean ====
/-
  How the kernel's windows sit in the argument arrays, index by index.

  The grid has sixteen points. At point `t` the adjacency window is rows `[128 t, 128 t + 128)` of the 2048 × 2048
  adjacency; every other window is its whole array at every point. The two biases reach the kernel as one-row
  matrices made from the bias vectors before the kernel starts, so entry `(0, k)` of such a row is entry `k` of the
  vector. The output window's single block is the whole output array.
-/
import proofs.«114369_g3530463117553_cont_sun_c4_324_4_alg».proof.Proof.Gen.KernelIdeal.Frame
import Idealize.ShloMosaic.Lib.ValueIdx
import Idealize.ShloMosaic.Lib.Pipeline.Value
import Idealize.ShloMosaic.Lib.ValueLayout

set_option maxRecDepth 16384

noncomputable section

namespace Cert.KernelIdeal.KRead

open Idealize.ShloMosaic Idealize.ShloMosaic.TcCoe Idealize.ShloMosaic.Tactic Idealize.SL.Sem Cert.KernelIdeal
open Idealize.ShloMosaic.Pipeline (Dat)
open Idealize.ShloMosaic.ValueIdx (ix1 ix2)

variable {F : FTy → Type} [FloatOps F]
variable (m : (ℓ : Loc nD τ sig) → Buf (Elt F) ℓ)

/-- A point's number is below sixteen. -/
theorem pt_lt (t : Fin cfg0.N) : t.val < 16 := lt_of_lt_of_eq t.isLt Gen.N_0

/-! ## The printed index maps over the grid -/

/-- The adjacency window's block index at point `t` is `(t, 0)`. -/
theorem idx_adj : ∀ t : Fin cfg0.N, win0_0.index t (0 : Fin 2) = t.val ∧ win0_0.index t (1 : Fin 2) = 0 :=
  (by decide +kernel : ∀ t : Fin grid0.N, _)

/-- Every other window sits at block index `(0, 0)` at every point. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The adjacency slab -/

/-- Row `r` of the slab point `t` is handed is row `128 t + r` of the adjacency. -/
theorem adj_blk (c : Dev nD) (t : Fin cfg0.N) (r : Fin 128) (j : Fin 2048) :
    Gen.iblk m c 0 t (ix2 r j)
      = m ((c.tc : Thread nD τ).loc main_arg1) (ix2 (⟨128 * t.val + r.val, by have := pt_lt t; omega⟩ : Fin 2048) j) := by
  show Gen.V m c main_arg1 (((cfg0.win 0).blk t).view.emb (ix2 r j)) = _
  rw [Gen.V_main_arg1]
  congr 1
  obtain ⟨e0, e1⟩ := idx_adj t
  funext a
  apply Fin.ext
  match a with
  | ⟨0, _⟩ => show win0_0.index t (0 : Fin 2) * 128 + 1 * r.val = 128 * t.val + r.val; omega
  | ⟨1, _⟩ => show win0_0.index t (1 : Fin 2) * 2048 + 1 * j.val = j.val; omega

/-! ## The windows that are their whole array -/

/-- The features' window is the whole of `x`. -/
theorem x_blk (c : Dev nD) (t : Fin cfg0.N) :
    (Gen.iblk m c 1 t : Vec F S2048x64 .f32) = m ((c.tc : Thread nD τ).loc main_arg0) := by
  funext y
  show Gen.V m c main_arg0 (((cfg0.win 1).blk t).view.emb y) = _
  rw [Gen.V_main_arg0]
  congr 1
  obtain ⟨⟨e0, e1⟩, -⟩ := idx_whole t
  funext a
  apply Fin.ext
  match a with
  | ⟨0, _⟩ => show win0_1.index t (0 : Fin 2) * 2048 + 1 * (y 0).val = (y 0).val; omega
  | ⟨1, _⟩ => show win0_1.index t (1 : Fin 2) * 64 + 1 * (y 1).val = (y 1).val; omega

/-- The first layer's neighbour weight's window is the whole array. -/
theorem w1r_blk (c : Dev nD) (t : Fin cfg0.N) :
    (Gen.iblk m c 2 t : Vec F S64x64 .f32) = m ((c.tc : Thread nD τ).loc main_arg2) := by
  funext y
  show Gen.V m c main_arg2 (((cfg0.win 2).blk t).view.emb y) = _
  rw [Gen.V_main_arg2]
  congr 1
  obtain ⟨-, ⟨e0, e1⟩, -⟩ := idx_whole t
  funext a
  apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The first layer's self weight's window is the whole array. -/
theorem w1s_blk (c : Dev nD) (t : Fin cfg0.N) :
    (Gen.iblk m c 3 t : Vec F S64x64 .f32) = m ((c.tc : Thread nD τ).loc main_arg4) := by
  funext y
  show Gen.V m c main_arg4 (((cfg0.win 3).blk t).view.emb y) = _
  rw [Gen.V_main_arg4]
  congr 1
  obtain ⟨-, -, ⟨e0, e1⟩, -⟩ := idx_whole t
  funext a
  apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The second layer's neighbour weight's window is the whole array. -/
theorem w2r_blk (c : Dev nD) (t : Fin cfg0.N) :
    (Gen.iblk m c 5 t : Vec F S32x64 .f32) = m ((c.tc : Thread nD τ).loc main_arg5) := by
  funext y
  show Gen.V m c main_arg5 (((cfg0.win 5).blk t).view.emb y) = _
  rw [Gen.V_main_arg5]
  congr 1
  obtain ⟨-, -, -, -, ⟨e0, e1⟩, -⟩ := idx_whole t
  funext a
  apply Fin.ext
  match a with
  | ⟨0, _⟩ => show win0_5.index t (0 : Fin 2) * 32 + 1 * (y 0).val = (y 0).val; omega
  | ⟨1, _⟩ => show win0_5.index t (1 : Fin 2) * 64 + 1 * (y 1).val = (y 1).val; omega

/-- The second layer's self weight's window is the whole array. -/
theorem w2s_blk (c : Dev nD) (t : Fin cfg0.N) :
    (Gen.iblk m c 6 t : Vec F S32x64 .f32) = m ((c.tc : Thread nD τ).loc main_arg7) := by
  funext y
  show Gen.V m c main_arg7 (((cfg0.win 6).blk t).view.emb y) = _
  rw [Gen.V_main_arg7]
  congr 1
  obtain ⟨-, -, -, -, -, ⟨e0, e1⟩, -⟩ := idx_whole t
  funext a
  apply Fin.ext
  match a with
  | ⟨0, _⟩ => show win0_6.index t (0 : Fin 2) * 32 + 1 * (y 0).val = (y 0).val; omega
  | ⟨1, _⟩ => show win0_6.index t (1 : Fin 2) * 64 + 1 * (y 1).val = (y 1).val; omega

/-! ## The two biases, reshaped to one row before the region -/

/-- The first bias as a row: entry `(0, k)` is entry `k` of the bias. -/
theorem V_b1 (c : Dev nD) (k : Fin 64) :
    Gen.V m c main_v0 (ix2 (0 : Fin 1) k) = m ((c.tc : Thread nD τ).loc main_arg3) (ix1 k) := by
  have e : (Gen.V m c main_v0 : S1x64.Idx → Elt F .f32)
      = shapeCast S1x64 (m ((c.tc : Thread nD τ).loc main_arg3)) Gen.shapeCasts_S64_S1x64 := by
    dsimp only [Gen.V, Gen.hostOps0]; after_results; rfl
  rw [e, shapeCast_apply _ _ _ (ix1 k) (by rw [Shape.rowMajor_val_two, Shape.rowMajor_val_one]; show k.val = 0 * 64 + k.val; omega)]

/-- The second bias as a row: entry `(0, o)` is entry `o` of the bias. -/
theorem V_b2 (c : Dev nD) (o : Fin 32) :
    Gen.V m c main_v1 (ix2 (0 : Fin 1) o) = m ((c.tc : Thread nD τ).loc main_arg6) (ix1 o) := by
  have e : (Gen.V m c main_v1 : S1x32.Idx → Elt F .f32)
      = shapeCast S1x32 (m ((c.tc : Thread nD τ).loc main_arg6)) Gen.shapeCasts_S32_S1x32 := by
    dsimp only [Gen.V, Gen.hostOps0]; after_results; rfl
  rw [e, shapeCast_apply _ _ _ (ix1 o) (by rw [Shape.rowMajor_val_two, Shape.rowMajor_val_one]; show o.val = 0 * 32 + o.val; omega)]

/-- The first bias's window, read at `(0, k)`. -/
theorem b1_blk (c : Dev nD) (t : Fin cfg0.N) (k : Fin 64) :
    Gen.iblk m c 4 t (ix2 (0 : Fin 1) k) = m ((c.tc : Thread nD τ).loc main_arg3) (ix1 k) := by
  show Gen.V m c main_v0 (((cfg0.win 4).blk t).view.emb (ix2 (0 : Fin 1) k)) = _
  refine (congrArg (Gen.V m c main_v0) ?_).trans (V_b1 m c k)
  obtain ⟨-, -, -, ⟨e0, e1⟩, -⟩ := idx_whole t
  funext a
  apply Fin.ext
  match a with
  | ⟨0, _⟩ => show win0_4.index t (0 : Fin 2) * 1 + 1 * 0 = 0; omega
  | ⟨1, _⟩ => show win0_4.index t (1 : Fin 2) * 64 + 1 * k.val = k.val; omega

/-- The second bias's window, read at `(0, o)`. -/
theorem b2_blk (c : Dev nD) (t : Fin cfg0.N) (o : Fin 32) :
    Gen.iblk m c 7 t (ix2 (0 : Fin 1) o) = m ((c.tc : Thread nD τ).loc main_arg6) (ix1 o) := by
  show Gen.V m c main_v1 (((cfg0.win 7).blk t).view.emb (ix2 (0 : Fin 1) o)) = _
  refine (congrArg (Gen.V m c main_v1) ?_).trans (V_b2 m c o)
  obtain ⟨-, -, -, -, -, -, ⟨e0, e1⟩, -⟩ := idx_whole t
  funext a
  apply Fin.ext
  match a with
  | ⟨0, _⟩ => show win0_7.index t (0 : Fin 2) * 1 + 1 * 0 = 0; omega
  | ⟨1, _⟩ => show win0_7.index t (1 : Fin 2) * 32 + 1 * o.val = o.val; omega

/-! ## The output window -/

/-- The output window's one block is the whole output array: reading any contents through it changes nothing. -/
theorem out_blk_whole (t : Fin cfg0.N) (A : S2048x32.Idx → Elt F .f32) :
    ((cfg0.win 8).blk t).view.read (Elt F) A = A := by
  funext y
  rw [View.read_apply]
  show A (((cfg0.win 8).blk t).view.emb y) = A y
  congr 1
  obtain ⟨-, -, -, -, -, -, -, ⟨e0, e1⟩⟩ := idx_whole t
  funext a
  apply Fin.ext
  match a with
  | ⟨0, _⟩ => show win0_8.index t (0 : Fin 2) * 2048 + 1 * (y 0).val = (y 0).val; omega
  | ⟨1, _⟩ => show win0_8.index t (1 : Fin 2) * 32 + 1 * (y 1).val = (y 1).val; omega

end Cert.KernelIdeal.KRead

end
-- ==== Proof.KPayload.lean ====
/-
  The idealized kernel's six pure values, read at an index over the extended reals.

  The adjacency block's integer words become their signed values; their product with a block of features, contracting
  the block's 128 source rows, is node j's share of the aggregation, (j, c) ↦ ∑ r, a (r, j) · x (r, c): stored as it
  is at the first block, and added to what the earlier blocks left at the later ones. The last value is the network's
  result from the aggregated features: hidden = max (agg · w1rᵀ + b1 + x · w1sᵀ) 0, logits = aggr e (hidden · w2rᵀ) +
  b2 + hidden · w2sᵀ, and the row-wise log-softmax of the logits, (z − M) − log ∑ exp (z − M), M the row's maximum.

  Each matrix product contracts one axis, so at an output index it is the sum over that axis's coordinates of the
  products of the two operands' entries; the operand indices are read axis by axis. A bias row [1, b] broadcast over
  the nodes reads its column; a row's maximum or sum, kept as a column [a, 1] and broadcast back over the row, reads
  the row's value; the maximum is the fold of `max` from `⊥`, the value of f32's negative infinity.
-/
import proofs.«114369_g3530463117553_cont_sun_c4_324_4_alg».proof.Proof.Gen.KernelIdeal.Skeleton
import proofs.«114369_g3530463117553_cont_sun_c4_324_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Idealize.ShloMosaic Cert.KernelIdeal Cert.KernelIdeal.Gen Cert.GraphConvSpec ValueIdx

/-! ## The matrix products' operand indices, axis by axis

Each of the four products contracts one axis. At an output index and a contraction index the two operand indices
are read coordinate by coordinate: the contracted axis takes the contraction index's one coordinate, the other
axis takes the output index's coordinate at that operand's place among the output's axes. -/

/-! ### [128,2048] × [128,64] → [2048,64], contracting the leading axes -/

theorem lhs_dotA_0 (i : S2048x64.Idx) (q : dot_S128x2048_S128x64_S2048x64_0_0_1_1_n_n.contr.Idx) :
    (dot_S128x2048_S128x64_S2048x64_0_0_1_1_n_n.lhsIdx i q 0).val = (q ⟨0, by decide⟩).val :=
  dot_S128x2048_S128x64_S2048x64_0_0_1_1_n_n.lhsIdx_val_of_single rfl i q
theorem lhs_dotA_1 (i : S2048x64.Idx) (q : dot_S128x2048_S128x64_S2048x64_0_0_1_1_n_n.contr.Idx) :
    (dot_S128x2048_S128x64_S2048x64_0_0_1_1_n_n.lhsIdx i q 1).val = (i 0).val := by
  unfold DotDims.lhsIdx
  rw [dif_neg (show ¬(1 : Fin S128x2048.rank) ∈ dot_S128x2048_S128x64_S2048x64_0_0_1_1_n_n.lhsBatch by decide),
    dif_pos (show (1 : Fin S128x2048.rank) ∈ dot_S128x2048_S128x64_S2048x64_0_0_1_1_n_n.lhsNonContracting by decide)]
  rfl
theorem rhs_dotA_0 (i : S2048x64.Idx) (q : dot_S128x2048_S128x64_S2048x64_0_0_1_1_n_n.contr.Idx) :
    (dot_S128x2048_S128x64_S2048x64_0_0_1_1_n_n.rhsIdx i q 0).val = (q ⟨0, by decide⟩).val :=
  dot_S128x2048_S128x64_S2048x64_0_0_1_1_n_n.rhsIdx_val_of_single rfl i q
theorem rhs_dotA_1 (i : S2048x64.Idx) (q : dot_S128x2048_S128x64_S2048x64_0_0_1_1_n_n.contr.Idx) :
    (dot_S128x2048_S128x64_S2048x64_0_0_1_1_n_n.rhsIdx i q 1).val = (i 1).val := by
  unfold DotDims.rhsIdx
  rw [dif_neg (show ¬(1 : Fin S128x64.rank) ∈ dot_S128x2048_S128x64_S2048x64_0_0_1_1_n_n.rhsBatch by decide),
    dif_pos (show (1 : Fin S128x64.rank) ∈ dot_S128x2048_S128x64_S2048x64_0_0_1_1_n_n.rhsNonContracting by decide)]
  rfl

/-- Into the zero accumulator: out (j, c) = ∑ k, l (k, j) · r (k, c). -/
theorem matmulA_apply (l : FVec Ideal S128x2048 .f32) (r : FVec Ideal S128x64 .f32) (j : Fin 2048) (c : Fin 64) :
    matmul dot_S128x2048_S128x64_S2048x64_0_0_1_1_n_n none l r (constant (F := Ideal) S2048x64 .f32 0x00000000#32) (ix2 j c)
      = ∑ k : Fin 128, l (ix2 k j) * r (ix2 k c) := by
  show FloatOps.matmul dot_S128x2048_S128x64_S2048x64_0_0_1_1_n_n none l r
    (constant (F := Ideal) S2048x64 .f32 0x00000000#32) (ix2 j c) = _
  rw [Ideal.matmul_constant_zero_apply,
    ← Equiv.sum_comp (contrEquiv1 dot_S128x2048_S128x64_S2048x64_0_0_1_1_n_n 128 rfl rfl).symm]
  refine Finset.sum_congr rfl fun k _ => ?_
  have hk := contrEquiv1_symm_val dot_S128x2048_S128x64_S2048x64_0_0_1_1_n_n 128 rfl rfl k
  have el : dot_S128x2048_S128x64_S2048x64_0_0_1_1_n_n.lhsIdx (ix2 j c)
      ((contrEquiv1 dot_S128x2048_S128x64_S2048x64_0_0_1_1_n_n 128 rfl rfl).symm k) = ix2 k j :=
    funext fun a => Fin.ext (by
      match a with
      | ⟨0, _⟩ => exact (lhs_dotA_0 _ _).trans hk
      | ⟨1, _⟩ => exact lhs_dotA_1 _ _)
  have er : dot_S128x2048_S128x64_S2048x64_0_0_1_1_n_n.rhsIdx (ix2 j c)
      ((contrEquiv1 dot_S128x2048_S128x64_S2048x64_0_0_1_1_n_n 128 rfl rfl).symm k) = ix2 k c :=
    funext fun a => Fin.ext (by
      match a with
      | ⟨0, _⟩ => exact (rhs_dotA_0 _ _).trans hk
      | ⟨1, _⟩ => exact rhs_dotA_1 _ _)
  rw [el, er]

/-! ### [2048,64] × [64,64] → [2048,64], contracting the trailing axes -/

theorem lhs_dotB_0 (i : S2048x64.Idx) (q : dot_S2048x64_S64x64_S2048x64_1_1_0_0_n_n.contr.Idx) :
    (dot_S2048x64_S64x64_S2048x64_1_1_0_0_n_n.lhsIdx i q 0).val = (i 0).val := by
  unfold DotDims.lhsIdx
  rw [dif_neg (show ¬(0 : Fin S2048x64.rank) ∈ dot_S2048x64_S64x64_S2048x64_1_1_0_0_n_n.lhsBatch by decide),
    dif_pos (show (0 : Fin S2048x64.rank) ∈ dot_S2048x64_S64x64_S2048x64_1_1_0_0_n_n.lhsNonContracting by decide)]
  rfl
theorem lhs_dotB_1 (i : S2048x64.Idx) (q : dot_S2048x64_S64x64_S2048x64_1_1_0_0_n_n.contr.Idx) :
    (dot_S2048x64_S64x64_S2048x64_1_1_0_0_n_n.lhsIdx i q 1).val = (q ⟨0, by decide⟩).val :=
  dot_S2048x64_S64x64_S2048x64_1_1_0_0_n_n.lhsIdx_val_of_single rfl i q
theorem rhs_dotB_0 (i : S2048x64.Idx) (q : dot_S2048x64_S64x64_S2048x64_1_1_0_0_n_n.contr.Idx) :
    (dot_S2048x64_S64x64_S2048x64_1_1_0_0_n_n.rhsIdx i q 0).val = (i 1).val := by
  unfold DotDims.rhsIdx
  rw [dif_neg (show ¬(0 : Fin S64x64.rank) ∈ dot_S2048x64_S64x64_S2048x64_1_1_0_0_n_n.rhsBatch by decide),
    dif_pos (show (0 : Fin S64x64.rank) ∈ dot_S2048x64_S64x64_S2048x64_1_1_0_0_n_n.rhsNonContracting by decide)]
  rfl
theorem rhs_dotB_1 (i : S2048x64.Idx) (q : dot_S2048x64_S64x64_S2048x64_1_1_0_0_n_n.contr.Idx) :
    (dot_S2048x64_S64x64_S2048x64_1_1_0_0_n_n.rhsIdx i q 1).val = (q ⟨0, by decide⟩).val :=
  dot_S2048x64_S64x64_S2048x64_1_1_0_0_n_n.rhsIdx_val_of_single rfl i q

/-- Into the zero accumulator: out (r, o) = ∑ k, y (r, k) · w (o, k), the linear map y · wᵀ. -/
theorem matmulB_apply (y : FVec Ideal S2048x64 .f32) (w : FVec Ideal S64x64 .f32) (r : Fin 2048) (o : Fin 64) :
    matmul dot_S2048x64_S64x64_S2048x64_1_1_0_0_n_n none y w (constant (F := Ideal) S2048x64 .f32 0x00000000#32) (ix2 r o)
      = ∑ k : Fin 64, y (ix2 r k) * w (ix2 o k) := by
  show FloatOps.matmul dot_S2048x64_S64x64_S2048x64_1_1_0_0_n_n none y w
    (constant (F := Ideal) S2048x64 .f32 0x00000000#32) (ix2 r o) = _
  rw [Ideal.matmul_constant_zero_apply,
    ← Equiv.sum_comp (contrEquiv1 dot_S2048x64_S64x64_S2048x64_1_1_0_0_n_n 64 rfl rfl).symm]
  refine Finset.sum_congr rfl fun k _ => ?_
  have hk := contrEquiv1_symm_val dot_S2048x64_S64x64_S2048x64_1_1_0_0_n_n 64 rfl rfl k
  have el : dot_S2048x64_S64x64_S2048x64_1_1_0_0_n_n.lhsIdx (ix2 r o)
      ((contrEquiv1 dot_S2048x64_S64x64_S2048x64_1_1_0_0_n_n 64 rfl rfl).symm k) = ix2 r k :=
    funext fun a => Fin.ext (by
      match a with
      | ⟨0, _⟩ => exact lhs_dotB_0 _ _
      | ⟨1, _⟩ => exact (lhs_dotB_1 _ _).trans hk)
  have er : dot_S2048x64_S64x64_S2048x64_1_1_0_0_n_n.rhsIdx (ix2 r o)
      ((contrEquiv1 dot_S2048x64_S64x64_S2048x64_1_1_0_0_n_n 64 rfl rfl).symm k) = ix2 o k :=
    funext fun a => Fin.ext (by
      match a with
      | ⟨0, _⟩ => exact rhs_dotB_0 _ _
      | ⟨1, _⟩ => exact (rhs_dotB_1 _ _).trans hk)
  rw [el, er]

/-! ### [2048,64] × [32,64] → [2048,32], contracting the trailing axes -/

theorem lhs_dotC_0 (i : S2048x32.Idx) (q : dot_S2048x64_S32x64_S2048x32_1_1_0_0_n_n.contr.Idx) :
    (dot_S2048x64_S32x64_S2048x32_1_1_0_0_n_n.lhsIdx i q 0).val = (i 0).val := by
  unfold DotDims.lhsIdx
  rw [dif_neg (show ¬(0 : Fin S2048x64.rank) ∈ dot_S2048x64_S32x64_S2048x32_1_1_0_0_n_n.lhsBatch by decide),
    dif_pos (show (0 : Fin S2048x64.rank) ∈ dot_S2048x64_S32x64_S2048x32_1_1_0_0_n_n.lhsNonContracting by decide)]
  rfl
theorem lhs_dotC_1 (i : S2048x32.Idx) (q : dot_S2048x64_S32x64_S2048x32_1_1_0_0_n_n.contr.Idx) :
    (dot_S2048x64_S32x64_S2048x32_1_1_0_0_n_n.lhsIdx i q 1).val = (q ⟨0, by decide⟩).val :=
  dot_S2048x64_S32x64_S2048x32_1_1_0_0_n_n.lhsIdx_val_of_single rfl i q
theorem rhs_dotC_0 (i : S2048x32.Idx) (q : dot_S2048x64_S32x64_S2048x32_1_1_0_0_n_n.contr.Idx) :
    (dot_S2048x64_S32x64_S2048x32_1_1_0_0_n_n.rhsIdx i q 0).val = (i 1).val := by
  unfold DotDims.rhsIdx
  rw [dif_neg (show ¬(0 : Fin S32x64.rank) ∈ dot_S2048x64_S32x64_S2048x32_1_1_0_0_n_n.rhsBatch by decide),
    dif_pos (show (0 : Fin S32x64.rank) ∈ dot_S2048x64_S32x64_S2048x32_1_1_0_0_n_n.rhsNonContracting by decide)]
  rfl
theorem rhs_dotC_1 (i : S2048x32.Idx) (q : dot_S2048x64_S32x64_S2048x32_1_1_0_0_n_n.contr.Idx) :
    (dot_S2048x64_S32x64_S2048x32_1_1_0_0_n_n.rhsIdx i q 1).val = (q ⟨0, by decide⟩).val :=
  dot_S2048x64_S32x64_S2048x32_1_1_0_0_n_n.rhsIdx_val_of_single rfl i q

/-- Into the zero accumulator: out (r, o) = ∑ k, y (r, k) · w (o, k). -/
theorem matmulC_apply (y : FVec Ideal S2048x64 .f32) (w : FVec Ideal S32x64 .f32) (r : Fin 2048) (o : Fin 32) :
    matmul dot_S2048x64_S32x64_S2048x32_1_1_0_0_n_n none y w (constant (F := Ideal) S2048x32 .f32 0x00000000#32) (ix2 r o)
      = ∑ k : Fin 64, y (ix2 r k) * w (ix2 o k) := by
  show FloatOps.matmul dot_S2048x64_S32x64_S2048x32_1_1_0_0_n_n none y w
    (constant (F := Ideal) S2048x32 .f32 0x00000000#32) (ix2 r o) = _
  rw [Ideal.matmul_constant_zero_apply,
    ← Equiv.sum_comp (contrEquiv1 dot_S2048x64_S32x64_S2048x32_1_1_0_0_n_n 64 rfl rfl).symm]
  refine Finset.sum_congr rfl fun k _ => ?_
  have hk := contrEquiv1_symm_val dot_S2048x64_S32x64_S2048x32_1_1_0_0_n_n 64 rfl rfl k
  have el : dot_S2048x64_S32x64_S2048x32_1_1_0_0_n_n.lhsIdx (ix2 r o)
      ((contrEquiv1 dot_S2048x64_S32x64_S2048x32_1_1_0_0_n_n 64 rfl rfl).symm k) = ix2 r k :=
    funext fun a => Fin.ext (by
      match a with
      | ⟨0, _⟩ => exact lhs_dotC_0 _ _
      | ⟨1, _⟩ => exact (lhs_dotC_1 _ _).trans hk)
  have er : dot_S2048x64_S32x64_S2048x32_1_1_0_0_n_n.rhsIdx (ix2 r o)
      ((contrEquiv1 dot_S2048x64_S32x64_S2048x32_1_1_0_0_n_n 64 rfl rfl).symm k) = ix2 o k :=
    funext fun a => Fin.ext (by
      match a with
      | ⟨0, _⟩ => exact rhs_dotC_0 _ _
      | ⟨1, _⟩ => exact (rhs_dotC_1 _ _).trans hk)
  rw [el, er]

/-! ### [2048,2048] × [2048,32] → [2048,32], contracting the leading axes -/

theorem lhs_dotD_0 (i : S2048x32.Idx) (q : dot_S2048x2048_S2048x32_S2048x32_0_0_1_1_n_n.contr.Idx) :
    (dot_S2048x2048_S2048x32_S2048x32_0_0_1_1_n_n.lhsIdx i q 0).val = (q ⟨0, by decide⟩).val :=
  dot_S2048x2048_S2048x32_S2048x32_0_0_1_1_n_n.lhsIdx_val_of_single rfl i q
theorem lhs_dotD_1 (i : S2048x32.Idx) (q : dot_S2048x2048_S2048x32_S2048x32_0_0_1_1_n_n.contr.Idx) :
    (dot_S2048x2048_S2048x32_S2048x32_0_0_1_1_n_n.lhsIdx i q 1).val = (i 0).val := by
  unfold DotDims.lhsIdx
  rw [dif_neg (show ¬(1 : Fin S2048x2048.rank) ∈ dot_S2048x2048_S2048x32_S2048x32_0_0_1_1_n_n.lhsBatch by decide),
    dif_pos (show (1 : Fin S2048x2048.rank) ∈ dot_S2048x2048_S2048x32_S2048x32_0_0_1_1_n_n.lhsNonContracting by decide)]
  rfl
theorem rhs_dotD_0 (i : S2048x32.Idx) (q : dot_S2048x2048_S2048x32_S2048x32_0_0_1_1_n_n.contr.Idx) :
    (dot_S2048x2048_S2048x32_S2048x32_0_0_1_1_n_n.rhsIdx i q 0).val = (q ⟨0, by decide⟩).val :=
  dot_S2048x2048_S2048x32_S2048x32_0_0_1_1_n_n.rhsIdx_val_of_single rfl i q
theorem rhs_dotD_1 (i : S2048x32.Idx) (q : dot_S2048x2048_S2048x32_S2048x32_0_0_1_1_n_n.contr.Idx) :
    (dot_S2048x2048_S2048x32_S2048x32_0_0_1_1_n_n.rhsIdx i q 1).val = (i 1).val := by
  unfold DotDims.rhsIdx
  rw [dif_neg (show ¬(1 : Fin S2048x32.rank) ∈ dot_S2048x2048_S2048x32_S2048x32_0_0_1_1_n_n.rhsBatch by decide),
    dif_pos (show (1 : Fin S2048x32.rank) ∈ dot_S2048x2048_S2048x32_S2048x32_0_0_1_1_n_n.rhsNonContracting by decide)]
  rfl

/-- Into the zero accumulator: out (j, o) = ∑ i, e (i, j) · y (i, o): the rows of `y` summed into their
    destination with the edge weights. -/
theorem matmulD_apply (e : FVec Ideal S2048x2048 .f32) (y : FVec Ideal S2048x32 .f32) (j : Fin 2048) (o : Fin 32) :
    matmul dot_S2048x2048_S2048x32_S2048x32_0_0_1_1_n_n none e y (constant (F := Ideal) S2048x32 .f32 0x00000000#32) (ix2 j o)
      = ∑ i : Fin 2048, e (ix2 i j) * y (ix2 i o) := by
  show FloatOps.matmul dot_S2048x2048_S2048x32_S2048x32_0_0_1_1_n_n none e y
    (constant (F := Ideal) S2048x32 .f32 0x00000000#32) (ix2 j o) = _
  rw [Ideal.matmul_constant_zero_apply,
    ← Equiv.sum_comp (contrEquiv1 dot_S2048x2048_S2048x32_S2048x32_0_0_1_1_n_n 2048 rfl rfl).symm]
  refine Finset.sum_congr rfl fun k _ => ?_
  have hk := contrEquiv1_symm_val dot_S2048x2048_S2048x32_S2048x32_0_0_1_1_n_n 2048 rfl rfl k
  have el : dot_S2048x2048_S2048x32_S2048x32_0_0_1_1_n_n.lhsIdx (ix2 j o)
      ((contrEquiv1 dot_S2048x2048_S2048x32_S2048x32_0_0_1_1_n_n 2048 rfl rfl).symm k) = ix2 k j :=
    funext fun a => Fin.ext (by
      match a with
      | ⟨0, _⟩ => exact (lhs_dotD_0 _ _).trans hk
      | ⟨1, _⟩ => exact lhs_dotD_1 _ _)
  have er : dot_S2048x2048_S2048x32_S2048x32_0_0_1_1_n_n.rhsIdx (ix2 j o)
      ((contrEquiv1 dot_S2048x2048_S2048x32_S2048x32_0_0_1_1_n_n 2048 rfl rfl).symm k) = ix2 k o :=
    funext fun a => Fin.ext (by
      match a with
      | ⟨0, _⟩ => exact (rhs_dotD_0 _ _).trans hk
      | ⟨1, _⟩ => exact rhs_dotD_1 _ _)
  rw [el, er]

/-! ## The keepdims column forms and the two lane reductions, read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the lanes of a [2048,32] array inserts the lane `o` into, at row `r`, is `(r, o)`. -/
theorem lift_row (h : S2048x32.Reduces [1] S2048) (r : Fin 2048) (o : Fin 32) : h.lift (ix1 r) o = ix2 r o :=
  funext fun a => Fin.ext (by
    match a with
    | ⟨0, _⟩ => rfl
    | ⟨1, _⟩ => rfl)

/-- A row's lane sum. -/
theorem rowSum_apply (z : FVec Ideal S2048x32 .f32) (h : S2048x32.Reduces [1] S2048) (hφ : FKind.Formats .f32)
    (hacc : (0x00000000#32 : BitVec 32) = FKind.add.neutral .f32 hφ) (r : Fin 2048) :
    multiReduction .add [1] S2048 z 0x00000000#32 h hφ hacc (ix1 r) = ∑ o : Fin 32, z (ix2 r o) :=
  (Ideal.multiReduction_add_single z 0x00000000#32 h hφ hacc (ix1 r)).trans
    (Finset.sum_congr rfl fun o _ => congrArg z (lift_row h r o))

/-- The pattern of f32's negative infinity is the extended reals' `⊥`. -/
theorem ofBits_negInf_f32 : Ideal.ofBits .f32 0xFF800000#32 = ⊥ := by simp [Ideal.ofBits, Ideal.ieee]

/-- A row's lane maximum: the fold of `max` from `⊥`. -/
theorem rowMax_apply (z : FVec Ideal S2048x32 .f32) (h : S2048x32.Reduces [1] S2048) (hφ : FKind.Formats .f32)
    (hacc : (0xFF800000#32 : BitVec 32) = FKind.maximumf.neutral .f32 hφ) (r : Fin 2048) :
    multiReduction .maximumf [1] S2048 z 0xFF800000#32 h hφ hacc (ix1 r)
      = (Finset.univ : Finset (Fin 32)).fold max ⊥ (fun o => z (ix2 r o)) := by
  refine (Ideal.multiReduction_maximumf_single z 0xFF800000#32 h hφ hacc (ix1 r)).trans ?_
  have e : (z ∘ h.lift (ix1 r)) = fun o : Fin 32 => z (ix2 r o) := funext fun o => congrArg z (lift_row h r o)
  rw [e]
  show (Finset.univ : Finset (Fin 32)).fold max (Ideal.ofBits .f32 0xFF800000#32) _ = _
  rw [ofBits_negInf_f32]

/-! ## The first five payloads: the adjacency's integer words as reals, and their product with a feature block -/

/-- The converted adjacency block holds each word's signed value. -/
theorem pay1_apply (v0 : Vec Ideal S128x2048 .i32) (r : Fin 128) (j : Fin 2048) :
    k0_pay1 (F := Ideal) v0 (ix2 r j) = (((v0 (ix2 r j) : BitVec 32).toInt : ℝ) : EReal) := rfl

theorem pay2_apply (v0 : Vec Ideal S128x2048 .i32) (r : Fin 128) (j : Fin 2048) :
    k0_pay2 (F := Ideal) v0 (ix2 r j) = (((v0 (ix2 r j) : BitVec 32).toInt : ℝ) : EReal) := by
  unfold k0_pay2
  rw [shapeCast_self]
  exact pay1_apply v0 r j

/-- Node `j`'s share of the aggregation from the block's 128 source rows. -/
theorem pay3_apply (v0 : Vec Ideal S128x2048 .i32) (v9 : Vec Ideal S128x64 .f32) (j : Fin 2048) (c : Fin 64) :
    k0_pay3 (F := Ideal) v0 v9 (ix2 j c)
      = ∑ r : Fin 128, (((v0 (ix2 r j) : BitVec 32).toInt : ℝ) : EReal) * v9 (ix2 r c) := by
  unfold k0_pay3
  exact (matmulA_apply (k0_pay1 (F := Ideal) v0) v9 j c).trans
    (Finset.sum_congr rfl fun r _ => congrArg (· * v9 (ix2 r c)) (pay1_apply v0 r j))

theorem pay4_apply (v0 : Vec Ideal S128x2048 .i32) (v9 : Vec Ideal S128x64 .f32) (j : Fin 2048) (c : Fin 64) :
    k0_pay4 (F := Ideal) v0 v9 (ix2 j c)
      = ∑ r : Fin 128, (((v0 (ix2 r j) : BitVec 32).toInt : ℝ) : EReal) * v9 (ix2 r c) := by
  unfold k0_pay4
  rw [shapeCast_self]
  exact pay3_apply v0 v9 j c

theorem pay5_apply (v0 : Vec Ideal S128x2048 .i32) (v9 : Vec Ideal S128x64 .f32) (v20 : Vec Ideal S2048x64 .f32)
    (j : Fin 2048) (c : Fin 64) :
    k0_pay5 (F := Ideal) v0 v9 v20 (ix2 j c)
      = v20 (ix2 j c) + ∑ r : Fin 128, (((v0 (ix2 r j) : BitVec 32).toInt : ℝ) : EReal) * v9 (ix2 r c) := by
  unfold k0_pay5
  rw [shapeCast_self, addf_apply, pay3_apply]

/-! ## The sixth payload in three stages: the hidden layer, the logits, the row-wise log-softmax -/

/-- The exponential and the logarithm of a vector are taken element by element. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The hidden layer as the kernel computes it, from the features `x` and the aggregated features `agg`:
    the two products with the transposed weights, the bias row broadcast over the nodes, and the maximum with zero. -/
def hidV (x agg : FVec Ideal S2048x64 .f32) (w1r : FVec Ideal S64x64 .f32) (b1 : FVec Ideal S1x64 .f32)
    (w1s : FVec Ideal S64x64 .f32) : FVec Ideal S2048x64 .f32 :=
  maximumf
    (addf
      (addf
        (matmul dot_S2048x64_S64x64_S2048x64_1_1_0_0_n_n none agg w1r (constant S2048x64 .f32 0x00000000#32))
        (broadcastTo S2048x64 (shapeCast S1x64 b1 shapeCasts_S1x64_S1x64) broadcasts_S1x64_S2048x64))
      (matmul dot_S2048x64_S64x64_S2048x64_1_1_0_0_n_n none x w1s (constant S2048x64 .f32 0x00000000#32)))
    (broadcast S2048x64 (Scalar.ofBits .f32 0x00000000#32))

/-- The logits as the kernel computes them from a hidden layer `h`: the product with `w2r` first, then the
    aggregation over the edges `e`, the bias row, and the product with `w2s`. -/
def logitsV (h : FVec Ideal S2048x64 .f32) (w2r : FVec Ideal S32x64 .f32) (e : FVec Ideal S2048x2048 .f32)
    (b2 : FVec Ideal S1x32 .f32) (w2s : FVec Ideal S32x64 .f32) : FVec Ideal S2048x32 .f32 :=
  addf
    (addf
      (matmul dot_S2048x2048_S2048x32_S2048x32_0_0_1_1_n_n none e
        (matmul dot_S2048x64_S32x64_S2048x32_1_1_0_0_n_n none h w2r (constant S2048x32 .f32 0x00000000#32))
        (constant S2048x32 .f32 0x00000000#32))
      (broadcastTo S2048x32 (shapeCast S1x32 b2 shapeCasts_S1x32_S1x32) broadcasts_S1x32_S2048x32))
    (matmul dot_S2048x64_S32x64_S2048x32_1_1_0_0_n_n none h w2s (constant S2048x32 .f32 0x00000000#32))

/-- Each row's maximum, kept as a column and broadcast back over the row. -/
def rowMaxV (z : FVec Ideal S2048x32 .f32) : FVec Ideal S2048x32 .f32 :=
  broadcastTo S2048x32
    (shapeCast S2048x1 (multiReduction .maximumf [1] S2048 z 0xFF800000#32 reduces_S2048x32_S2048 (.inl rfl) rfl)
      shapeCasts_S2048_S2048x1)
    broadcasts_S2048x1_S2048x32

/-- The row-wise log-softmax as the kernel computes it: the row's maximum subtracted, then the logarithm of the
    row's sum of exponentials subtracted. -/
def logSoftmaxV (z : FVec Ideal S2048x32 .f32) : FVec Ideal S2048x32 .f32 :=
  subf (subf z (rowMaxV z))
    (broadcastTo S2048x32
      (log (shapeCast S2048x1
        (multiReduction .add [1] S2048 (exp (subf z (rowMaxV z))) 0x00000000#32 reduces_S2048x32_S2048 (.inl rfl) rfl)
        shapeCasts_S2048_S2048x1))
      broadcasts_S2048x1_S2048x32)

/-- The sixth payload is the three stages composed. -/
theorem pay6_eq (v20 v21 : Vec Ideal S2048x64 .f32) (v22 : Vec Ideal S64x64 .f32) (v24 : Vec Ideal S1x64 .f32)
    (v28 : Vec Ideal S64x64 .f32) (v33 : Vec Ideal S32x64 .f32) (v35 : Vec Ideal S2048x2048 .f32)
    (v37 : Vec Ideal S1x32 .f32) (v41 : Vec Ideal S32x64 .f32) :
    k0_pay6 (F := Ideal) v20 v21 v22 v24 v28 v33 v35 v37 v41
      = logSoftmaxV (logitsV (hidV v20 v21 v22 v24 v28) v33 v35 v37 v41) := rfl

/-- The hidden layer at node `r` and unit `k`. -/
theorem hidV_apply (x agg : FVec Ideal S2048x64 .f32) (w1r : FVec Ideal S64x64 .f32) (b1 : FVec Ideal S1x64 .f32)
    (w1s : FVec Ideal S64x64 .f32) (r : Fin 2048) (k : Fin 64) :
    hidV x agg w1r b1 w1s (ix2 r k)
      = hiddenOf (fn2 agg) (fn2 x) (fn2 w1r) (fun k => b1 (ix2 0 k)) (fn2 w1s) r k := by
  unfold hidV
  rw [maximumf_apply, addf_apply, addf_apply, matmulB_apply, matmulB_apply, shapeCast_self,
    broadcastTo_1b_ab_apply, broadcast_apply]
  show max _ (Ideal.ofBits .f32 0x00000000#32) = _
  rw [Ideal.ofBits_zero_f32]
  rfl

/-- The logits at node `r` and class `o`. -/
theorem logitsV_apply (h : FVec Ideal S2048x64 .f32) (w2r : FVec Ideal S32x64 .f32) (e : FVec Ideal S2048x2048 .f32)
    (b2 : FVec Ideal S1x32 .f32) (w2s : FVec Ideal S32x64 .f32) (r : Fin 2048) (o : Fin 32) :
    logitsV h w2r e b2 w2s (ix2 r o)
      = logitsLinFirst (fn2 e) (fn2 h) (fn2 w2r) (fun o => b2 (ix2 0 o)) (fn2 w2s) r o := by
  unfold logitsV
  rw [addf_apply, addf_apply, matmulD_apply, matmulC_apply, shapeCast_self, broadcastTo_1b_ab_apply]
  have hin : ∀ i : Fin 2048,
      matmul dot_S2048x64_S32x64_S2048x32_1_1_0_0_n_n none h w2r (constant (F := Ideal) S2048x32 .f32 0x00000000#32) (ix2 i o)
        = ∑ k : Fin 64, h (ix2 i k) * w2r (ix2 o k) := fun i => matmulC_apply h w2r i o
  rw [Finset.sum_congr rfl fun i _ => congrArg (e (ix2 i r) * ·) (hin i)]
  rfl

/-- The broadcast row maximum at `(r, o)` is row `r`'s maximum. -/
theorem rowMaxV_apply (z : FVec Ideal S2048x32 .f32) (r : Fin 2048) (o : Fin 32) :
    rowMaxV z (ix2 r o) = rowMax (fn2 z) r := by
  unfold rowMaxV
  rw [broadcastTo_a1_ab_apply, shapeCast_a_a1_apply]
  exact rowMax_apply z _ _ _ r

/-- The kernel's log-softmax at `(r, o)`. -/
theorem logSoftmaxV_apply (z : FVec Ideal S2048x32 .f32) (r : Fin 2048) (o : Fin 32) :
    logSoftmaxV z (ix2 r o) = logSoftmax (fn2 z) r o := by
  unfold logSoftmaxV
  rw [subf_apply, subf_apply, rowMaxV_apply, broadcastTo_a1_ab_apply, log_apply, shapeCast_a_a1_apply]
  refine congrArg (fun t => z (ix2 r o) - rowMax (fn2 z) r - Ideal.log t) ?_
  refine (rowSum_apply _ _ _ _ r).trans (Finset.sum_congr rfl fun o' _ => ?_)
  rw [exp_apply, subf_apply, rowMaxV_apply]

/-- The kernel's result at node `r` and class `o`: the log-softmax of the second layer's logits, the product
    with `w2r` taken before the aggregation, over the first layer's hidden units. -/
theorem pay6_apply (v20 v21 : Vec Ideal S2048x64 .f32) (v22 : Vec Ideal S64x64 .f32) (v24 : Vec Ideal S1x64 .f32)
    (v28 : Vec Ideal S64x64 .f32) (v33 : Vec Ideal S32x64 .f32) (v35 : Vec Ideal S2048x2048 .f32)
    (v37 : Vec Ideal S1x32 .f32) (v41 : Vec Ideal S32x64 .f32) (r : Fin 2048) (o : Fin 32) :
    k0_pay6 (F := Ideal) v20 v21 v22 v24 v28 v33 v35 v37 v41 (ix2 r o)
      = logSoftmax
          (logitsLinFirst (fn2 v35)
            (hiddenOf (fn2 v21) (fn2 v20) (fn2 v22) (fun k => v24 (ix2 0 k)) (fn2 v28))
            (fn2 v33) (fun o => v37 (ix2 0 o)) (fn2 v41)) r o := by
  rw [pay6_eq, logSoftmaxV_apply]
  have hh : fn2 (hidV v20 v21 v22 v24 v28)
      = hiddenOf (fn2 v21) (fn2 v20) (fn2 v22) (fun k => v24 (ix2 0 k)) (fn2 v28) :=
    funext fun r => funext fun k => hidV_apply v20 v21 v22 v24 v28 r k
  have hz : fn2 (logitsV (hidV v20 v21 v22 v24 v28) v33 v35 v37 v41)
      = logitsLinFirst (fn2 v35) (fn2 (hidV v20 v21 v22 v24 v28)) (fn2 v33) (fun o => v37 (ix2 0 o)) (fn2 v41) :=
    funext fun r => funext fun o => logitsV_apply (hidV v20 v21 v22 v24 v28) v33 v35 v37 v41 r o
  rw [hz, hh]

end Cert.KernelIdeal.Payload

end
-- ==== Proof.KValue.lean ====
/-
  The idealized kernel's run with its result named: over the extended reals the output array ends at the
  specification's network, the second layer multiplied by its weight before the aggregation, with the adjacency's
  integer entries as the edge weights.
-/
import proofs.«114369_g3530463117553_cont_sun_c4_324_4_alg».proof.Proof.Gen.KernelIdeal.Frame
import proofs.«114369_g3530463117553_cont_sun_c4_324_4_alg».proof.Proof.Spec
import proofs.«114369_g3530463117553_cont_sun_c4_324_4_alg».proof.Proof.KRead
import proofs.«114369_g3530463117553_cont_sun_c4_324_4_alg».proof.Proof.KData
import proofs.«114369_g3530463117553_cont_sun_c4_324_4_alg».proof.Proof.KPayload
import proofs.«114369_g3530463117553_cont_sun_c4_324_4_alg».proof.Proof.KBody
import Mathlib.Algebra.BigOperators.Fin
import Mathlib.Logic.Equiv.Fin.Basic
import Mathlib.Data.Fintype.BigOperators

set_option maxRecDepth 16384

noncomputable section

namespace Cert.KernelIdeal.KValue

open Idealize.ShloMosaic Idealize.ShloMosaic.TcCoe Idealize.SL.Sem Cert.KernelIdeal Cert.GraphConvSpec ValueIdx
open scoped BigOperators

/-- The edge weight the kernel gives an adjacency word: the integer it denotes. -/
def edge (adj : IVec S2048x2048 32) (i j : Fin 2048) : EReal := (((adj (ix2 i j)).toInt : ℝ) : EReal)

/-! ## Sums over the rows, slab by slab -/

/-- A sum over the 2048 rows is the sum over the sixteen slabs of the sums over each slab's 128 rows. -/
theorem sum_slabs {M : Type*} [AddCommMonoid M] (f : Fin 2048 → M) :
    ∑ i : Fin 2048, f i = ∑ t : Fin 16, ∑ r : Fin 128, f ⟨128 * t.val + r.val, by omega⟩ := by
  have e := (Equiv.sum_comp (finProdFinEquiv (m := 16) (n := 128)) f).symm
  rw [Fintype.sum_prod_type] at e
  refine e.trans (Finset.sum_congr rfl fun t _ => Finset.sum_congr rfl fun r _ => congrArg f (Fin.ext ?_))
  show r.val + 128 * t.val = 128 * t.val + r.val
  omega

/-- Slab `t`'s share of the messages summed into node `j`, feature `k`: the 128 source rows `128 t … 128 t + 127`. -/
def slabSum (A : IVec S2048x2048 32) (X : Fin 2048 → Fin 64 → EReal) (j : Fin 2048) (k : Fin 64) (t : ℕ) : EReal :=
  if h : t < 16 then ∑ r : Fin 128, edge A ⟨128 * t + r.val, by omega⟩ j * X ⟨128 * t + r.val, by omega⟩ k else 0

/-- The aggregation is the sum of the sixteen slabs' shares. -/
theorem aggr_eq_slabs (A : IVec S2048x2048 32) (X : Fin 2048 → Fin 64 → EReal) (j : Fin 2048) (k : Fin 64) :
    aggr (edge A) X j k = ∑ t ∈ Finset.range 16, slabSum A X j k t := by
  unfold aggr
  rw [sum_slabs, Finset.sum_range]
  refine Finset.sum_congr rfl fun t _ => ?_
  unfold slabSum
  rw [dif_pos t.isLt]

section Run

variable (m : (ℓ : Loc nD τ sig) → Buf (Elt Ideal) ℓ) (ρ : Dev nD → PrngReg)

/-! ## The running sum -/

/-- What point `t` adds at node `j`, feature `k`, is slab `t`'s share. -/
theorem slab_pay (c : Dev nD) (t : Fin cfg0.N) (j : Fin 2048) (k : Fin 64) :
    ∑ r : Fin 128, (((Body.adj m c t (ix2 r j) : BitVec 32).toInt : ℝ) : EReal) * Body.xRows m c t (ix2 r k)
      = slabSum (m ((c.tc : Thread nD τ).loc main_arg1)) (fn2 (m ((c.tc : Thread nD τ).loc main_arg0))) j k t.val := by
  unfold slabSum
  rw [dif_pos (KRead.pt_lt t)]
  refine Finset.sum_congr rfl fun r _ => ?_
  rw [Body.xRows_apply, KRead.x_blk]
  unfold Body.adj
  rw [KRead.adj_blk]
  rfl

/-- After point `n` the running sum holds the shares of slabs `0 … n`. -/
theorem acc_apply (c : Dev nD) (j : Fin 2048) (k : Fin 64) : ∀ (n : ℕ) (h : n < cfg0.N),
    Body.acc m c n h (ix2 j k)
      = ∑ t ∈ Finset.range (n + 1),
          slabSum (m ((c.tc : Thread nD τ).loc main_arg1)) (fn2 (m ((c.tc : Thread nD τ).loc main_arg0))) j k t
  | 0, h => by
    show Gen.k0_pay4 (Body.adj m c ⟨0, h⟩) (Body.xRows m c ⟨0, h⟩) (ix2 j k) = _
    rw [Payload.pay4_apply, slab_pay, Finset.sum_range_one]
  | n + 1, h => by
    show Gen.k0_pay5 (Body.adj m c ⟨n + 1, h⟩) (Body.xRows m c ⟨n + 1, h⟩) (Body.acc m c n (Nat.lt_of_succ_lt h)) (ix2 j k) = _
    rw [Payload.pay5_apply, slab_pay, acc_apply c j k n (Nat.lt_of_succ_lt h)]
    exact (Finset.sum_range_succ _ (n + 1)).symm

/-- After the last point the running sum is the aggregation of the features along the edges. -/
theorem acc_last (c : Dev nD) :
    fn2 (Body.acc m c 15 Body.lastPt.isLt)
      = aggr (edge (m ((c.tc : Thread nD τ).loc main_arg1))) (fn2 (m ((c.tc : Thread nD τ).loc main_arg0))) := by
  funext j k
  show Body.acc m c 15 Body.lastPt.isLt (ix2 j k) = _
  rw [acc_apply, aggr_eq_slabs]

/-! ## The cast adjacency -/

/-- The whole cast adjacency holds the edge weights. -/
theorem adjAll_edge (c : Dev nD) : fn2 (Body.adjAll m c) = edge (m ((c.tc : Thread nD τ).loc main_arg1)) := by
  funext i j
  show Body.adjAll m c (ix2 i j) = _
  rw [Body.adjAll_apply, Payload.pay2_apply, KRead.adj_blk]
  unfold edge
  refine congrArg (fun z : Fin 2048 => (((m ((c.tc : Thread nD τ).loc main_arg1) (ix2 z j) : BitVec 32).toInt : ℝ) : EReal)) (Fin.ext ?_)
  show 128 * (i.val / 128) + i.val % 128 = i.val
  omega

/-! ## The result -/

/-- What the last point leaves in the output's staging buffer is the network of the argument arrays. -/
theorem result_apply (c : Dev nD) (r : Fin 2048) (o : Fin 32) :
    Body.result m c (ix2 r o)
      = resultLinFirst (edge (m ((c.tc : Thread nD τ).loc main_arg1))) (fn2 (m ((c.tc : Thread nD τ).loc main_arg0)))
          (fn2 (m ((c.tc : Thread nD τ).loc main_arg2))) (fn1 (m ((c.tc : Thread nD τ).loc main_arg3)))
          (fn2 (m ((c.tc : Thread nD τ).loc main_arg4))) (fn2 (m ((c.tc : Thread nD τ).loc main_arg5)))
          (fn1 (m ((c.tc : Thread nD τ).loc main_arg6))) (fn2 (m ((c.tc : Thread nD τ).loc main_arg7))) r o := by
  unfold Body.result
  rw [Payload.pay6_apply, adjAll_edge, acc_last, KRead.x_blk, KRead.w1r_blk, KRead.w1s_blk, KRead.w2r_blk, KRead.w2s_blk]
  have hb1 : (fun k : Fin 64 => Gen.iblk m c 4 Body.lastPt (ix2 0 k)) = fn1 (m ((c.tc : Thread nD τ).loc main_arg3)) :=
    funext fun k => KRead.b1_blk m c Body.lastPt k
  have hb2 : (fun o : Fin 32 => Gen.iblk m c 7 Body.lastPt (ix2 0 o)) = fn1 (m ((c.tc : Thread nD τ).loc main_arg6)) :=
    funext fun o => KRead.b2_blk m c Body.lastPt o
  rw [hb1, hb2]
  rfl

/-- The output array after the run is the network of the argument arrays. -/
theorem arr_final (c : Dev nD) :
    (Body.dats m 0 c).arrAt 8 cfg0.N
      = arr2 (resultLinFirst (edge (m ((c.tc : Thread nD τ).loc main_arg1))) (fn2 (m ((c.tc : Thread nD τ).loc main_arg0)))
          (fn2 (m ((c.tc : Thread nD τ).loc main_arg2))) (fn1 (m ((c.tc : Thread nD τ).loc main_arg3)))
          (fn2 (m ((c.tc : Thread nD τ).loc main_arg4))) (fn2 (m ((c.tc : Thread nD τ).loc main_arg5)))
          (fn1 (m ((c.tc : Thread nD τ).loc main_arg6))) (fn2 (m ((c.tc : Thread nD τ).loc main_arg7)))) := by
  have h := Body.arrAt8 m c
  rw [KRead.out_blk_whole, Body.after_8] at h
  rw [h]
  funext y
  obtain ⟨a, b, rfl⟩ : ∃ (a : Fin 2048) (b : Fin 32), y = ix2 a b := ⟨y 0, y 1, eq_ix2 y⟩
  exact result_apply m c a b

/-! ## The run -/

/-- The run's post from a run to the pipeline's own post over the proof data. -/
theorem run_value_of
    (hrun : θ_run (defs (F := Ideal)) (onTc (τ := τ) (main (F := Ideal))) ⟨m, fun _ => 0, ρ⟩
      (Pipeline.FramePost cfgs (Body.dats m) 0 (Gen.V m))) :
    θ_run (defs (F := Ideal)) (onTc (τ := τ) (main (F := Ideal))) ⟨m, fun _ => 0, ρ⟩ fun r => ∀ c : Dev nD,
      r.2.mem ((c.tc : Thread nD τ).loc main_v2)
          = arr2 (resultLinFirst (edge (m ((c.tc : Thread nD τ).loc main_arg1))) (fn2 (m ((c.tc : Thread nD τ).loc main_arg0)))
              (fn2 (m ((c.tc : Thread nD τ).loc main_arg2))) (fn1 (m ((c.tc : Thread nD τ).loc main_arg3)))
              (fn2 (m ((c.tc : Thread nD τ).loc main_arg4))) (fn2 (m ((c.tc : Thread nD τ).loc main_arg5)))
              (fn1 (m ((c.tc : Thread nD τ).loc main_arg6))) (fn2 (m ((c.tc : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans (arr_final m c),
      ((h c).1 1).trans (((Body.dats m 0 c).arrAt_in 1 rfl _).trans ((Body.dats_A m c 1).trans (Gen.V_main_arg0 m c))),
      ((h c).1 0).trans (((Body.dats m 0 c).arrAt_in 0 rfl _).trans ((Body.dats_A m c 0).trans (Gen.V_main_arg1 m c))),
      ((h c).1 2).trans (((Body.dats m 0 c).arrAt_in 2 rfl _).trans ((Body.dats_A m c 2).trans (Gen.V_main_arg2 m c))),
      ((h c).2 main_arg3 (Pipeline.mem_restRefs_of main_arg3 (by decide) (by decide))).trans (Gen.V_main_arg3 m c),
      ((h c).1 3).trans (((Body.dats m 0 c).arrAt_in 3 rfl _).trans ((Body.dats_A m c 3).trans (Gen.V_main_arg4 m c))),
      ((h c).1 5).trans (((Body.dats m 0 c).arrAt_in 5 rfl _).trans ((Body.dats_A m c 5).trans (Gen.V_main_arg5 m c))),
      ((h c).2 main_arg6 (Pipeline.mem_restRefs_of main_arg6 (by decide) (by decide))).trans (Gen.V_main_arg6 m c),
      ((h c).1 6).trans (((Body.dats m 0 c).arrAt_in 6 rfl _).trans ((Body.dats_A m c 6).trans (Gen.V_main_arg7 m c)))⟩) hrun

end Run

/-- THE KERNEL'S VALUE: every weakly fair execution ends with the output array at the network of the argument arrays,
    the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2)
          = arr2 (resultLinFirst (edge (m ((c.tc : Thread nD τ).loc main_arg1))) (fn2 (m ((c.tc : Thread nD τ).loc main_arg0)))
              (fn2 (m ((c.tc : Thread nD τ).loc main_arg2))) (fn1 (m ((c.tc : Thread nD τ).loc main_arg3)))
              (fn2 (m ((c.tc : Thread nD τ).loc main_arg4))) (fn2 (m ((c.tc : Thread nD τ).loc main_arg5)))
              (fn1 (m ((c.tc : Thread nD τ).loc main_arg6))) (fn2 (m ((c.tc : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run_value_of m ρ (Body.run_main m ρ)

end Cert.KernelIdeal.KValue

end
-- ==== Proof.RefTerm.lean ====
/-
  The reference program's result as a pure term of its argument arrays: each of its host operations applied in
  order, the functions it calls written out once.

  The edge list. `mask` marks the nonzero entries of the adjacency, flattened row-major to 4194304 = 2048 · 2048
  positions; `runCount` is the inclusive running count of the mask; `histogram` counts, for each value `v`, the
  positions whose running count is `v` (a scatter-add of ones, a running count equal to the length dropped);
  `positions` is the running sum of the histogram, so its entry `k` is the number of positions whose running
  count is at most `k`, which for `k` below the number of nonzeros is the flat position of the `k`-th nonzero
  entry; `edgeSrc` and `edgeDst` are that position's row and column, replaced by 2048 from the number of nonzeros on.

  The network. `gatherRows` reads a feature row per edge (an out-of-range row index reads as the not-a-number
  pattern), `conv` adds each edge's row into its destination row (an out-of-range destination is dropped),
  applies the two linear maps and the bias; `out` is the two convolutions with the rectifier between them and the
  row-wise log-softmax after.
-/
import proofs.«114369_g3530463117553_cont_sun_c4_324_4_alg».proof.ReferenceIdeal

noncomputable section

namespace Cert.ReferenceIdeal.RefTerm

open Idealize.ShloMosaic Cert.ReferenceIdeal

variable {F : FTy → Type} [FloatOps F] [Facts]
open Facts₀ Facts

/-- The inclusive running sum of a word array (a window of the whole length, padded on the left). -/
def runSum (x : IVec S4194304 32) : IVec S4194304 32 :=
  Host.reduceWindow IntOp.addi ![4194304] ![1] ![4194303] ![0] x
    (broadcastInDim S_ ![] bcast_S_S_ (constantI S_ 32 0#32)) reduceWindows_S4194304_S4194304_w4194304s1p4194303_0 h_S_

/-- The nonzero entries of the adjacency. -/
def mask (adj : IVec S2048x2048 32) : IVec S2048x2048 1 :=
  cmpi .ne adj (broadcastInDim S2048x2048 ![] bcast_S_S2048x2048 (constantI S_ 32 0#32))

/-- The inclusive running count of the flattened mask. -/
def runCount (adj : IVec S2048x2048 32) : IVec S4194304 32 :=
  runSum (extui 32 (shapeCast S4194304 (mask adj) shapeCasts_S2048x2048_S4194304) natLt_1_32)

/-- The running count clipped below at zero. -/
def clipped (adj : IVec S2048x2048 32) : IVec S4194304 32 :=
  maxsi (broadcastInDim S4194304 ![] bcast_S_S4194304 (id (constantI S_ 32 0#32))) (runCount adj)

/-- The clipped running count as scatter indices: a negative one wrapped by the length. -/
def histIdx (adj : IVec S2048x2048 32) : IVec S4194304x1 32 :=
  broadcastInDim S4194304x1 ![0] bcast_S4194304_S4194304x1_0
    (select (cmpi .slt (clipped adj) (broadcastInDim S4194304 ![] bcast_S_S4194304 (constantI S_ 32 0#32)))
      (addi (clipped adj) (broadcastInDim S4194304 ![] bcast_S_S4194304 (constantI S_ 32 4194304#32))) (clipped adj))

/-- How many positions have each running count. -/
def histogram (adj : IVec S2048x2048 32) : IVec S4194304 32 :=
  Host.scatter scatter_S4194304_S4194304x1_S4194304_n_0_0_1 IntOp.addi
    (broadcastInDim S4194304 ![] bcast_S_S4194304 (constantI S_ 32 0#32)) (histIdx adj)
    (broadcastInDim S4194304 ![] bcast_S_S4194304 (constantI S_ 32 1#32))

/-- Entry `k`: how many positions have a running count at most `k`. -/
def positions (adj : IVec S2048x2048 32) : IVec S4194304 32 := runSum (histogram adj)

/-- The floor of the quotient by a scalar word. -/
def floorDivide (x : IVec S4194304 32) (d : IVec S_ 32) : IVec S4194304 32 :=
  select
    (andi (cmpi .ne (signi x) (broadcastInDim S4194304 ![] bcast_S_S4194304 (signi d)))
      (cmpi .ne (Host.remsi x (broadcastInDim S4194304 ![] bcast_S_S4194304 d))
        (broadcastInDim S4194304 ![] bcast_S_S4194304 (constantI S_ 32 0#32))))
    (subi (Host.divsi x (broadcastInDim S4194304 ![] bcast_S_S4194304 d))
      (broadcastInDim S4194304 ![] bcast_S_S4194304 (constantI S_ 32 1#32)))
    (Host.divsi x (broadcastInDim S4194304 ![] bcast_S_S4194304 d))

/-- The divisor the remainder is taken by: one where the given divisor is zero. -/
def remDivisor (d : IVec S_ 32) : IVec S_ 32 :=
  select (cmpi .eq (id d) (constantI S_ 32 0#32)) (constantI S_ 32 1#32) (id d)

/-- The remainder of the floored division by a scalar word. -/
def remainder (x : IVec S4194304 32) (d : IVec S_ 32) : IVec S4194304 32 :=
  select
    (andi
      (cmpi .ne
        (cmpi .slt (Host.remsi x (broadcastInDim S4194304 ![] bcast_S_S4194304 (remDivisor d)))
          (broadcastInDim S4194304 ![] bcast_S_S4194304 (constantI S_ 32 0#32)))
        (broadcastInDim S4194304 ![] bcast_S_S4194304 (cmpi .slt (remDivisor d) (constantI S_ 32 0#32))))
      (cmpi .ne (Host.remsi x (broadcastInDim S4194304 ![] bcast_S_S4194304 (remDivisor d)))
        (broadcastInDim S4194304 ![] bcast_S_S4194304 (constantI S_ 32 0#32))))
    (addi (Host.remsi x (broadcastInDim S4194304 ![] bcast_S_S4194304 (remDivisor d)))
      (broadcastInDim S4194304 ![] bcast_S_S4194304 (remDivisor d)))
    (Host.remsi x (broadcastInDim S4194304 ![] bcast_S_S4194304 (remDivisor d)))

/-- The number of nonzero entries. -/
def nnz (adj : IVec S2048x2048 32) : IVec S_ 32 :=
  Host.reduce IntOp.addi (extui 32 (mask adj) natLt_1_32) (constantI S_ 32 0#32) reducesTo_S2048x2048_S_d0_1 h_S_

/-- Where the edge list is padding: from the number of nonzero entries on. -/
def padding (adj : IVec S2048x2048 32) : IVec S4194304 1 :=
  cmpi .sge (iotaInDim S4194304 32 0) (broadcastInDim S4194304 ![] bcast_S_S4194304 (nnz adj))

/-- A scalar word where the condition holds, else the array's entry. -/
def whereScalar (c : IVec S4194304 1) (a : IVec S_ 32) (b : IVec S4194304 32) : IVec S4194304 32 :=
  select c (broadcastInDim S4194304 ![] bcast_S_S4194304 (id a)) b

/-- The source node of each edge slot: the row of its position, or 2048 on padding. -/
def edgeSrc (adj : IVec S2048x2048 32) : IVec S4194304 32 :=
  whereScalar (padding adj) (constantI S_ 32 2048#32)
    (remainder (floorDivide (positions adj) (constantI S_ 32 2048#32)) (constantI S_ 32 2048#32))

/-- The destination node of each edge slot: the column of its position, or 2048 on padding. -/
def edgeDst (adj : IVec S2048x2048 32) : IVec S4194304 32 :=
  whereScalar (padding adj) (constantI S_ 32 2048#32)
    (remainder (floorDivide (positions adj) (constantI S_ 32 1#32)) (constantI S_ 32 2048#32))

/-- The row index each slot reads: a negative one wrapped by the number of rows. -/
def takeIdx (idx : IVec S4194304 32) : IVec S4194304x1 32 :=
  broadcastInDim S4194304x1 ![0] bcast_S4194304_S4194304x1_0
    (select (cmpi .slt idx (broadcastInDim S4194304 ![] bcast_S_S4194304 (constantI S_ 32 0#32)))
      (addi idx (broadcastInDim S4194304 ![] bcast_S_S4194304 (constantI S_ 32 2048#32))) idx)

/-- Where the row index is in range. -/
def takeInRange (idx : IVec S4194304 32) : IVec S4194304 1 :=
  Host.reduce IntOp.andi
    (andi (cmpi .sge (takeIdx idx) (broadcastInDim S4194304x1 ![] bcast_S_S4194304x1 (constantI S_ 32 0#32)))
      (cmpi .sle (takeIdx idx)
        (broadcastInDim S4194304x1 ![0, 1] bcast_S1x1_S4194304x1_0_1 (broadcastInDim S1x1 ![1] bcast_S1_S1x1_1 (constantI S1 32 2047#32)))))
    (constantI S_ 1 1#1) reducesTo_S4194304x1_S4194304_d1 h_S_

/-- One feature row per slot; an out-of-range row index reads as the not-a-number pattern. -/
def gatherRows (x : FVec F S2048x64 .f32) (idx : IVec S4194304 32) : FVec F S4194304x64 .f32 :=
  select (broadcastInDim S4194304x64 ![0] bcast_S4194304_S4194304x64_0 (takeInRange idx))
    (Host.gather gather_S2048x64_S4194304x1_S4194304x64_1_0_n_n_0_1_164 x (takeIdx idx))
    (broadcastInDim S4194304x64 ![] bcast_S_S4194304x64 (constant S_ .f32 0x7FC00000#32))

/-- Each slot's feature row added into its destination row. -/
def aggregate (y : FVec F S2048x64 .f32) (adj : IVec S2048x2048 32) : FVec F S2048x64 .f32 :=
  Host.scatterAdd scatter_S2048x64_S4194304x1_S4194304x64_1_0_0_1
    (broadcastInDim S2048x64 ![] bcast_S_S2048x64 (constant S_ .f32 0x00000000#32))
    (broadcastInDim S4194304x1 ![0] bcast_S4194304_S4194304x1_0 (edgeDst adj)) (gatherRows y (edgeSrc adj))

/-- The first convolution before the rectifier. -/
def conv1 (x : FVec F S2048x64 .f32) (adj : IVec S2048x2048 32) (w1r : FVec F S64x64 .f32) (b1 : FVec F S64 .f32)
    (w1s : FVec F S64x64 .f32) : FVec F S2048x64 .f32 :=
  addf
    (addf (Host.dotGeneral dot_S2048x64_S64x64_S2048x64_1_0_0_1_n_n none (aggregate x adj) (transpose S64x64 [1, 0] w1r transposes_S64x64_S64x64_1_0))
      (broadcastInDim S2048x64 ![0, 1] bcast_S1x64_S2048x64_0_1 (broadcastInDim S1x64 ![1] bcast_S64_S1x64_1 b1)))
    (Host.dotGeneral dot_S2048x64_S64x64_S2048x64_1_0_0_1_n_n none x (transpose S64x64 [1, 0] w1s transposes_S64x64_S64x64_1_0))

/-- The rectifier. -/
def relu (z : FVec F S2048x64 .f32) : FVec F S2048x64 .f32 :=
  maximumf z (broadcastInDim S2048x64 ![] bcast_S_S2048x64 (constant S_ .f32 0x00000000#32))

/-- The second convolution. -/
def conv2 (h : FVec F S2048x64 .f32) (adj : IVec S2048x2048 32) (w2r : FVec F S32x64 .f32) (b2 : FVec F S32 .f32)
    (w2s : FVec F S32x64 .f32) : FVec F S2048x32 .f32 :=
  addf
    (addf (Host.dotGeneral dot_S2048x64_S64x32_S2048x32_1_0_0_1_n_n none (aggregate h adj) (transpose S64x32 [1, 0] w2r transposes_S32x64_S64x32_1_0))
      (broadcastInDim S2048x32 ![0, 1] bcast_S1x32_S2048x32_0_1 (broadcastInDim S1x32 ![1] bcast_S32_S1x32_1 b2)))
    (Host.dotGeneral dot_S2048x64_S64x32_S2048x32_1_0_0_1_n_n none h (transpose S64x32 [1, 0] w2s transposes_S32x64_S64x32_1_0))

/-- The logits less their row maximum. -/
def shifted (z : FVec F S2048x32 .f32) : FVec F S2048x32 .f32 :=
  subf z
    (broadcastInDim S2048x32 ![0, 1] bcast_S2048x1_S2048x32_0_1
      (broadcastInDim S2048x1 ![0] bcast_S2048_S2048x1_0
        (maximumf (broadcastInDim S2048 ![] bcast_S_S2048 (constant S_ .f32 0xFF800000#32))
          (Host.reduce FloatOps.maximumf z (constant S_ .f32 0xFF800000#32) reducesTo_S2048x32_S2048_d1 h_S_))))

/-- The row-wise log-softmax. -/
def logSoftmax (z : FVec F S2048x32 .f32) : FVec F S2048x32 .f32 :=
  subf (shifted z)
    (broadcastInDim S2048x32 ![0, 1] bcast_S2048x1_S2048x32_0_1
      (Host.log (broadcastInDim S2048x1 ![0] bcast_S2048_S2048x1_0
        (Host.reduceAdd (Host.exp (shifted z)) (constant S_ .f32 0x00000000#32) reducesTo_S2048x32_S2048_d1 h_S_))))

/-- The reference's result. -/
def out (x : FVec F S2048x64 .f32) (adj : IVec S2048x2048 32) (w1r : FVec F S64x64 .f32) (b1 : FVec F S64 .f32)
    (w1s : FVec F S64x64 .f32) (w2r : FVec F S32x64 .f32) (b2 : FVec F S32 .f32) (w2s : FVec F S32x64 .f32) : FVec F S2048x32 .f32 :=
  logSoftmax (conv2 (relu (conv1 x adj w1r b1 w1s)) adj w2r b2 w2s)

end Cert.ReferenceIdeal.RefTerm

end
-- ==== Proof.RefRun.lean ====
/-
  The reference program's run: its host operations as one list, the functions it calls written out at their call
  sites, and every weakly fair execution ending with the result buffer at the pure term of the arguments and the
  arguments unchanged.

  The list is cut into fifteen consecutive stretches, following the stages of the pure term. What a stretch leaves in its
  result buffer is computed from ANY contents it starts from; the stages are then chained through the contents after
  each stretch, a buffer a later stretch reads being carried unchanged over the stretches between.
-/
import proofs.«114369_g3530463117553_cont_sun_c4_324_4_alg».proof.Proof.RefTerm
import proofs.«114369_g3530463117553_cont_sun_c4_324_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations

The program's host operations in order, cut into consecutive stretches, each called function's operations written out at
its call over that call's buffers. -/

/-- The nonzero mask, its flattened running count, the count clipped at zero and the histogram of the clipped count. -/
abbrev seg1 : List (HloOp τ sig (Elt F)) :=
  [ nullary main_c (constantI S_ 32 0#32),
    unary main_c main_v0 (broadcastInDim S2048x2048 ![] bcast_S_S2048x2048),
    binary main_arg1 main_v0 main_v1 (cmpi .ne),
    TRef.reshape (.of main_v1 : TRef sig ⟨S2048x2048, .i1⟩) main_call0.v0 rfl shapeCasts_S2048x2048_S4194304,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1
      (fun x v => Host.reduceWindow IntOp.addi ![4194304] ![1] ![4194303] ![0] x v reduceWindows_S4194304_S4194304_w4194304s1p4194303_0 h_S_),
    nullary main_c_0 (constantI S_ 32 0#32),
    unary main_c_0 main_v3 (broadcastInDim S4194304 ![] bcast_S_S4194304),
    nullary main_c_1 (constantI S_ 32 0#32),
    TRef.unary (.of main_c_1 : TRef sig ⟨S_, .i32⟩) main_call1.v0 id,
    TRef.unary main_call1.v0 main_call1.v1 (broadcastInDim S4194304 ![] bcast_S_S4194304),
    TRef.binary main_call1.v1 (.of main_v2 : TRef sig ⟨S4194304, .i32⟩) main_call1.v2 maxsi,
    nullary main_c_2 (constantI S_ 32 0#32),
    unary main_c_2 main_v5 (broadcastInDim S4194304 ![] bcast_S_S4194304),
    binary main_v4 main_v5 main_v6 (cmpi .slt),
    nullary main_c_3 (constantI S_ 32 4194304#32),
    unary main_c_3 main_v7 (broadcastInDim S4194304 ![] bcast_S_S4194304),
    binary main_v4 main_v7 main_v8 addi,
    ternary main_v6 main_v8 main_v4 main_v9 select,
    unary main_v9 main_v10 (broadcastInDim S4194304x1 ![0] bcast_S4194304_S4194304x1_0),
    nullary main_c_4 (constantI S_ 32 1#32),
    unary main_c_4 main_v11 (broadcastInDim S4194304 ![] bcast_S_S4194304),
    ternary main_v3 main_v10 main_v11 main_v12 (fun x i u => Host.scatter scatter_S4194304_S4194304x1_S4194304_n_0_0_1 IntOp.addi x i u) ]

/-- The histogram's running sum: the positions. -/
abbrev seg1' : List (HloOp τ sig (Elt F)) :=
  [ TRef.nullary main_call2.call0.c (constantI S_ 32 0#32),
    TRef.unary main_call2.call0.c main_call2.call0.v0 (broadcastInDim S_ ![] bcast_S_S_),
    TRef.binary (.of main_v12 : TRef sig ⟨S4194304, .i32⟩) main_call2.call0.v0 main_call2.call0.v1
      (fun x v => Host.reduceWindow IntOp.addi ![4194304] ![1] ![4194303] ![0] x v reduceWindows_S4194304_S4194304_w4194304s1p4194303_0 h_S_) ]

/-- The floored quotient of the positions by 2048. -/
abbrev seg2 : List (HloOp τ sig (Elt F)) :=
  [ nullary main_c_5 (constantI S_ 32 2048#32),
    TRef.unary (.of main_c_5 : TRef sig ⟨S_, .i32⟩) main_call3.v0 (broadcastInDim S4194304 ![] bcast_S_S4194304),
    TRef.binary (.of main_v13 : TRef sig ⟨S4194304, .i32⟩) main_call3.v0 main_call3.v1 Host.divsi,
    TRef.unary (.of main_v13 : TRef sig ⟨S4194304, .i32⟩) main_call3.v2 signi,
    TRef.unary (.of main_c_5 : TRef sig ⟨S_, .i32⟩) main_call3.v3 signi,
    TRef.unary main_call3.v3 main_call3.v4 (broadcastInDim S4194304 ![] bcast_S_S4194304),
    TRef.binary main_call3.v2 main_call3.v4 main_call3.v5 (cmpi .ne),
    TRef.unary (.of main_c_5 : TRef sig ⟨S_, .i32⟩) main_call3.v6 (broadcastInDim S4194304 ![] bcast_S_S4194304),
    TRef.binary (.of main_v13 : TRef sig ⟨S4194304, .i32⟩) main_call3.v6 main_call3.v7 Host.remsi,
    TRef.nullary main_call3.c (constantI S_ 32 0#32),
    TRef.unary main_call3.c main_call3.v8 (broadcastInDim S4194304 ![] bcast_S_S4194304),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S4194304 ![] bcast_S_S4194304),
    TRef.binary main_call3.v1 main_call3.v11 main_call3.v12 subi,
    TRef.ternary main_call3.v10 main_call3.v12 main_call3.v1 main_call3.call0.v0 select ]

/-- The remainder of that quotient by 2048: each position's row. -/
abbrev seg3 : List (HloOp τ sig (Elt F)) :=
  [ nullary main_c_6 (constantI S_ 32 2048#32),
    TRef.unary (.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S4194304 ![] bcast_S_S4194304),
    TRef.binary (.of main_v14 : TRef sig ⟨S4194304, .i32⟩) main_call4.v3 main_call4.v4 Host.remsi,
    TRef.nullary main_call4.c_1 (constantI S_ 32 0#32),
    TRef.unary main_call4.c_1 main_call4.v5 (broadcastInDim S4194304 ![] bcast_S_S4194304),
    TRef.binary main_call4.v4 main_call4.v5 main_call4.v6 (cmpi .ne),
    TRef.nullary main_call4.c_2 (constantI S_ 32 0#32),
    TRef.unary main_call4.c_2 main_call4.v7 (broadcastInDim S4194304 ![] bcast_S_S4194304),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S4194304 ![] bcast_S_S4194304),
    TRef.binary main_call4.v8 main_call4.v10 main_call4.v11 (cmpi .ne),
    TRef.binary main_call4.v11 main_call4.v6 main_call4.v12 andi,
    TRef.unary main_call4.call0.v0 main_call4.v13 (broadcastInDim S4194304 ![] bcast_S_S4194304),
    TRef.binary main_call4.v4 main_call4.v13 main_call4.v14 addi,
    TRef.ternary main_call4.v12 main_call4.v14 main_call4.v4 main_call4.v15 select ]

/-- The floored quotient of the positions by 1. -/
abbrev seg4 : List (HloOp τ sig (Elt F)) :=
  [ nullary main_c_7 (constantI S_ 32 1#32),
    TRef.unary (.of main_c_7 : TRef sig ⟨S_, .i32⟩) main_call5.v0 (broadcastInDim S4194304 ![] bcast_S_S4194304),
    TRef.binary (.of main_v13 : TRef sig ⟨S4194304, .i32⟩) main_call5.v0 main_call5.v1 Host.divsi,
    TRef.unary (.of main_v13 : TRef sig ⟨S4194304, .i32⟩) main_call5.v2 signi,
    TRef.unary (.of main_c_7 : TRef sig ⟨S_, .i32⟩) main_call5.v3 signi,
    TRef.unary main_call5.v3 main_call5.v4 (broadcastInDim S4194304 ![] bcast_S_S4194304),
    TRef.binary main_call5.v2 main_call5.v4 main_call5.v5 (cmpi .ne),
    TRef.unary (.of main_c_7 : TRef sig ⟨S_, .i32⟩) main_call5.v6 (broadcastInDim S4194304 ![] bcast_S_S4194304),
    TRef.binary (.of main_v13 : TRef sig ⟨S4194304, .i32⟩) main_call5.v6 main_call5.v7 Host.remsi,
    TRef.nullary main_call5.c (constantI S_ 32 0#32),
    TRef.unary main_call5.c main_call5.v8 (broadcastInDim S4194304 ![] bcast_S_S4194304),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S4194304 ![] bcast_S_S4194304),
    TRef.binary main_call5.v1 main_call5.v11 main_call5.v12 subi,
    TRef.ternary main_call5.v10 main_call5.v12 main_call5.v1 main_call5.call0.v0 select ]

/-- The remainder of that quotient by 2048: each position's column. -/
abbrev seg5 : List (HloOp τ sig (Elt F)) :=
  [ nullary main_c_8 (constantI S_ 32 2048#32),
    TRef.unary (.of main_c_8 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S4194304 ![] bcast_S_S4194304),
    TRef.binary (.of main_v16 : TRef sig ⟨S4194304, .i32⟩) main_call6.v3 main_call6.v4 Host.remsi,
    TRef.nullary main_call6.c_1 (constantI S_ 32 0#32),
    TRef.unary main_call6.c_1 main_call6.v5 (broadcastInDim S4194304 ![] bcast_S_S4194304),
    TRef.binary main_call6.v4 main_call6.v5 main_call6.v6 (cmpi .ne),
    TRef.nullary main_call6.c_2 (constantI S_ 32 0#32),
    TRef.unary main_call6.c_2 main_call6.v7 (broadcastInDim S4194304 ![] bcast_S_S4194304),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S4194304 ![] bcast_S_S4194304),
    TRef.binary main_call6.v8 main_call6.v10 main_call6.v11 (cmpi .ne),
    TRef.binary main_call6.v11 main_call6.v6 main_call6.v12 andi,
    TRef.unary main_call6.call0.v0 main_call6.v13 (broadcastInDim S4194304 ![] bcast_S_S4194304),
    TRef.binary main_call6.v4 main_call6.v13 main_call6.v14 addi,
    TRef.ternary main_call6.v12 main_call6.v14 main_call6.v4 main_call6.v15 select ]

/-- The number of nonzero entries, and where the edge list is padding. -/
abbrev seg6 : List (HloOp τ sig (Elt F)) :=
  [ nullary main_v18 (iotaInDim S4194304 32 0),
    unary main_v1 main_v19 (extui 32 · natLt_1_32),
    nullary main_c_9 (constantI S_ 32 0#32),
    binary main_v19 main_c_9 main_v20 (fun x v => Host.reduce IntOp.addi x v reducesTo_S2048x2048_S_d0_1 h_S_),
    unary main_v20 main_v21 (broadcastInDim S4194304 ![] bcast_S_S4194304),
    binary main_v18 main_v21 main_v22 (cmpi .sge) ]

/-- The source node of each edge slot. -/
abbrev seg7 : List (HloOp τ sig (Elt F)) :=
  [ nullary main_c_10 (constantI S_ 32 2048#32),
    TRef.unary (.of main_c_10 : TRef sig ⟨S_, .i32⟩) main_call7.v0 id,
    TRef.unary main_call7.v0 main_call7.v1 (broadcastInDim S4194304 ![] bcast_S_S4194304),
    TRef.ternary (.of main_v22 : TRef sig ⟨S4194304, .i1⟩) main_call7.v1 (.of main_v15 : TRef sig ⟨S4194304, .i32⟩) main_call7.v2 select ]

/-- The destination node of each edge slot. -/
abbrev seg8 : List (HloOp τ sig (Elt F)) :=
  [ nullary main_c_11 (constantI S_ 32 2048#32),
    TRef.unary (.of main_c_11 : TRef sig ⟨S_, .i32⟩) main_call8.v0 id,
    TRef.unary main_call8.v0 main_call8.v1 (broadcastInDim S4194304 ![] bcast_S_S4194304),
    TRef.ternary (.of main_v22 : TRef sig ⟨S4194304, .i1⟩) main_call8.v1 (.of main_v17 : TRef sig ⟨S4194304, .i32⟩) main_call8.v2 select ]

/-- One feature row per edge slot. -/
abbrev seg9 : List (HloOp τ sig (Elt F)) :=
  [ TRef.nullary main_call9.c (constantI S_ 32 0#32),
    TRef.unary main_call9.c main_call9.v0 (broadcastInDim S4194304 ![] bcast_S_S4194304),
    TRef.binary (.of main_v23 : TRef sig ⟨S4194304, .i32⟩) main_call9.v0 main_call9.v1 (cmpi .slt),
    TRef.nullary main_call9.c_0 (constantI S_ 32 2048#32),
    TRef.unary main_call9.c_0 main_call9.v2 (broadcastInDim S4194304 ![] bcast_S_S4194304),
    TRef.binary (.of main_v23 : TRef sig ⟨S4194304, .i32⟩) main_call9.v2 main_call9.v3 addi,
    TRef.ternary main_call9.v1 main_call9.v3 (.of main_v23 : TRef sig ⟨S4194304, .i32⟩) main_call9.call0.v0 select,
    TRef.unary main_call9.call0.v0 main_call9.v5 (broadcastInDim S4194304x1 ![0] bcast_S4194304_S4194304x1_0),
    TRef.nullary main_call9.c_1 (constantI S1 32 2047#32),
    TRef.nullary main_call9.c_2 (constantI S_ 32 0#32),
    TRef.unary main_call9.c_2 main_call9.v6 (broadcastInDim S4194304x1 ![] bcast_S_S4194304x1),
    TRef.binary main_call9.v5 main_call9.v6 main_call9.v7 (cmpi .sge),
    TRef.unary main_call9.c_1 main_call9.v8 (broadcastInDim S1x1 ![1] bcast_S1_S1x1_1),
    TRef.unary main_call9.v8 main_call9.v9 (broadcastInDim S4194304x1 ![0, 1] bcast_S1x1_S4194304x1_0_1),
    TRef.binary main_call9.v5 main_call9.v9 main_call9.v10 (cmpi .sle),
    TRef.binary main_call9.v7 main_call9.v10 main_call9.v11 andi,
    TRef.nullary main_call9.c_3 (constantI S_ 1 1#1),
    TRef.binary main_call9.v11 main_call9.c_3 main_call9.v12 (fun x v => Host.reduce IntOp.andi x v reducesTo_S4194304x1_S4194304_d1 h_S_),
    TRef.binary (.of main_arg0 : TRef sig ⟨S2048x64, .f32⟩) main_call9.v5 main_call9.v13
      (fun x i => Host.gather gather_S2048x64_S4194304x1_S4194304x64_1_0_n_n_0_1_164 x i),
    TRef.unary main_call9.v12 main_call9.v14 (broadcastInDim S4194304x64 ![0] bcast_S4194304_S4194304x64_0),
    TRef.nullary main_call9.cst (constant S_ .f32 0x7FC00000#32),
    TRef.unary main_call9.cst main_call9.v15 (broadcastInDim S4194304x64 ![] bcast_S_S4194304x64),
    TRef.ternary main_call9.v14 main_call9.v13 main_call9.v15 main_call9.v16 select ]

/-- The first aggregation and the first convolution. -/
abbrev seg10 : List (HloOp τ sig (Elt F)) :=
  [ nullary main_cst (constant S_ .f32 0x00000000#32),
    unary main_cst main_v26 (broadcastInDim S2048x64 ![] bcast_S_S2048x64),
    unary main_v24 main_v27 (broadcastInDim S4194304x1 ![0] bcast_S4194304_S4194304x1_0),
    ternary main_v26 main_v27 main_v25 main_v28 (fun x i u => Host.scatterAdd scatter_S2048x64_S4194304x1_S4194304x64_1_0_0_1 x i u),
    unary main_arg2 main_v29 (transpose S64x64 [1, 0] · transposes_S64x64_S64x64_1_0),
    binary main_v28 main_v29 main_v30 (fun l r => Host.dotGeneral dot_S2048x64_S64x64_S2048x64_1_0_0_1_n_n none l r),
    unary main_arg3 main_v31 (broadcastInDim S1x64 ![1] bcast_S64_S1x64_1),
    unary main_v31 main_v32 (broadcastInDim S2048x64 ![0, 1] bcast_S1x64_S2048x64_0_1),
    binary main_v30 main_v32 main_v33 addf,
    unary main_arg4 main_v34 (transpose S64x64 [1, 0] · transposes_S64x64_S64x64_1_0),
    binary main_arg0 main_v34 main_v35 (fun l r => Host.dotGeneral dot_S2048x64_S64x64_S2048x64_1_0_0_1_n_n none l r),
    binary main_v33 main_v35 main_v36 addf ]

/-- The rectifier. -/
abbrev seg11 : List (HloOp τ sig (Elt F)) :=
  [ TRef.nullary main_call10.cst (constant S_ .f32 0x00000000#32),
    TRef.unary main_call10.cst main_call10.v0 (broadcastInDim S2048x64 ![] bcast_S_S2048x64),
    TRef.binary (.of main_v36 : TRef sig ⟨S2048x64, .f32⟩) main_call10.v0 main_call10.v1 maximumf ]

/-- One rectified row per edge slot. -/
abbrev seg12 : List (HloOp τ sig (Elt F)) :=
  [ TRef.nullary main_call11.c (constantI S_ 32 0#32),
    TRef.unary main_call11.c main_call11.v0 (broadcastInDim S4194304 ![] bcast_S_S4194304),
    TRef.binary (.of main_v23 : TRef sig ⟨S4194304, .i32⟩) main_call11.v0 main_call11.v1 (cmpi .slt),
    TRef.nullary main_call11.c_0 (constantI S_ 32 2048#32),
    TRef.unary main_call11.c_0 main_call11.v2 (broadcastInDim S4194304 ![] bcast_S_S4194304),
    TRef.binary (.of main_v23 : TRef sig ⟨S4194304, .i32⟩) main_call11.v2 main_call11.v3 addi,
    TRef.ternary main_call11.v1 main_call11.v3 (.of main_v23 : TRef sig ⟨S4194304, .i32⟩) main_call11.call0.v0 select,
    TRef.unary main_call11.call0.v0 main_call11.v5 (broadcastInDim S4194304x1 ![0] bcast_S4194304_S4194304x1_0),
    TRef.nullary main_call11.c_1 (constantI S1 32 2047#32),
    TRef.nullary main_call11.c_2 (constantI S_ 32 0#32),
    TRef.unary main_call11.c_2 main_call11.v6 (broadcastInDim S4194304x1 ![] bcast_S_S4194304x1),
    TRef.binary main_call11.v5 main_call11.v6 main_call11.v7 (cmpi .sge),
    TRef.unary main_call11.c_1 main_call11.v8 (broadcastInDim S1x1 ![1] bcast_S1_S1x1_1),
    TRef.unary main_call11.v8 main_call11.v9 (broadcastInDim S4194304x1 ![0, 1] bcast_S1x1_S4194304x1_0_1),
    TRef.binary main_call11.v5 main_call11.v9 main_call11.v10 (cmpi .sle),
    TRef.binary main_call11.v7 main_call11.v10 main_call11.v11 andi,
    TRef.nullary main_call11.c_3 (constantI S_ 1 1#1),
    TRef.binary main_call11.v11 main_call11.c_3 main_call11.v12 (fun x v => Host.reduce IntOp.andi x v reducesTo_S4194304x1_S4194304_d1 h_S_),
    TRef.binary (.of main_v37 : TRef sig ⟨S2048x64, .f32⟩) main_call11.v5 main_call11.v13
      (fun x i => Host.gather gather_S2048x64_S4194304x1_S4194304x64_1_0_n_n_0_1_164 x i),
    TRef.unary main_call11.v12 main_call11.v14 (broadcastInDim S4194304x64 ![0] bcast_S4194304_S4194304x64_0),
    TRef.nullary main_call11.cst (constant S_ .f32 0x7FC00000#32),
    TRef.unary main_call11.cst main_call11.v15 (broadcastInDim S4194304x64 ![] bcast_S_S4194304x64),
    TRef.ternary main_call11.v14 main_call11.v13 main_call11.v15 main_call11.v16 select ]

/-- The second aggregation and the second convolution. -/
abbrev seg13 : List (HloOp τ sig (Elt F)) :=
  [ nullary main_cst_12 (constant S_ .f32 0x00000000#32),
    unary main_cst_12 main_v39 (broadcastInDim S2048x64 ![] bcast_S_S2048x64),
    unary main_v24 main_v40 (broadcastInDim S4194304x1 ![0] bcast_S4194304_S4194304x1_0),
    ternary main_v39 main_v40 main_v38 main_v41 (fun x i u => Host.scatterAdd scatter_S2048x64_S4194304x1_S4194304x64_1_0_0_1 x i u),
    unary main_arg5 main_v42 (transpose S64x32 [1, 0] · transposes_S32x64_S64x32_1_0),
    binary main_v41 main_v42 main_v43 (fun l r => Host.dotGeneral dot_S2048x64_S64x32_S2048x32_1_0_0_1_n_n none l r),
    unary main_arg6 main_v44 (broadcastInDim S1x32 ![1] bcast_S32_S1x32_1),
    unary main_v44 main_v45 (broadcastInDim S2048x32 ![0, 1] bcast_S1x32_S2048x32_0_1),
    binary main_v43 main_v45 main_v46 addf,
    unary main_arg7 main_v47 (transpose S64x32 [1, 0] · transposes_S32x64_S64x32_1_0),
    binary main_v37 main_v47 main_v48 (fun l r => Host.dotGeneral dot_S2048x64_S64x32_S2048x32_1_0_0_1_n_n none l r),
    binary main_v46 main_v48 main_v49 addf ]

/-- The row-wise log-softmax. -/
abbrev seg14 : List (HloOp τ sig (Elt F)) :=
  [ TRef.nullary main_call12.cst (constant S_ .f32 0xFF800000#32),
    TRef.binary (.of main_v49 : TRef sig ⟨S2048x32, .f32⟩) main_call12.cst main_call12.v0
      (fun x v => Host.reduce FloatOps.maximumf x v reducesTo_S2048x32_S2048_d1 h_S_),
    TRef.nullary main_call12.cst_0 (constant S_ .f32 0xFF800000#32),
    TRef.unary main_call12.cst_0 main_call12.v1 (broadcastInDim S2048 ![] bcast_S_S2048),
    TRef.binary main_call12.v1 main_call12.v0 main_call12.v2 maximumf,
    TRef.unary main_call12.v2 main_call12.v3 (broadcastInDim S2048x1 ![0] bcast_S2048_S2048x1_0),
    TRef.unary main_call12.v3 main_call12.v4 (broadcastInDim S2048x32 ![0, 1] bcast_S2048x1_S2048x32_0_1),
    TRef.binary (.of main_v49 : TRef sig ⟨S2048x32, .f32⟩) main_call12.v4 main_call12.v5 subf,
    TRef.unary main_call12.v5 main_call12.v6 Host.exp,
    TRef.nullary main_call12.cst_1 (constant S_ .f32 0x00000000#32),
    TRef.binary main_call12.v6 main_call12.cst_1 main_call12.v7 (fun x v => Host.reduceAdd x v reducesTo_S2048x32_S2048_d1 h_S_),
    TRef.unary main_call12.v7 main_call12.v8 (broadcastInDim S2048x1 ![0] bcast_S2048_S2048x1_0),
    TRef.unary main_call12.v8 main_call12.v9 Host.log,
    TRef.unary main_call12.v9 main_call12.v10 (broadcastInDim S2048x32 ![0, 1] bcast_S2048x1_S2048x32_0_1),
    TRef.binary main_call12.v5 main_call12.v10 main_call12.v11 subf ]

/-- The program's host operations, in order. -/
abbrev ops : List (HloOp τ sig (Elt F)) :=
  seg1 ++ (seg1' ++ (seg2 ++ (seg3 ++ (seg4 ++ (seg5 ++ (seg6 ++ (seg7 ++ (seg8 ++ (seg9 ++ (seg10 ++ (seg11 ++ (seg12 ++ (seg13 ++ seg14)))))))))))))

/-! ## The program is that line -/

set_option maxRecDepth 16384 in
set_option maxHeartbeats 4000000 in
/-- @main is the operations in order: the called functions' definitions unfolded at their calls and the stretches
    joined, both sides are one chain of steps once sequencing is reassociated. -/
theorem main_eq (c : Dev nD) : main (F := F) c = seq ops := by
  simp only [main, main_part0, main_part1, fn_cumsum_0.body, fn_cumsum.body, fn_clip.body, fn_cumsum_1.body, fn_where.body,
    fn_floor_divide.body, fn_where_2.body, fn_remainder.body, fn_where_3.body, fn_take.body, fn_relu.body, fn_take_4.body,
    fn_log_softmax.body, ops, seq_append, seq, bind_assoc, pure_bind] <;> rfl

/-! ## The fold over consecutive stretches -/

/-- The contents after two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Computes the fold of a literal stretch at a literal reference by rewriting: each operation's result at its own
    buffer is its function's value, at any other reference what was there (the references told apart by computation),
    and a typed reference's transport of contents along the equation of its type with itself is the identity. What is
    left is an equation between pure terms. -/
macro "stretch_results" : tactic =>
  `(tactic| simp (disch := decide) only [after_cons, after_nil, nullary_result', unary_result', binary_result',
      ternary_result', reshape_result', nullary_result_ne', unary_result_ne', binary_result_ne', ternary_result_ne',
      reshape_result_ne', TRef.ofBuf, TRef.toBuf, cast_eq])

/-! ## What each stretch computes

Each stretch run from ANY contents `W`: its result buffer holds the corresponding stage of the pure term, of what `W`
holds in the buffers the stretch reads. After the rewriting both sides are the same composition of pure operations,
the stage's definition unfolded. -/

section Stretches

variable (W : Valuation τ sig (Elt F))

theorem seg1_mask (a : IVec S2048x2048 32) (ha : W (main_arg1 : DevRef τ sig) = a) :
    after seg1 W (main_v1 : DevRef τ sig) = RefTerm.mask a := by
  subst ha
  stretch_results <;> rfl

theorem seg1_histogram (a : IVec S2048x2048 32) (ha : W (main_arg1 : DevRef τ sig) = a) :
    after seg1 W (main_v12 : DevRef τ sig) = RefTerm.histogram a := by
  subst ha
  stretch_results <;> rfl

theorem seg1'_out (h : IVec S4194304 32) (hh : W (main_v12 : DevRef τ sig) = h) :
    after seg1' W (main_v13 : DevRef τ sig) = RefTerm.runSum h := by
  subst hh
  stretch_results <;> rfl

theorem seg2_out (p : IVec S4194304 32) (hp : W (main_v13 : DevRef τ sig) = p) :
    after seg2 W (main_v14 : DevRef τ sig) = RefTerm.floorDivide p (constantI S_ 32 2048#32) := by
  subst hp
  stretch_results <;> rfl

theorem seg3_out (q : IVec S4194304 32) (hq : W (main_v14 : DevRef τ sig) = q) :
    after seg3 W (main_v15 : DevRef τ sig) = RefTerm.remainder q (constantI S_ 32 2048#32) := by
  subst hq
  stretch_results <;> rfl

theorem seg4_out (p : IVec S4194304 32) (hp : W (main_v13 : DevRef τ sig) = p) :
    after seg4 W (main_v16 : DevRef τ sig) = RefTerm.floorDivide p (constantI S_ 32 1#32) := by
  subst hp
  stretch_results <;> rfl

theorem seg5_out (q : IVec S4194304 32) (hq : W (main_v16 : DevRef τ sig) = q) :
    after seg5 W (main_v17 : DevRef τ sig) = RefTerm.remainder q (constantI S_ 32 2048#32) := by
  subst hq
  stretch_results <;> rfl

theorem seg6_out (a : IVec S2048x2048 32) (h1 : W (main_v1 : DevRef τ sig) = RefTerm.mask a) :
    after seg6 W (main_v22 : DevRef τ sig) = RefTerm.padding a := by
  stretch_results
  rw [h1]
  rfl

theorem seg7_out (pad : IVec S4194304 1) (r : IVec S4194304 32) (h22 : W (main_v22 : DevRef τ sig) = pad)
    (h15 : W (main_v15 : DevRef τ sig) = r) :
    after seg7 W (main_v23 : DevRef τ sig) = RefTerm.whereScalar pad (constantI S_ 32 2048#32) r := by
  subst h22 h15
  stretch_results <;> rfl

theorem seg8_out (pad : IVec S4194304 1) (r : IVec S4194304 32) (h22 : W (main_v22 : DevRef τ sig) = pad)
    (h17 : W (main_v17 : DevRef τ sig) = r) :
    after seg8 W (main_v24 : DevRef τ sig) = RefTerm.whereScalar pad (constantI S_ 32 2048#32) r := by
  subst h22 h17
  stretch_results <;> rfl

theorem seg9_out (x : FVec F S2048x64 .f32) (idx : IVec S4194304 32) (hx : W (main_arg0 : DevRef τ sig) = x)
    (h23 : W (main_v23 : DevRef τ sig) = idx) :
    after seg9 W (main_v25 : DevRef τ sig) = RefTerm.gatherRows x idx := by
  subst hx h23
  stretch_results <;> rfl

theorem seg10_out (x : FVec F S2048x64 .f32) (a : IVec S2048x2048 32) (w1r : FVec F S64x64 .f32) (b1 : FVec F S64 .f32)
    (w1s : FVec F S64x64 .f32) (hx : W (main_arg0 : DevRef τ sig) = x)
    (h24 : W (main_v24 : DevRef τ sig) = RefTerm.edgeDst a)
    (h25 : W (main_v25 : DevRef τ sig) = RefTerm.gatherRows x (RefTerm.edgeSrc a))
    (h2 : W (main_arg2 : DevRef τ sig) = w1r) (h3 : W (main_arg3 : DevRef τ sig) = b1)
    (h4 : W (main_arg4 : DevRef τ sig) = w1s) :
    after seg10 W (main_v36 : DevRef τ sig) = RefTerm.conv1 x a w1r b1 w1s := by
  subst hx h2 h3 h4
  stretch_results
  rw [h24, h25]
  rfl

theorem seg11_out (z : FVec F S2048x64 .f32) (h36 : W (main_v36 : DevRef τ sig) = z) :
    after seg11 W (main_v37 : DevRef τ sig) = RefTerm.relu z := by
  subst h36
  stretch_results <;> rfl

theorem seg12_out (y : FVec F S2048x64 .f32) (idx : IVec S4194304 32) (h37 : W (main_v37 : DevRef τ sig) = y)
    (h23 : W (main_v23 : DevRef τ sig) = idx) :
    after seg12 W (main_v38 : DevRef τ sig) = RefTerm.gatherRows y idx := by
  subst h37 h23
  stretch_results <;> rfl

theorem seg13_out (y : FVec F S2048x64 .f32) (a : IVec S2048x2048 32) (w2r : FVec F S32x64 .f32) (b2 : FVec F S32 .f32)
    (w2s : FVec F S32x64 .f32) (h37 : W (main_v37 : DevRef τ sig) = y)
    (h24 : W (main_v24 : DevRef τ sig) = RefTerm.edgeDst a)
    (h38 : W (main_v38 : DevRef τ sig) = RefTerm.gatherRows y (RefTerm.edgeSrc a))
    (h5 : W (main_arg5 : DevRef τ sig) = w2r) (h6 : W (main_arg6 : DevRef τ sig) = b2)
    (h7 : W (main_arg7 : DevRef τ sig) = w2s) :
    after seg13 W (main_v49 : DevRef τ sig) = RefTerm.conv2 y a w2r b2 w2s := by
  subst h37 h5 h6 h7
  stretch_results
  rw [h24, h38]
  rfl

theorem seg14_out (z : FVec F S2048x32 .f32) (h49 : W (main_v49 : DevRef τ sig) = z) :
    after seg14 W (main_v50 : DevRef τ sig) = RefTerm.logSoftmax z := by
  subst h49
  stretch_results <;> rfl

end Stretches

/-! ## The contents after each stretch -/

section Chain

variable (V : Valuation τ sig (Elt F))

/-- The contents after the first stretches, up to the one of that number, from contents `V`. -/
def U1 : Valuation τ sig (Elt F) := after seg1 V
@[inherit_doc U1] def U1' : Valuation τ sig (Elt F) := after seg1' (U1 V)
@[inherit_doc U1] def U2 : Valuation τ sig (Elt F) := after seg2 (U1' V)
@[inherit_doc U1] def U3 : Valuation τ sig (Elt F) := after seg3 (U2 V)
@[inherit_doc U1] def U4 : Valuation τ sig (Elt F) := after seg4 (U3 V)
@[inherit_doc U1] def U5 : Valuation τ sig (Elt F) := after seg5 (U4 V)
@[inherit_doc U1] def U6 : Valuation τ sig (Elt F) := after seg6 (U5 V)
@[inherit_doc U1] def U7 : Valuation τ sig (Elt F) := after seg7 (U6 V)
@[inherit_doc U1] def U8 : Valuation τ sig (Elt F) := after seg8 (U7 V)
@[inherit_doc U1] def U9 : Valuation τ sig (Elt F) := after seg9 (U8 V)
@[inherit_doc U1] def U10 : Valuation τ sig (Elt F) := after seg10 (U9 V)
@[inherit_doc U1] def U11 : Valuation τ sig (Elt F) := after seg11 (U10 V)
@[inherit_doc U1] def U12 : Valuation τ sig (Elt F) := after seg12 (U11 V)
@[inherit_doc U1] def U13 : Valuation τ sig (Elt F) := after seg13 (U12 V)
@[inherit_doc U1] def U14 : Valuation τ sig (Elt F) := after seg14 (U13 V)

/-- The whole line's contents are those after the last stretch. -/
theorem after_ops : after ops V = U14 V := by
  simp only [ops, after_app, U1, U1', U2, U3, U4, U5, U6, U7, U8, U9, U10, U11, U12, U13, U14]

/-! ### Buffers carried over the stretches between their writer and a later reader

No stretch in between writes the buffer: each of its operations leaves it as it was. -/

theorem carry_v13 : U3 V (main_v13 : DevRef τ sig) = U1' V (main_v13 : DevRef τ sig) := by
  simp only [U3, U2]; stretch_results
theorem carry_v1 : U5 V (main_v1 : DevRef τ sig) = U1 V (main_v1 : DevRef τ sig) := by
  simp only [U5, U4, U3, U2, U1']; stretch_results
theorem carry_v15 : U6 V (main_v15 : DevRef τ sig) = U3 V (main_v15 : DevRef τ sig) := by
  simp only [U6, U5, U4]; stretch_results
theorem carry_v17 : U7 V (main_v17 : DevRef τ sig) = U5 V (main_v17 : DevRef τ sig) := by
  simp only [U7, U6]; stretch_results
theorem carry_v22 : U7 V (main_v22 : DevRef τ sig) = U6 V (main_v22 : DevRef τ sig) := by
  simp only [U7]; stretch_results
theorem carry_v23 : U8 V (main_v23 : DevRef τ sig) = U7 V (main_v23 : DevRef τ sig) := by
  simp only [U8]; stretch_results
theorem carry_v23' : U11 V (main_v23 : DevRef τ sig) = U8 V (main_v23 : DevRef τ sig) := by
  simp only [U11, U10, U9]; stretch_results
theorem carry_v24 : U9 V (main_v24 : DevRef τ sig) = U8 V (main_v24 : DevRef τ sig) := by
  simp only [U9]; stretch_results
theorem carry_v24' : U12 V (main_v24 : DevRef τ sig) = U9 V (main_v24 : DevRef τ sig) := by
  simp only [U12, U11, U10]; stretch_results
theorem carry_v37 : U12 V (main_v37 : DevRef τ sig) = U11 V (main_v37 : DevRef τ sig) := by
  simp only [U12]; stretch_results

/-! ### The arguments where a stretch reads them -/

theorem U8_arg0 : U8 V (main_arg0 : DevRef τ sig) = V (main_arg0 : DevRef τ sig) := by
  simp only [U8, U7, U6, U5, U4, U3, U2, U1', U1]; stretch_results
theorem U9_arg0 : U9 V (main_arg0 : DevRef τ sig) = V (main_arg0 : DevRef τ sig) := by
  simp only [U9, U8, U7, U6, U5, U4, U3, U2, U1', U1]; stretch_results
theorem U9_arg2 : U9 V (main_arg2 : DevRef τ sig) = V (main_arg2 : DevRef τ sig) := by
  simp only [U9, U8, U7, U6, U5, U4, U3, U2, U1', U1]; stretch_results
theorem U9_arg3 : U9 V (main_arg3 : DevRef τ sig) = V (main_arg3 : DevRef τ sig) := by
  simp only [U9, U8, U7, U6, U5, U4, U3, U2, U1', U1]; stretch_results
theorem U9_arg4 : U9 V (main_arg4 : DevRef τ sig) = V (main_arg4 : DevRef τ sig) := by
  simp only [U9, U8, U7, U6, U5, U4, U3, U2, U1', U1]; stretch_results
theorem U12_arg5 : U12 V (main_arg5 : DevRef τ sig) = V (main_arg5 : DevRef τ sig) := by
  simp only [U12, U11, U10, U9, U8, U7, U6, U5, U4, U3, U2, U1', U1]; stretch_results
theorem U12_arg6 : U12 V (main_arg6 : DevRef τ sig) = V (main_arg6 : DevRef τ sig) := by
  simp only [U12, U11, U10, U9, U8, U7, U6, U5, U4, U3, U2, U1', U1]; stretch_results
theorem U12_arg7 : U12 V (main_arg7 : DevRef τ sig) = V (main_arg7 : DevRef τ sig) := by
  simp only [U12, U11, U10, U9, U8, U7, U6, U5, U4, U3, U2, U1', U1]; stretch_results

/-! ### The stages, in order -/

/-- The hidden features: the rectified first convolution of the arguments. -/
abbrev hidden : FVec F S2048x64 .f32 :=
  RefTerm.relu (RefTerm.conv1 (V (main_arg0 : DevRef τ sig)) (V (main_arg1 : DevRef τ sig)) (V (main_arg2 : DevRef τ sig))
    (V (main_arg3 : DevRef τ sig)) (V (main_arg4 : DevRef τ sig)))

theorem U1_v1 : U1 V (main_v1 : DevRef τ sig) = RefTerm.mask (V (main_arg1 : DevRef τ sig)) :=
  seg1_mask V _ rfl

theorem U1_v12 : U1 V (main_v12 : DevRef τ sig) = RefTerm.histogram (V (main_arg1 : DevRef τ sig)) :=
  seg1_histogram V _ rfl

/-- The positions: the running sum of the histogram. -/
theorem U1'_v13 : U1' V (main_v13 : DevRef τ sig) = RefTerm.positions (V (main_arg1 : DevRef τ sig)) :=
  seg1'_out (U1 V) _ (U1_v12 V)

theorem U2_v14 : U2 V (main_v14 : DevRef τ sig)
    = RefTerm.floorDivide (RefTerm.positions (V (main_arg1 : DevRef τ sig))) (constantI S_ 32 2048#32) :=
  seg2_out (U1' V) _ (U1'_v13 V)

theorem U3_v15 : U3 V (main_v15 : DevRef τ sig)
    = RefTerm.remainder (RefTerm.floorDivide (RefTerm.positions (V (main_arg1 : DevRef τ sig))) (constantI S_ 32 2048#32))
        (constantI S_ 32 2048#32) :=
  seg3_out (U2 V) _ (U2_v14 V)

theorem U4_v16 : U4 V (main_v16 : DevRef τ sig)
    = RefTerm.floorDivide (RefTerm.positions (V (main_arg1 : DevRef τ sig))) (constantI S_ 32 1#32) :=
  seg4_out (U3 V) _ ((carry_v13 V).trans (U1'_v13 V))

theorem U5_v17 : U5 V (main_v17 : DevRef τ sig)
    = RefTerm.remainder (RefTerm.floorDivide (RefTerm.positions (V (main_arg1 : DevRef τ sig))) (constantI S_ 32 1#32))
        (constantI S_ 32 2048#32) :=
  seg5_out (U4 V) _ (U4_v16 V)

theorem U6_v22 : U6 V (main_v22 : DevRef τ sig) = RefTerm.padding (V (main_arg1 : DevRef τ sig)) :=
  seg6_out (U5 V) _ ((carry_v1 V).trans (U1_v1 V))

/-- The source nodes: the padding marker over the positions' rows. -/
theorem U7_v23 : U7 V (main_v23 : DevRef τ sig) = RefTerm.edgeSrc (V (main_arg1 : DevRef τ sig)) :=
  seg7_out (U6 V) _ _ (U6_v22 V) ((carry_v15 V).trans (U3_v15 V))

/-- The destination nodes: the padding marker over the positions' columns. -/
theorem U8_v24 : U8 V (main_v24 : DevRef τ sig) = RefTerm.edgeDst (V (main_arg1 : DevRef τ sig)) :=
  seg8_out (U7 V) _ _ ((carry_v22 V).trans (U6_v22 V)) ((carry_v17 V).trans (U5_v17 V))

theorem U9_v25 : U9 V (main_v25 : DevRef τ sig)
    = RefTerm.gatherRows (V (main_arg0 : DevRef τ sig)) (RefTerm.edgeSrc (V (main_arg1 : DevRef τ sig))) :=
  seg9_out (U8 V) _ _ (U8_arg0 V) ((carry_v23 V).trans (U7_v23 V))

theorem U10_v36 : U10 V (main_v36 : DevRef τ sig)
    = RefTerm.conv1 (V (main_arg0 : DevRef τ sig)) (V (main_arg1 : DevRef τ sig)) (V (main_arg2 : DevRef τ sig))
        (V (main_arg3 : DevRef τ sig)) (V (main_arg4 : DevRef τ sig)) :=
  seg10_out (U9 V) _ _ _ _ _ (U9_arg0 V) ((carry_v24 V).trans (U8_v24 V)) (U9_v25 V) (U9_arg2 V) (U9_arg3 V) (U9_arg4 V)

theorem U11_v37 : U11 V (main_v37 : DevRef τ sig) = hidden V :=
  seg11_out (U10 V) _ (U10_v36 V)

theorem U12_v38 : U12 V (main_v38 : DevRef τ sig)
    = RefTerm.gatherRows (hidden V) (RefTerm.edgeSrc (V (main_arg1 : DevRef τ sig))) :=
  seg12_out (U11 V) _ _ (U11_v37 V) ((carry_v23' V).trans ((carry_v23 V).trans (U7_v23 V)))

theorem U13_v49 : U13 V (main_v49 : DevRef τ sig)
    = RefTerm.conv2 (hidden V) (V (main_arg1 : DevRef τ sig)) (V (main_arg5 : DevRef τ sig)) (V (main_arg6 : DevRef τ sig))
        (V (main_arg7 : DevRef τ sig)) :=
  seg13_out (U12 V) _ _ _ _ _ ((carry_v37 V).trans (U11_v37 V)) ((carry_v24' V).trans ((carry_v24 V).trans (U8_v24 V)))
    (U12_v38 V) (U12_arg5 V) (U12_arg6 V) (U12_arg7 V)

theorem U14_v50 : U14 V (main_v50 : DevRef τ sig)
    = RefTerm.out (V (main_arg0 : DevRef τ sig)) (V (main_arg1 : DevRef τ sig)) (V (main_arg2 : DevRef τ sig))
        (V (main_arg3 : DevRef τ sig)) (V (main_arg4 : DevRef τ sig)) (V (main_arg5 : DevRef τ sig))
        (V (main_arg6 : DevRef τ sig)) (V (main_arg7 : DevRef τ sig)) :=
  seg14_out (U13 V) _ (U13_v49 V)

/-! ### The line's result, and its arguments -/

/-- The result buffer after the whole line is the reference's pure term of the arguments. -/
theorem out_eq : after ops V (main_v50 : DevRef τ sig)
    = RefTerm.out (V (main_arg0 : DevRef τ sig)) (V (main_arg1 : DevRef τ sig)) (V (main_arg2 : DevRef τ sig))
        (V (main_arg3 : DevRef τ sig)) (V (main_arg4 : DevRef τ sig)) (V (main_arg5 : DevRef τ sig))
        (V (main_arg6 : DevRef τ sig)) (V (main_arg7 : DevRef τ sig)) := by
  rw [after_ops]
  exact U14_v50 V

/-- Unfolds the contents after the last stretch down to the stretches themselves. -/
macro "open_contents" : tactic =>
  `(tactic| simp only [U14, U13, U12, U11, U10, U9, U8, U7, U6, U5, U4, U3, U2, U1', U1])

theorem arg0_eq : after ops V (main_arg0 : DevRef τ sig) = V (main_arg0 : DevRef τ sig) := by
  rw [after_ops]; open_contents; stretch_results
theorem arg1_eq : after ops V (main_arg1 : DevRef τ sig) = V (main_arg1 : DevRef τ sig) := by
  rw [after_ops]; open_contents; stretch_results
theorem arg2_eq : after ops V (main_arg2 : DevRef τ sig) = V (main_arg2 : DevRef τ sig) := by
  rw [after_ops]; open_contents; stretch_results
theorem arg3_eq : after ops V (main_arg3 : DevRef τ sig) = V (main_arg3 : DevRef τ sig) := by
  rw [after_ops]; open_contents; stretch_results
theorem arg4_eq : after ops V (main_arg4 : DevRef τ sig) = V (main_arg4 : DevRef τ sig) := by
  rw [after_ops]; open_contents; stretch_results
theorem arg5_eq : after ops V (main_arg5 : DevRef τ sig) = V (main_arg5 : DevRef τ sig) := by
  rw [after_ops]; open_contents; stretch_results
theorem arg6_eq : after ops V (main_arg6 : DevRef τ sig) = V (main_arg6 : DevRef τ sig) := by
  rw [after_ops]; open_contents; stretch_results
theorem arg7_eq : after ops V (main_arg7 : DevRef τ sig) = V (main_arg7 : DevRef τ sig) := by
  rw [after_ops]; open_contents; stretch_results

end Chain

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_append, seg1, seg1', seg2, seg3, seg4, seg5, seg6, seg7, seg8, seg9, seg10, seg11, seg12, seg13, seg14,
    List.Forall, nullary_bufs_sub, unary_bufs_sub, binary_bufs_sub, ternary_bufs_sub, reshape_bufs_sub, and_self]

/-- Every operation determines its results. -/
theorem ops_fresh : (ops : List (HloOp τ sig (Elt F))).Forall fun op => op.fresh = ∅ := by
  simp only [ops, List.forall_append, seg1, seg1', seg2, seg3, seg4, seg5, seg6, seg7, seg8, seg9, seg10, seg11, seg12, seg13, seg14,
    List.Forall]
  repeat' constructor

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = RefTerm.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v50).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _),
      (h c main_arg7).trans (arg7_eq _)⟩)
    (run_seq scopedRefs_eq scopedSems_eq defs main (fun _ => ops) main_eq (fun _ => ops_sub) m ρ
      (fun _ => List.forall_iff_forall_mem.mp ops_fresh))

end Cert.ReferenceIdeal.RefRun

end
-- ==== Proof.NonzeroComb.lean ====
/-
  Listing the positions of the set bits of a finite 0/1 sequence by counting.

  For `b : ℕ → Bool` read on the positions `p < M`, let `pre b p` be the number of set positions `q ≤ p` (the
  inclusive running count). The running count is monotone and steps by at most one, so for `k` below the total
  count the positions whose running count is at most `k` form an initial segment `[0, pos b M k)`, and its length
  `pos b M k` is the position of the `k`-th set bit (counting from zero): the bit there is set and the running
  count there is `k + 1`. Hence `k ↦ pos b M k` enumerates the set positions below `M` in increasing order, once
  each, and a sum over `k` below the count of `g (pos b M k)` is the sum of `g` over the set positions.
-/
import Mathlib.Algebra.BigOperators.Group.Finset.Basic
import Mathlib.Data.Finset.Card
import Mathlib.Order.Interval.Finset.Nat

namespace Cert.NonzeroComb

/-- The number of set positions `q ≤ p`. -/
def pre (b : ℕ → Bool) (p : ℕ) : ℕ := ((Finset.range (p + 1)).filter fun q => b q = true).card

/-- The number of set positions below `M`. -/
def count (b : ℕ → Bool) (M : ℕ) : ℕ := ((Finset.range M).filter fun q => b q = true).card

/-- The number of positions below `M` whose running count is at most `k`. -/
def pos (b : ℕ → Bool) (M k : ℕ) : ℕ := ((Finset.range M).filter fun p => pre b p ≤ k).card

/-- The inclusive running count at `p` is the count below `p + 1`. -/
theorem pre_eq_count (b : ℕ → Bool) (p : ℕ) : pre b p = count b (p + 1) := rfl

theorem count_zero (b : ℕ → Bool) : count b 0 = 0 := by
  simp [count]

/-- One more position adds one exactly when its bit is set. -/
theorem count_succ (b : ℕ → Bool) (M : ℕ) : count b (M + 1) = count b M + (if b M = true then 1 else 0) := by
  unfold count
  rw [Finset.range_add_one, Finset.filter_insert]
  by_cases h : b M = true
  · rw [if_pos h, if_pos h, Finset.card_insert_of_notMem]
    simp
  · rw [if_neg h, if_neg h, Nat.add_zero]

/-- The count is monotone in the bound. -/
theorem count_mono (b : ℕ → Bool) {M N : ℕ} (h : M ≤ N) : count b M ≤ count b N := by
  unfold count
  apply Finset.card_le_card
  apply Finset.filter_subset_filter
  exact Finset.range_mono h

/-- The running count is the count strictly below plus the bit at the position. -/
theorem pre_eq_count_add (b : ℕ → Bool) (p : ℕ) : pre b p = count b p + (if b p = true then 1 else 0) :=
  count_succ b p

/-- The running count is monotone. -/
theorem pre_mono (b : ℕ → Bool) {p q : ℕ} (h : p ≤ q) : pre b p ≤ pre b q :=
  count_mono b (Nat.succ_le_succ h)

theorem pre_succ (b : ℕ → Bool) (p : ℕ) : pre b (p + 1) = pre b p + (if b (p + 1) = true then 1 else 0) :=
  count_succ b (p + 1)

/-- A downward closed decidable property, read below `M`, holds exactly on an initial segment,
whose length is the number of positions where it holds. -/
theorem filter_lower_eq_range (P : ℕ → Prop) [DecidablePred P] (hP : ∀ p q, p ≤ q → P q → P p) (M : ℕ) :
    (Finset.range M).filter P = Finset.range ((Finset.range M).filter P).card := by
  induction M with
  | zero => simp
  | succ M ih =>
    rw [Finset.range_add_one, Finset.filter_insert]
    by_cases h : P M
    · have hall : (Finset.range M).filter P = Finset.range M := by
        apply Finset.filter_true_of_mem
        intro p hp
        exact hP p M (Nat.le_of_lt (Finset.mem_range.mp hp)) h
      rw [if_pos h, hall, ← Finset.range_add_one, Finset.card_range]
    · rw [if_neg h]
      exact ih

/-- Membership in the initial segment that `pos` measures. -/
theorem lt_pos_iff (b : ℕ → Bool) (M k p : ℕ) : p < pos b M k ↔ p < M ∧ pre b p ≤ k := by
  have h := filter_lower_eq_range (fun p => pre b p ≤ k)
    (fun p q hpq hq => le_trans (pre_mono b hpq) hq) M
  unfold pos
  rw [← Finset.mem_range, ← h, Finset.mem_filter, Finset.mem_range]

theorem pre_le_succ (b : ℕ → Bool) (p : ℕ) : pre b p ≤ p + 1 := by
  unfold pre
  exact (Finset.card_filter_le _ _).trans (by rw [Finset.card_range])

theorem count_le (b : ℕ → Bool) (M : ℕ) : count b M ≤ M := by
  unfold count
  exact (Finset.card_filter_le _ _).trans (by rw [Finset.card_range])

theorem count_eq_pre (b : ℕ → Bool) (M : ℕ) (hM : 0 < M) : count b M = pre b (M - 1) := by
  rw [pre_eq_count, Nat.sub_add_cancel hM]

theorem pos_le (b : ℕ → Bool) (M k : ℕ) : pos b M k ≤ M := by
  unfold pos
  exact (Finset.card_filter_le _ _).trans (by rw [Finset.card_range])

/-- The first position outside the segment, when there is one below `M`, has running count above `k`. -/
theorem lt_pre_pos (b : ℕ → Bool) (M k : ℕ) (h : pos b M k < M) : k < pre b (pos b M k) := by
  by_contra hc
  have := (lt_pos_iff b M k (pos b M k)).mpr ⟨h, Nat.le_of_not_lt hc⟩
  exact Nat.lt_irrefl _ this

/-- The count strictly below the end of the segment is at most `k`. -/
theorem count_pos_le (b : ℕ → Bool) (M k : ℕ) : count b (pos b M k) ≤ k := by
  rcases Nat.eq_zero_or_pos (pos b M k) with h0 | hpos
  · rw [h0, count_zero]; exact Nat.zero_le k
  · have hlt : pos b M k - 1 < pos b M k := Nat.sub_lt hpos Nat.one_pos
    have := ((lt_pos_iff b M k (pos b M k - 1)).mp hlt).2
    rwa [pre_eq_count, Nat.sub_add_cancel hpos] at this

theorem pos_lt (b : ℕ → Bool) (M k : ℕ) (hk : k < count b M) : pos b M k < M := by
  have hM : 0 < M := by
    rcases Nat.eq_zero_or_pos M with h0 | h
    · rw [h0, count_zero] at hk; exact absurd hk (Nat.not_lt_zero k)
    · exact h
  have hnot : ¬ (M - 1 < pos b M k) := by
    intro hlt
    have := ((lt_pos_iff b M k (M - 1)).mp hlt).2
    rw [← count_eq_pre b M hM] at this
    exact absurd hk (Nat.not_lt.mpr this)
  omega

theorem pos_eq_of_count_le (b : ℕ → Bool) (M k : ℕ) (hk : count b M ≤ k) : pos b M k = M := by
  rcases Nat.lt_or_ge (pos b M k) M with hlt | hge
  · have h1 := lt_pre_pos b M k hlt
    have h2 : pre b (pos b M k) ≤ count b M := by
      rw [pre_eq_count]; exact count_mono b hlt
    omega
  · exact Nat.le_antisymm (pos_le b M k) hge

theorem pre_pos (b : ℕ → Bool) (M k : ℕ) (hk : k < count b M) : pre b (pos b M k) = k + 1 := by
  have h1 := lt_pre_pos b M k (pos_lt b M k hk)
  have h2 := count_pos_le b M k
  have h3 := pre_eq_count_add b (pos b M k)
  split_ifs at h3 <;> omega

theorem bit_pos (b : ℕ → Bool) (M k : ℕ) (hk : k < count b M) : b (pos b M k) = true := by
  have h1 := lt_pre_pos b M k (pos_lt b M k hk)
  have h2 := count_pos_le b M k
  have h3 := pre_eq_count_add b (pos b M k)
  by_contra hb
  rw [if_neg hb] at h3
  omega

theorem pos_strictMono (b : ℕ → Bool) (M : ℕ) {k k' : ℕ} (hk' : k' < count b M) (h : k < k') : pos b M k < pos b M k' := by
  have hk : k < count b M := Nat.lt_trans h hk'
  apply (lt_pos_iff b M k' (pos b M k)).mpr
  refine ⟨pos_lt b M k hk, ?_⟩
  rw [pre_pos b M k hk]
  exact h

/-- Every set position below `M` is `pos b M k` for the `k` one less than its running count. -/
theorem pos_pre_pred (b : ℕ → Bool) (M p : ℕ) (hp : p < M) (hb : b p = true) : pos b M (pre b p - 1) = p ∧ pre b p - 1 < count b M := by
  have hpre : pre b p = count b p + 1 := by
    have := pre_eq_count_add b p
    rwa [if_pos hb] at this
  have hk : pre b p - 1 = count b p := by omega
  have hle : pre b p ≤ count b M := by
    rw [pre_eq_count]; exact count_mono b hp
  rw [hk]
  refine ⟨?_, by omega⟩
  apply Nat.le_antisymm
  · -- the position itself is outside the segment
    by_contra hc
    have hlt : p < pos b M (count b p) := Nat.lt_of_not_le hc
    have := ((lt_pos_iff b M (count b p) p).mp hlt).2
    omega
  · -- every earlier position is inside the segment
    by_contra hc
    have hlt : pos b M (count b p) < p := Nat.lt_of_not_le hc
    have hin : pos b M (count b p) < pos b M (count b p) := by
      apply (lt_pos_iff b M (count b p) _).mpr
      refine ⟨Nat.lt_trans hlt hp, ?_⟩
      rw [pre_eq_count]
      exact count_mono b hlt
    exact Nat.lt_irrefl _ hin

/-- Summing over the set positions in the order the counts list them. -/
theorem sum_pos {A : Type} [AddCommMonoid A] (b : ℕ → Bool) (M : ℕ) (g : ℕ → A) :
    ∑ k ∈ Finset.range (count b M), g (pos b M k) = ∑ p ∈ (Finset.range M).filter (fun p => b p = true), g p := by
  apply Finset.sum_bij (fun k _ => pos b M k)
  · intro k hk
    have hk' : k < count b M := Finset.mem_range.mp hk
    exact Finset.mem_filter.mpr ⟨Finset.mem_range.mpr (pos_lt b M k hk'), bit_pos b M k hk'⟩
  · intro k hk k' hk' heq
    have h1 := pre_pos b M k (Finset.mem_range.mp hk)
    have h2 := pre_pos b M k' (Finset.mem_range.mp hk')
    have heq' : pos b M k = pos b M k' := heq
    rw [heq'] at h1
    omega
  · intro p hp
    obtain ⟨hpM, hb⟩ := Finset.mem_filter.mp hp
    obtain ⟨h1, h2⟩ := pos_pre_pred b M p (Finset.mem_range.mp hpM) hb
    exact ⟨pre b p - 1, Finset.mem_range.mpr h2, h1⟩
  · intro k _
    rfl

end Cert.NonzeroComb
-- ==== Proof.RefEdges.lean ====
/-
  The reference's edge list, slot by slot: with the adjacency flattened row-major to a 0/1 sequence, slot `k` below the
  number of nonzero entries holds the row and the column of the `k`-th nonzero position, and every later slot holds
  2048 for both.

  The road. A window of the whole length padded on the left is the running sum (`reduceWindow_prefix`), so the running
  count at position `p` is the number of set positions up to `p` (`runCount_toNat`). A scatter-add of ones into zeros
  at those counts is their histogram (`toNat_scatter_count`, `histogram_toNat`): entry `v` is the number of positions
  whose running count is `v`, a count equal to the length falling outside. The running sum of the histogram at `k` is
  the number of positions whose running count is at most `k` (`positions_toNat`), which below the number of set
  positions is the `k`-th set position. Every word on the way is below 2³¹, so signed and unsigned readings agree, no
  sum wraps, and the sign corrections of the floored quotient and remainder by 2048 never fire.
-/
import proofs.«114369_g3530463117553_cont_sun_c4_324_4_alg».proof.Proof.RefTerm
import proofs.«114369_g3530463117553_cont_sun_c4_324_4_alg».proof.Proof.NonzeroComb
import proofs.«114369_g3530463117553_cont_sun_c4_324_4_alg».proof.Proof.Gen.ReferenceIdeal
import Idealize.ShloMosaic.Lib.ValueIdx
import Idealize.ShloMosaic.Lib.StableHlo.Predicate
import Idealize.ShloMosaic.Lib.WordSum
import Idealize.ShloMosaic.Lib.WordArith
import Idealize.ShloMosaic.Lib.Pipeline.Value

noncomputable section

namespace Cert.ReferenceIdeal.RefEdges

open Idealize.ShloMosaic Cert.ReferenceIdeal Cert.ReferenceIdeal.RefTerm Cert.NonzeroComb ValueIdx

/-! ## Words: a small non-negative word divides and leaves remainders as its value -/

theorem divsi_2048 (u : ArithUnit) (w : BitVec 32) (hw : w.toNat < 2 ^ 31) : (IntOp.divsi u w 2048#32).toNat = w.toNat / 2048 := by
  have hcorner : ¬ IntOp.SDivCorner w 2048#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (2048#32 : BitVec 32).msb = false from by decide, BitVec.udiv_eq,
    BitVec.toNat_udiv, BitVec.toNat_ofNat]

theorem remsi_2048 (u : ArithUnit) (w : BitVec 32) (hw : w.toNat < 2 ^ 31) : (IntOp.remsi u w 2048#32).toNat = w.toNat % 2048 := by
  have hcorner : ¬ IntOp.SDivCorner w 2048#32 := by
    intro hc; rcases hc with hc | ⟨_, hc⟩ <;> exact absurd hc (by decide)
  have hm : w.msb = false := BitVec.msb_eq_false_iff_two_mul_lt.mpr (by omega)
  simp only [IntOp.remsi, if_neg hcorner, BitVec.srem_eq, hm, show (2048#32 : BitVec 32).msb = false from by decide, BitVec.umod_eq,
    BitVec.toNat_umod, BitVec.toNat_ofNat]

/-! ## A left fold of word addition over the row-major positions of a shape is the sum over its indices -/

theorem foldl_add_eq_sum {ι : Type} (l : List ι) (g : ι → BitVec 32) (init : BitVec 32) :
    l.foldl (fun r m => IntOp.addi r (g m)) init = init + (l.map g).sum := by
  induction l generalizing init with
  | nil => simp
  | cons a l ih =>
    rw [List.foldl_cons, ih, List.map_cons, List.sum_cons]
    show init + g a + _ = _
    rw [add_assoc]

theorem foldl_rowMajor_add_eq_sum (s : Shape) (g : s.Idx → BitVec 32) (init : BitVec 32) :
    (List.finRange s.numel).foldl (fun r m => IntOp.addi r (g (s.rowMajor.symm m))) init = init + ∑ i : s.Idx, g i := by
  rw [foldl_add_eq_sum (List.finRange s.numel) (fun m => g (s.rowMajor.symm m)) init]
  congr 1
  rw [← Equiv.sum_comp s.rowMajor.symm g, Fin.sum_univ_def]

/-- A rank-1 shape's indices are its positions. -/
def idx1Equiv (n : ℕ) : (⟨1, ![n]⟩ : Shape).Idx ≃ Fin n where
  toFun i := i 0
  invFun := ix1
  left_inv i := (eq_ix1 i).symm
  right_inv _ := rfl

theorem sum_idx1 {M : Type} [AddCommMonoid M] {n : ℕ} (g : (⟨1, ![n]⟩ : Shape).Idx → M) :
    ∑ i, g i = ∑ m ∈ Finset.range n, if h : m < n then g (ix1 ⟨m, h⟩) else 0 := by
  rw [← Equiv.sum_comp (idx1Equiv n).symm g, ← Fin.sum_univ_eq_sum_range (fun m => if h : m < n then g (ix1 ⟨m, h⟩) else 0) n]
  refine Finset.sum_congr rfl fun m _ => ?_
  rw [dif_pos m.isLt]
  rfl

/-! ## A window of the whole length padded on the left: the running sum -/

/-- The word sequence of a rank-1 array, zero past its end. -/
def wordSeq {n : ℕ} (x : IVec ⟨1, ![n]⟩ 32) (q : ℕ) : BitVec 32 := if h : q < n then x (ix1 ⟨q, h⟩) else 0

theorem wordSeq_of_lt {n : ℕ} (x : IVec ⟨1, ![n]⟩ 32) (q : Fin n) : wordSeq x q.val = x (ix1 q) := by
  unfold wordSeq; rw [dif_pos q.isLt]

theorem sum_shift (lo k n : ℕ) (hlo : lo + 1 = n) (hk : k < n) (f : ℕ → BitVec 32) :
    ∑ m ∈ Finset.range n, (if lo ≤ k + m then f (k + m - lo) else 0) = ∑ q ∈ Finset.range (k + 1), f q := by
  have hle : lo - k ≤ n := by omega
  rw [← Finset.sum_range_add_sum_Ico _ hle, Finset.sum_Ico_eq_sum_range]
  have h1 : ∑ m ∈ Finset.range (lo - k), (if lo ≤ k + m then f (k + m - lo) else 0) = 0 :=
    Finset.sum_eq_zero fun m hm => by
      have := Finset.mem_range.1 hm
      rw [if_neg (by omega)]
  rw [h1, zero_add, show n - (lo - k) = k + 1 from by omega]
  refine Finset.sum_congr rfl fun j _ => ?_
  rw [if_pos (by omega), show k + (lo - k + j) - lo = j from by omega]

theorem reduceWindow_prefix {n lo : ℕ} (hlo : lo + 1 = n) {u : Shape} (x : IVec ⟨1, ![n]⟩ 32) (init : u.Idx → BitVec 32)
    (h : (⟨1, ![n]⟩ : Shape).ReduceWindows ![n] ![1] ![lo] ![0] ⟨1, ![n]⟩) (hu : 0 < u.numel)
    (h0 : init (Shape.Idx.first hu) = 0#32) (k : Fin n) :
    Host.reduceWindow IntOp.addi ![n] ![1] ![lo] ![0] x init h hu (ix1 k) = ∑ q ∈ Finset.range (k.val + 1), wordSeq x q := by
  unfold Host.reduceWindow
  dsimp only
  rw [h0]
  refine (List.foldl_ext _ (fun r m => IntOp.addi r
      ((fun i : (⟨1, ![n]⟩ : Shape).Idx => if lo ≤ k.val + (i 0).val then wordSeq x (k.val + (i 0).val - lo) else 0)
        ((⟨1, ![n]⟩ : Shape).rowMajor.symm m))) _ ?_).trans ?_
  · intro r m _
    refine congrArg (IntOp.addi r) ?_
    obtain ⟨i, rfl⟩ : ∃ i, m = (⟨1, ![n]⟩ : Shape).rowMajor i := ⟨(⟨1, ![n]⟩ : Shape).rowMajor.symm m, by simp⟩
    simp only [Equiv.symm_apply_apply]
    have hi : (i 0).val < n := (i 0).isLt
    have hk : k.val < n := k.isLt
    by_cases hc : lo ≤ k.val + (i 0).val
    · rw [if_pos hc]
      have hq : k.val + (i 0).val - lo < n := by omega
      split
      · unfold wordSeq
        rw [dif_pos hq]
        refine congrArg x (funext fun a => ?_)
        have ha : a = (0 : Fin 1) := Subsingleton.elim _ _
        subst ha
        apply Fin.ext
        show k.val * 1 + (i 0).val - lo = k.val + (i 0).val - lo
        omega
      · rename_i hnin
        refine absurd (fun a => ?_) hnin
        have ha : a = (0 : Fin 1) := Subsingleton.elim _ _
        subst ha
        show lo ≤ k.val * 1 + (i 0).val ∧ k.val * 1 + (i 0).val - lo < n
        constructor <;> omega
    · rw [if_neg hc]
      split
      · rename_i hin
        have h1 : lo ≤ k.val * 1 + (i 0).val := (hin (0 : Fin 1)).1
        omega
      · rfl
  · refine (foldl_rowMajor_add_eq_sum (⟨1, ![n]⟩ : Shape)
      (fun i => if lo ≤ k.val + (i 0).val then wordSeq x (k.val + (i 0).val - lo) else 0) 0#32).trans ?_
    rw [show (0#32 : BitVec 32) = 0 from rfl, zero_add, sum_idx1]
    rw [← sum_shift lo k.val n hlo k.isLt (wordSeq x)]
    refine Finset.sum_congr rfl fun m hm => ?_
    rw [dif_pos (Finset.mem_range.1 hm)]
    rfl

/-! ## A scatter-add of ones into zeros at rank 1: a histogram -/

theorem scatter_apply {s si u : Shape} {w : ℕ} {α : Type} (d : ScatterDims s si u) (f : α → α → α) (x : s.Idx → α)
    (idx : IVec si w) (upd : u.Idx → α) (i : s.Idx) :
    Host.scatter d f x idx upd i
      = (List.finRange u.numel).foldl
          (fun acc m => if d.resultIdx? (u.rowMajor.symm m) idx = some i then f acc (upd (u.rowMajor.symm m)) else acc) (x i) := by
  unfold Host.scatter
  generalize List.finRange u.numel = L
  induction L generalizing x with
  | nil => rfl
  | cons a L ih =>
    rw [List.foldl_cons, List.foldl_cons, ih]
    congr 1
    cases hr : d.resultIdx? (u.rowMajor.symm a) idx with
    | none => simp
    | some i0 =>
      by_cases hi : i = i0
      · subst hi; simp
      · have hi' : ¬ i0 = i := fun e => hi e.symm
        simp [hi, hi']

theorem card_idx1_filter {n : ℕ} (P : (⟨1, ![n]⟩ : Shape).Idx → Prop) [DecidablePred P] (Q : ℕ → Prop) [DecidablePred Q]
    (hPQ : ∀ p : Fin n, P (ix1 p) ↔ Q p.val) :
    (Finset.univ.filter P).card = ((Finset.range n).filter Q).card := by
  refine Finset.card_bij (fun j _ => (j 0).val) ?_ ?_ ?_
  · intro j hj
    have hP := (Finset.mem_filter.1 hj).2
    rw [eq_ix1 j] at hP
    exact Finset.mem_filter.2 ⟨Finset.mem_range.2 (j 0).isLt, (hPQ (j 0)).1 hP⟩
  · intro j₁ _ j₂ _ e
    rw [eq_ix1 j₁, eq_ix1 j₂]
    exact congrArg ix1 (Fin.ext e)
  · intro p hp
    have hp' := Finset.mem_filter.1 hp
    have hlt : p < n := Finset.mem_range.1 hp'.1
    exact ⟨ix1 ⟨p, hlt⟩, Finset.mem_filter.2 ⟨Finset.mem_univ _, (hPQ ⟨p, hlt⟩).2 hp'.2⟩, rfl⟩

theorem toNat_scatter_count {N n w : ℕ} (hn : n < 2 ^ 32) (d : ScatterDims ⟨1, ![N]⟩ ⟨2, ![n, 1]⟩ ⟨1, ![n]⟩)
    (x : IVec ⟨1, ![N]⟩ 32) (idx : IVec ⟨2, ![n, 1]⟩ w) (upd : IVec ⟨1, ![n]⟩ 32)
    (hx : ∀ i, x i = 0#32) (hupd : ∀ j, upd j = 1#32) (i : (⟨1, ![N]⟩ : Shape).Idx) :
    (Host.scatter d IntOp.addi x idx upd i).toNat
      = (Finset.univ.filter fun j : (⟨1, ![n]⟩ : Shape).Idx => d.resultIdx? j idx = some i).card := by
  rw [scatter_apply]
  have hstep : (fun (acc : BitVec 32) (m : Fin (⟨1, ![n]⟩ : Shape).numel) =>
        if d.resultIdx? ((⟨1, ![n]⟩ : Shape).rowMajor.symm m) idx = some i then IntOp.addi acc (upd ((⟨1, ![n]⟩ : Shape).rowMajor.symm m)) else acc)
      = fun acc m => IntOp.addi acc ((fun j : (⟨1, ![n]⟩ : Shape).Idx => if d.resultIdx? j idx = some i then (1#32 : BitVec 32) else 0)
          ((⟨1, ![n]⟩ : Shape).rowMajor.symm m)) := by
    funext acc m
    by_cases hc : d.resultIdx? ((⟨1, ![n]⟩ : Shape).rowMajor.symm m) idx = some i
    · simp only [if_pos hc, hupd]
    · simp only [if_neg hc]
      show acc = acc + 0
      rw [add_zero]
  rw [hstep]
  refine (congrArg BitVec.toNat (foldl_rowMajor_add_eq_sum (⟨1, ![n]⟩ : Shape)
      (fun j => if d.resultIdx? j idx = some i then (1#32 : BitVec 32) else 0) (x i))).trans ?_
  rw [hx, show (0#32 : BitVec 32) = 0 from rfl, zero_add]
  have hval : ∀ j : (⟨1, ![n]⟩ : Shape).Idx, (if d.resultIdx? j idx = some i then (1#32 : BitVec 32) else 0).toNat
      = if d.resultIdx? j idx = some i then 1 else 0 := by
    intro j; split <;> rfl
  have hsum : ∑ j : (⟨1, ![n]⟩ : Shape).Idx, (if d.resultIdx? j idx = some i then (1#32 : BitVec 32) else 0).toNat
      = (Finset.univ.filter fun j : (⟨1, ![n]⟩ : Shape).Idx => d.resultIdx? j idx = some i).card := by
    rw [Finset.card_filter]
    exact Finset.sum_congr rfl fun j _ => hval j
  have hcard : (Finset.univ.filter fun j : (⟨1, ![n]⟩ : Shape).Idx => d.resultIdx? j idx = some i).card ≤ n := by
    refine (Finset.card_le_univ _).trans ?_
    rw [Fintype.card_congr (idx1Equiv n), Fintype.card_fin]
  rw [WordSum.toNat_sum _ _ (by rw [hsum]; omega), hsum]

/-- Update `p` of the rank-1 scatter lands on `v` exactly when its index, read signed, is `v`. -/
theorem resultIdx_eq_some_iff {N n w : ℕ} (d : ScatterDims ⟨1, ![N]⟩ ⟨2, ![n, 1]⟩ ⟨1, ![n]⟩)
    (hins : d.insertedWindowDims = [0]) (hsd : d.scatterDimsToOperandDims = [0]) (hivd : d.indexVectorDim = 1)
    (idx : IVec ⟨2, ![n, 1]⟩ w) (p : Fin n) (v : Fin N) :
    d.resultIdx? (ix1 p) idx = some (ix1 v) ↔ (idx (StableHlo.Predicate.ixP p)).toInt = (v.val : ℤ) := by
  have hm : (0 : Fin 1) ∈ d.scatterDimsToOperandDims := by rw [hsd]; exact List.mem_singleton.mpr rfl
  have hstart : d.start (ix1 p) idx (0 : Fin 1) = (idx (StableHlo.Predicate.ixP p)).toInt := by
    unfold ScatterDims.start
    rw [dif_pos hm]
    refine congrArg (fun q => (idx q).toInt) (funext fun b => ?_)
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hwin : d.window (ix1 p) (0 : Fin 1) = 0 := by
    unfold ScatterDims.window
    rw [dif_neg]
    intro hmem
    have := (List.mem_filter.1 hmem).2
    rw [hins] at this
    simp at this
  unfold ScatterDims.resultIdx?
  constructor
  · intro hsome
    split at hsome
    · rename_i hall
      have h0 := (hall (0 : Fin 1)).1
      have e := congrArg (fun f : (⟨1, ![N]⟩ : Shape).Idx => (f (0 : Fin 1)).val) (Option.some.inj hsome)
      simp only at e
      rw [hstart, hwin] at h0
      change (d.start (ix1 p) idx (0 : Fin 1) + ((d.window (ix1 p) (0 : Fin 1) : ℕ) : ℤ)).toNat = v.val at e
      rw [hstart, hwin] at e
      omega
    · exact absurd hsome (by simp)
  · intro hv
    have hall : ∀ a : Fin 1, 0 ≤ d.start (ix1 p) idx a + ((d.window (ix1 p) a : ℕ) : ℤ)
        ∧ d.start (ix1 p) idx a + ((d.window (ix1 p) a : ℕ) : ℤ) < (((⟨1, ![N]⟩ : Shape).size a : ℕ) : ℤ) := by
      intro a
      have ha : a = 0 := Subsingleton.elim _ _
      subst ha
      rw [hstart, hwin, hv]
      have hvN : v.val < N := v.isLt
      show (0 : ℤ) ≤ (v.val : ℤ) + ((0 : ℕ) : ℤ) ∧ (v.val : ℤ) + ((0 : ℕ) : ℤ) < ((N : ℕ) : ℤ)
      constructor <;> omega
    rw [dif_pos hall]
    refine congrArg some (funext fun a => ?_)
    have ha : a = (0 : Fin 1) := Subsingleton.elim _ _
    subst ha
    apply Fin.ext
    show (d.start (ix1 p) idx (0 : Fin 1) + ((d.window (ix1 p) (0 : Fin 1) : ℕ) : ℤ)).toNat = v.val
    rw [hstart, hwin, hv]
    omega

/-! ## The floored quotient and remainder by 2048 of a small non-negative word -/

theorem floorDiv_word (w : BitVec 32) (hw : w.toNat < 2 ^ 31) :
    Scalar.select
      (IntOp.andi (IntOp.cmpi .ne (if w = 0 then 0 else if w.msb then -1 else 1) (1#32 : BitVec 32))
        (IntOp.cmpi .ne (IntOp.remsi .host w 2048#32) 0#32))
      (IntOp.subi (IntOp.divsi .host w 2048#32) 1#32) (IntOp.divsi .host w 2048#32) = IntOp.divsi .host w 2048#32 := by
  by_cases hw0 : w = 0
  · subst hw0
    decide
  · have hm : w.msb = false := BitVec.msb_eq_false_iff_two_mul_lt.mpr (by omega)
    rw [if_neg hw0, hm]
    simp [IntOp.cmpi, IntOp.andi, Scalar.select]

theorem floorRem_word (w : BitVec 32) (hw : w.toNat < 2 ^ 31) :
    Scalar.select
      (IntOp.andi (IntOp.cmpi .ne (IntOp.cmpi .slt (IntOp.remsi .host w 2048#32) 0#32) (IntOp.cmpi .slt (2048#32 : BitVec 32) 0#32))
        (IntOp.cmpi .ne (IntOp.remsi .host w 2048#32) 0#32))
      (IntOp.addi (IntOp.remsi .host w 2048#32) 2048#32) (IntOp.remsi .host w 2048#32) = IntOp.remsi .host w 2048#32 := by
  have hr : (IntOp.remsi .host w 2048#32).toNat < 2 ^ 31 := by
    rw [remsi_2048 _ _ hw]; omega
  have hs : IntOp.cmpi .slt (IntOp.remsi .host w 2048#32) 0#32 = 0#1 :=
    eq_zero_of_ne_one fun h => by
      have := (StableHlo.Predicate.slt_iff_toNat hr (by decide)).1 h
      simp at this
  rw [hs, show IntOp.cmpi .slt (2048#32 : BitVec 32) 0#32 = 0#1 from by decide,
    show IntOp.cmpi .ne (0#1 : BitVec 1) 0#1 = 0#1 from by decide]
  simp [IntOp.andi, Scalar.select]

/-- A word below 2³¹ is its own signed maximum with zero, and is not wrapped. -/
theorem wrapNeg_small (r m : BitVec 32) (hr : r.toNat < 2 ^ 31) :
    Scalar.select (IntOp.cmpi .slt (IntOp.maxsi 0#32 r) 0#32) (IntOp.addi (IntOp.maxsi 0#32 r) m) (IntOp.maxsi 0#32 r) = r := by
  have hs : IntOp.cmpi .slt r 0#32 = 0#1 :=
    eq_zero_of_ne_one fun h => by
      have := (StableHlo.Predicate.slt_iff_toNat hr (by decide)).1 h
      simp at this
  have hs' : r.slt 0#32 = false := by
    cases hb : r.slt 0#32 with
    | false => rfl
    | true => simp [IntOp.cmpi, hb] at hs
  have hmax : IntOp.maxsi 0#32 r = r := by
    unfold IntOp.maxsi; rw [hs']; rfl
  rw [hmax, hs]
  rfl

variable [Facts]
open Facts₀ Facts

/-- The adjacency flattened row-major, as a 0/1 sequence: position `p` is set when entry `(p / 2048, p % 2048)` is nonzero. -/
def bit (adj : IVec S2048x2048 32) (p : ℕ) : Bool :=
  if h : p < 4194304 then decide (adj (ix2 (⟨p / 2048, by omega⟩ : Fin 2048) (⟨p % 2048, by omega⟩ : Fin 2048)) ≠ 0#32) else false

theorem mask_eq_one_iff (adj : IVec S2048x2048 32) (i : S2048x2048.Idx) : mask adj i = 1#1 ↔ adj i ≠ 0#32 := by
  show BitVec.ofBool (adj i != 0#32) = 1#1 ↔ _
  rw [StableHlo.Predicate.ofBool_eq_one_iff, bne_iff_ne]

theorem flatMask_toNat (adj : IVec S2048x2048 32) (p : Fin 4194304) :
    (extui 32 (shapeCast S4194304 (mask adj) shapeCasts_S2048x2048_S4194304) natLt_1_32 (ix1 p)).toNat
      = if bit adj p.val = true then 1 else 0 := by
  have hp := p.isLt
  have hk : (S2048x2048.rowMajor (ix2 (⟨p.val / 2048, by omega⟩ : Fin 2048) (⟨p.val % 2048, by omega⟩ : Fin 2048))).val
      = (S4194304.rowMajor (ix1 p)).val := by
    rw [Shape.rowMajor_val_two, Shape.rowMajor_val_one]
    show p.val / 2048 * 2048 + p.val % 2048 = p.val
    omega
  rw [extui_apply, StableHlo.Predicate.toNat_setWidth_bit, shapeCast_apply _ _ _ _ hk]
  unfold bit
  rw [dif_pos hp]
  refine if_congr ?_ rfl rfl
  rw [mask_eq_one_iff, decide_eq_true_eq]

theorem runSum_toNat (x : IVec S4194304 32) (k : Fin 4194304)
    (hb : ∑ q ∈ Finset.range (k.val + 1), (wordSeq x q).toNat < 2 ^ 32) :
    (runSum x (ix1 k)).toNat = ∑ q ∈ Finset.range (k.val + 1), (wordSeq x q).toNat := by
  unfold runSum
  rw [reduceWindow_prefix (lo := 4194303) rfl x _ _ h_S_ rfl k]
  exact WordSum.toNat_sum _ _ hb

theorem runCount_toNat (adj : IVec S2048x2048 32) (p : Fin 4194304) : (runCount adj (ix1 p)).toNat = pre (bit adj) p.val := by
  have hseq : ∀ q ∈ Finset.range (p.val + 1),
      (wordSeq (extui 32 (shapeCast S4194304 (mask adj) shapeCasts_S2048x2048_S4194304) natLt_1_32) q).toNat
        = if bit adj q = true then 1 else 0 := by
    intro q hq
    have hq' : q < 4194304 := by have := Finset.mem_range.1 hq; have := p.isLt; omega
    rw [show q = (⟨q, hq'⟩ : Fin 4194304).val from rfl, wordSeq_of_lt, flatMask_toNat]
  have hsum : ∑ q ∈ Finset.range (p.val + 1),
      (wordSeq (extui 32 (shapeCast S4194304 (mask adj) shapeCasts_S2048x2048_S4194304) natLt_1_32) q).toNat = pre (bit adj) p.val := by
    rw [Finset.sum_congr rfl hseq]
    unfold pre
    rw [Finset.card_filter]
  unfold runCount
  rw [runSum_toNat _ _ (by rw [hsum]; have := pre_le_succ (bit adj) p.val; have := p.isLt; omega), hsum]

theorem pre_lt (adj : IVec S2048x2048 32) (p : Fin 4194304) : pre (bit adj) p.val < 2 ^ 31 := by
  have := pre_le_succ (bit adj) p.val; have := p.isLt; omega

theorem ofFin_eq_ix1 {n : ℕ} (p : Fin n) : Shape.Idx.ofFin p = ix1 p := by
  funext a; match a with | ⟨0, _⟩ => rfl

theorem histIdx_toInt (adj : IVec S2048x2048 32) (p : Fin 4194304) :
    (histIdx adj (StableHlo.Predicate.ixP p)).toInt = (pre (bit adj) p.val : ℤ) := by
  have hr : (runCount adj (ix1 p)).toNat < 2 ^ 31 := by rw [runCount_toNat]; exact pre_lt adj p
  unfold histIdx
  rw [StableHlo.Predicate.bcast_col1, ofFin_eq_ix1]
  show (Scalar.select (IntOp.cmpi .slt (IntOp.maxsi 0#32 (runCount adj (ix1 p))) 0#32)
    (IntOp.addi (IntOp.maxsi 0#32 (runCount adj (ix1 p))) 4194304#32) (IntOp.maxsi 0#32 (runCount adj (ix1 p)))).toInt = _
  rw [wrapNeg_small _ _ hr, StableHlo.Predicate.toInt_eq_toNat_of_lt hr, runCount_toNat]

theorem histogram_toNat (adj : IVec S2048x2048 32) (v : Fin 4194304) :
    (histogram adj (ix1 v)).toNat = ((Finset.range 4194304).filter fun p => pre (bit adj) p = v.val).card := by
  unfold histogram
  refine (toNat_scatter_count (by norm_num) scatter_S4194304_S4194304x1_S4194304_n_0_0_1 _ (histIdx adj) _
    (fun _ => rfl) (fun _ => rfl) (ix1 v)).trans ?_
  refine card_idx1_filter _ _ fun p => ?_
  rw [resultIdx_eq_some_iff _ rfl rfl rfl, histIdx_toInt]
  exact Nat.cast_inj

theorem positions_toNat (adj : IVec S2048x2048 32) (k : Fin 4194304) :
    (positions adj (ix1 k)).toNat = pos (bit adj) 4194304 k.val := by
  have hseq : ∀ q ∈ Finset.range (k.val + 1), (wordSeq (histogram adj) q).toNat
      = (((Finset.range 4194304).filter fun p => pre (bit adj) p ≤ k.val).filter fun p => pre (bit adj) p = q).card := by
    intro q hq
    have hqk : q ≤ k.val := by have := Finset.mem_range.1 hq; omega
    have hq' : q < 4194304 := by have := k.isLt; omega
    rw [show q = (⟨q, hq'⟩ : Fin 4194304).val from rfl, wordSeq_of_lt, histogram_toNat, Finset.filter_filter]
    refine congrArg Finset.card (Finset.filter_congr fun p _ => ?_)
    show pre (bit adj) p = q ↔ pre (bit adj) p ≤ k.val ∧ pre (bit adj) p = q
    constructor
    · intro h; exact ⟨by omega, h⟩
    · intro h; exact h.2
  have hsum : ∑ q ∈ Finset.range (k.val + 1), (wordSeq (histogram adj) q).toNat = pos (bit adj) 4194304 k.val := by
    rw [Finset.sum_congr rfl hseq]
    unfold pos
    refine (Finset.card_eq_sum_card_fiberwise fun p hp => ?_).symm
    have := (Finset.mem_filter.1 hp).2
    exact Finset.mem_range.2 (by omega)
  unfold positions
  rw [runSum_toNat _ _ (by rw [hsum]; have := pos_le (bit adj) 4194304 k.val; omega), hsum]

theorem nnz_toNat (adj : IVec S2048x2048 32) : (nnz adj ix0).toNat = count (bit adj) 4194304 := by
  classical
  have hF : ∀ a b : Fin 2048, bit adj (b.val + 2048 * a.val) = decide (adj (ix2 a b) ≠ 0#32) := by
    intro a b
    have ha := a.isLt
    have hb := b.isLt
    unfold bit
    rw [dif_pos (by omega)]
    have e1 : (⟨(b.val + 2048 * a.val) / 2048, by omega⟩ : Fin 2048) = a := Fin.ext (by show (b.val + 2048 * a.val) / 2048 = a.val; omega)
    have e2 : (⟨(b.val + 2048 * a.val) % 2048, by omega⟩ : Fin 2048) = b := Fin.ext (by show (b.val + 2048 * a.val) % 2048 = b.val; omega)
    rw [e1, e2]
  have hcount : count (bit adj) 4194304 = ∑ a : Fin 2048, ∑ b : Fin 2048, (if adj (ix2 a b) ≠ 0#32 then 1 else 0) := by
    unfold NonzeroComb.count
    rw [Finset.card_filter]
    have e1 : ∑ p ∈ Finset.range 4194304, (if bit adj p = true then 1 else 0)
        = ∑ p : Fin (2048 * 2048), (if bit adj p.val = true then 1 else 0) :=
      (Fin.sum_univ_eq_sum_range (fun p => if bit adj p = true then 1 else 0) (2048 * 2048)).symm
    rw [e1, ← Equiv.sum_comp finProdFinEquiv, Fintype.sum_prod_type]
    refine Finset.sum_congr rfl fun a _ => Finset.sum_congr rfl fun b _ => ?_
    show (if bit adj (b.val + 2048 * a.val) = true then 1 else 0) = _
    rw [hF]
    simp only [decide_eq_true_eq]
  unfold nnz
  rw [Host.reduce_eq_fold]
  have huniv : (Finset.univ.filter fun i : S2048x2048.Idx => reducesTo_S2048x2048_S_d0_1.drop i = ix0) = Finset.univ :=
    Finset.filter_true_of_mem fun i _ => funext fun a => a.elim0
  rw [huniv]
  show (Finset.fold IntOp.addi 0#32 (extui 32 (mask adj) natLt_1_32) Finset.univ).toNat = _
  have hval : ∀ i : S2048x2048.Idx, (extui 32 (mask adj) natLt_1_32 i).toNat = if adj i ≠ 0#32 then 1 else 0 := by
    intro i
    rw [extui_apply, StableHlo.Predicate.toNat_setWidth_bit]
    exact if_congr (mask_eq_one_iff adj i) rfl rfl
  have hsum : ∑ i : S2048x2048.Idx, (extui 32 (mask adj) natLt_1_32 i).toNat = count (bit adj) 4194304 := by
    rw [hcount, sum_idx2]
    exact Finset.sum_congr rfl fun a _ => Finset.sum_congr rfl fun b _ => hval _
  rw [StableHlo.Predicate.toNat_fold_addi _ _ (by rw [hsum]; have := count_le (bit adj) 4194304; omega), hsum]

theorem padding_iff (adj : IVec S2048x2048 32) (k : Fin 4194304) :
    padding adj (ix1 k) = 1#1 ↔ count (bit adj) 4194304 ≤ k.val := by
  have hk := k.isLt
  have hn : (nnz adj ix0).toNat < 2 ^ 31 := by rw [nnz_toNat]; have := count_le (bit adj) 4194304; omega
  have hi : (BitVec.ofNat 32 k.val).toNat = k.val := by rw [BitVec.toNat_ofNat]; exact Nat.mod_eq_of_lt (by omega)
  show IntOp.cmpi .sge (BitVec.ofNat 32 k.val) (broadcastInDim S4194304 ![] bcast_S_S4194304 (nnz adj) (ix1 k)) = 1#1 ↔ _
  rw [StableHlo.Predicate.bcast_scalar bcast_S_S4194304 h_S_, eq_ix0 (Shape.Idx.first h_S_),
    StableHlo.Predicate.sge_iff_toNat (by rw [hi]; omega) hn, hi, nnz_toNat]

theorem floorDivide_2048 (x : IVec S4194304 32) (i : S4194304.Idx) (hx : (x i).toNat < 2 ^ 31) :
    floorDivide x (constantI S_ 32 2048#32) i = IntOp.divsi .host (x i) 2048#32 := by
  have hsd : ∀ j, signi (constantI S_ 32 2048#32) j = 1#32 := fun j => by
    show (if (2048#32 : BitVec 32) = 0 then (0 : BitVec 32) else if (2048#32 : BitVec 32).msb then -1 else 1) = 1#32
    decide
  show Scalar.select
      (IntOp.andi (IntOp.cmpi .ne (signi x i) (signi (constantI S_ 32 2048#32) _))
        (IntOp.cmpi .ne (IntOp.remsi .host (x i) 2048#32) 0#32))
      (IntOp.subi (IntOp.divsi .host (x i) 2048#32) 1#32) (IntOp.divsi .host (x i) 2048#32) = _
  rw [hsd]
  exact floorDiv_word (x i) hx

theorem floorDivide_one (x : IVec S4194304 32) (i : S4194304.Idx) : floorDivide x (constantI S_ 32 1#32) i = x i := by
  show Scalar.select
      (IntOp.andi (IntOp.cmpi .ne (signi x i) (signi (constantI S_ 32 1#32) _))
        (IntOp.cmpi .ne (IntOp.remsi .host (x i) 1#32) 0#32))
      (IntOp.subi (IntOp.divsi .host (x i) 1#32) 1#32) (IntOp.divsi .host (x i) 1#32) = x i
  rw [WordArith.remsi_one, WordArith.divsi_one]
  simp [IntOp.cmpi, IntOp.andi, Scalar.select]

theorem remainder_2048 (x : IVec S4194304 32) (i : S4194304.Idx) (hx : (x i).toNat < 2 ^ 31) :
    remainder x (constantI S_ 32 2048#32) i = IntOp.remsi .host (x i) 2048#32 :=
  floorRem_word (x i) hx

theorem whereScalar_apply (c : IVec S4194304 1) (b : IVec S4194304 32) (i : S4194304.Idx) :
    whereScalar c (constantI S_ 32 2048#32) b i = Scalar.select (c i) 2048#32 (b i) := rfl

/-- Slot `k`'s source node: the row of the `k`-th nonzero position, or 2048 from the number of nonzero entries on. -/
theorem edgeSrc_toNat (adj : IVec S2048x2048 32) (k : Fin 4194304) :
    (edgeSrc adj (ix1 k)).toNat = if k.val < count (bit adj) 4194304 then pos (bit adj) 4194304 k.val / 2048 else 2048 := by
  unfold edgeSrc
  rw [whereScalar_apply]
  by_cases hk : k.val < count (bit adj) 4194304
  · have hpad : padding adj (ix1 k) = 0#1 := eq_zero_of_ne_one (fun h => by have := (padding_iff adj k).1 h; omega)
    rw [if_pos hk, hpad, select_zero]
    have hpos : pos (bit adj) 4194304 k.val < 4194304 := pos_lt (bit adj) 4194304 k.val hk
    have hp : (positions adj (ix1 k)).toNat < 2 ^ 31 := by rw [positions_toNat]; omega
    have hq : (floorDivide (positions adj) (constantI S_ 32 2048#32) (ix1 k)).toNat = pos (bit adj) 4194304 k.val / 2048 := by
      rw [floorDivide_2048 _ _ hp, divsi_2048 _ _ hp, positions_toNat]
    rw [remainder_2048 _ _ (by rw [hq]; omega), remsi_2048 _ _ (by rw [hq]; omega), hq]
    omega
  · rw [if_neg hk, (padding_iff adj k).2 (by omega), select_one]
    rfl

/-- Slot `k`'s destination node: the column of the `k`-th nonzero position, or 2048 from the number of nonzero entries on. -/
theorem edgeDst_toNat (adj : IVec S2048x2048 32) (k : Fin 4194304) :
    (edgeDst adj (ix1 k)).toNat = if k.val < count (bit adj) 4194304 then pos (bit adj) 4194304 k.val % 2048 else 2048 := by
  unfold edgeDst
  rw [whereScalar_apply]
  by_cases hk : k.val < count (bit adj) 4194304
  · have hpad : padding adj (ix1 k) = 0#1 := eq_zero_of_ne_one (fun h => by have := (padding_iff adj k).1 h; omega)
    rw [if_pos hk, hpad, select_zero]
    have hpos : pos (bit adj) 4194304 k.val < 4194304 := pos_lt (bit adj) 4194304 k.val hk
    have hp : (positions adj (ix1 k)).toNat < 2 ^ 31 := by rw [positions_toNat]; omega
    have hq : (floorDivide (positions adj) (constantI S_ 32 1#32) (ix1 k)).toNat = pos (bit adj) 4194304 k.val := by
      rw [floorDivide_one, positions_toNat]
    rw [remainder_2048 _ _ (by rw [hq]; omega), remsi_2048 _ _ (by rw [hq]; omega), hq]
  · rw [if_neg hk, (padding_iff adj k).2 (by omega), select_one]
    rfl

end Cert.ReferenceIdeal.RefEdges

end
-- ==== Proof.RefAggregate.lean ====
/-
  The reference's aggregation read at an index, over the extended reals: the feature rows gathered per edge and
  added into their destination rows are, at destination `j`, the sum over the source nodes `i` whose adjacency entry
  `(i, j)` is nonzero of row `i` — each edge listed once, the padding slots dropped.

  The scatter-add at `(j, c)` is zero plus the sum of the update entries `(k, c')` whose result index is `(j, c)`:
  those with destination word `j` and `c' = c`. A slot from the number of nonzero entries on has destination word
  2048, no row, and adds nothing; a slot `k` below it has destination `pos k % 2048` and reads row `pos k / 2048`,
  in range. Summing over the slots is summing over the nonzero flat positions, and those, taken row by row, are the
  entries `(i, j)` of column `j`.
-/
import proofs.«114369_g3530463117553_cont_sun_c4_324_4_alg».proof.Proof.RefEdges
import Idealize.ShloMosaic.PureOps.Ideal.Laws
import Idealize.ShloMosaic.Lib.StableHlo.Predicate

noncomputable section

namespace Cert.ReferenceIdeal.RefAggregate

open Idealize.ShloMosaic Cert.ReferenceIdeal Cert.ReferenceIdeal.RefTerm Cert.ReferenceIdeal.RefEdges Cert.NonzeroComb ValueIdx
open Idealize.ShloMosaic.StableHlo.Predicate

variable [Facts]
open Facts₀ Facts

/-! ## The scatter's result index -/

/-- The scatter's dimension numbers: updates `[4194304, 64]` into rows of `[2048, 64]`, one index word per slot. -/
abbrev sd := scatter_S2048x64_S4194304x1_S4194304x64_1_0_0_1

/-- On the row axis the window starts at the slot's index word, read signed. -/
theorem sd_start0 (idx : IVec S4194304x1 32) (k : Fin 4194304) (c' : Fin 64) :
    sd.start (ix2 k c') idx 0 = (idx (ix2 k 0)).toInt := by
  unfold ScatterDims.start
  rw [dif_pos (show (0 : Fin 2) ∈ sd.scatterDimsToOperandDims from List.mem_singleton.mpr rfl)]
  congr 2
  funext b
  refine Fin.ext ?_
  match b with
  | ⟨0, _⟩ => rfl
  | ⟨1, _⟩ => rfl

/-- On the column axis the window starts at zero. -/
theorem sd_start1 (idx : IVec S4194304x1 32) (k : Fin 4194304) (c' : Fin 64) :
    sd.start (ix2 k c') idx 1 = 0 := by
  unfold ScatterDims.start
  rw [dif_neg (by decide)]

/-- The row axis is inserted: its window coordinate is zero. -/
theorem sd_window0 (k : Fin 4194304) (c' : Fin 64) : sd.window (ix2 k c') 0 = 0 := by
  unfold ScatterDims.window
  rw [dif_neg (by decide)]

/-- The column axis carries the update's column. -/
theorem sd_window1 (k : Fin 4194304) (c' : Fin 64) : sd.window (ix2 k c') 1 = c'.val := by
  unfold ScatterDims.window
  rw [dif_pos (by decide)]
  rfl

/-- Update entry `(k, c')` lands on `(j, c)` exactly when slot `k`'s index word, read signed, is `j` and `c' = c`. -/
theorem sd_resultIdx (idx : IVec S4194304x1 32) (k : Fin 4194304) (c' : Fin 64) (j : Fin 2048) (c : Fin 64) :
    sd.resultIdx? (ix2 k c') idx = some (ix2 j c) ↔ (idx (ix2 k 0)).toInt = (j.val : Int) ∧ c' = c := by
  unfold ScatterDims.resultIdx?
  split
  · next h =>
    rw [Option.some.injEq]
    constructor
    · intro e
      have e0 := congrArg (fun f : S2048x64.Idx => (f 0).val) e
      have e1 := congrArg (fun f : S2048x64.Idx => (f 1).val) e
      simp only [sd_start0, sd_start1, sd_window0, sd_window1] at e0 e1
      have h0 := h 0
      rw [sd_start0, sd_window0] at h0
      refine ⟨?_, Fin.ext ?_⟩
      · change ((idx (ix2 k 0)).toInt + ((0 : Nat) : Int)).toNat = j.val at e0
        omega
      · change ((0 : Int) + (c'.val : Int)).toNat = c.val at e1
        omega
    · rintro ⟨e0, rfl⟩
      funext a
      refine Fin.ext ?_
      match a with
      | ⟨0, _⟩ =>
        show (sd.start (ix2 k c') idx 0 + sd.window (ix2 k c') 0).toNat = j.val
        rw [sd_start0, sd_window0, e0]; omega
      | ⟨1, _⟩ =>
        show (sd.start (ix2 k c') idx 1 + sd.window (ix2 k c') 1).toNat = c'.val
        rw [sd_start1, sd_window1]; omega
  · next h =>
    constructor
    · intro e; exact absurd e (by simp)
    · rintro ⟨e0, rfl⟩
      exfalso
      apply h
      intro a
      match a with
      | ⟨0, _⟩ =>
        show 0 ≤ sd.start (ix2 k c') idx 0 + sd.window (ix2 k c') 0 ∧ sd.start (ix2 k c') idx 0 + sd.window (ix2 k c') 0 < (2048 : Int)
        rw [sd_start0, sd_window0, e0]; have := j.isLt; omega
      | ⟨1, _⟩ =>
        show 0 ≤ sd.start (ix2 k c') idx 1 + sd.window (ix2 k c') 1 ∧ sd.start (ix2 k c') idx 1 + sd.window (ix2 k c') 1 < (64 : Int)
        rw [sd_start1, sd_window1]; have := c'.isLt; omega

/-! ## The gather and the broadcasts at an index -/

/-- The gather's dimension numbers: one row of `[2048, 64]` per start index. -/
abbrev gd := gather_S2048x64_S4194304x1_S4194304x64_1_0_n_n_0_1_164

/-- The gather at `(k, c)`: the operand at the row slot `k`'s start index names, read signed and clamped into the rows, column `c`. -/
theorem gather_apply {α : Type} (x : S2048x64.Idx → α) (idx : IVec S4194304x1 32) (k : Fin 4194304) (c : Fin 64) :
    Host.gather gd x idx (ix2 k c)
      = x (ix2 (⟨min (idx (ix2 k 0)).toInt.toNat 2047, by omega⟩ : Fin 2048) c) := by
  unfold Host.gather
  congr 1
  funext a
  refine Fin.ext ?_
  match a with
  | ⟨0, _⟩ =>
    show gd.start (ix2 k c) idx 0 + gd.batchCoord (ix2 k c) 0 + gd.offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 k c) ⟨List.idxOf (0 : Fin 2) gd.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl
  | ⟨1, _⟩ =>
    show gd.start (ix2 k c) idx 1 + gd.batchCoord (ix2 k c) 1 + gd.offCoord (ix2 k c) 1 = c.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

/-- A vector as a one-column array reads, in row `k`, the vector at `k`. -/
theorem bcast_col_apply {α : Type} (v : S4194304.Idx → α) (k : Fin 4194304) (z : Fin 1) :
    broadcastInDim S4194304x1 ![0] bcast_S4194304_S4194304x1_0 v (ix2 k z) = v (ix1 k) := by
  simp only [broadcastInDim]
  congr 1
  funext a
  match a with
  | ⟨0, _⟩ =>
    refine Fin.ext ?_
    split
    · next h1 => change (4194304 : Nat) = 1 at h1; omega
    · rfl

/-- A vector laid along the rows of a 64-column array reads, at `(k, c)`, the vector at `k`. -/
theorem bcast_rows_apply {α : Type} (v : S4194304.Idx → α) (k : Fin 4194304) (c : Fin 64) :
    broadcastInDim S4194304x64 ![0] bcast_S4194304_S4194304x64_0 v (ix2 k c) = v (ix1 k) := by
  simp only [broadcastInDim]
  congr 1
  funext a
  match a with
  | ⟨0, _⟩ =>
    refine Fin.ext ?_
    split
    · next h1 => change (4194304 : Nat) = 1 at h1; omega
    · rfl

/-! ## The gathered rows where the row word is in range -/

/-- A row word below 2³¹ is not negative: the wrapped index is the word itself. -/
theorem takeIdx_apply (idx : IVec S4194304 32) (k : Fin 4194304) (z : Fin 1) (h : (idx (ix1 k)).toNat < 2 ^ 31) :
    RefTerm.takeIdx idx (ix2 k z) = idx (ix1 k) := by
  unfold RefTerm.takeIdx
  rw [bcast_col_apply]
  show Scalar.select (IntOp.cmpi .slt (idx (ix1 k)) 0#32) (IntOp.addi (idx (ix1 k)) 2048#32) (idx (ix1 k)) = idx (ix1 k)
  have hn : ¬ IntOp.cmpi .slt (idx (ix1 k)) 0#32 = 1#1 := by
    rw [slt_iff_toNat h (by decide)]; simp
  rw [eq_zero_of_ne_one hn, select_zero]

/-- A conjunction of bits that are all one, from one, is one. -/
theorem fold_andi_one {ι : Type} (s : Finset ι) (f : ι → BitVec 1) (h : ∀ i ∈ s, f i = 1#1) :
    s.fold IntOp.andi 1#1 f = 1#1 := by
  classical
  rw [Finset.fold_congr h, Finset.fold_const _ (by decide)]
  split <;> decide

/-- A row word below 2048 is in range. -/
theorem takeInRange_apply (idx : IVec S4194304 32) (k : Fin 4194304) (h : (idx (ix1 k)).toNat < 2048) :
    takeInRange idx (ix1 k) = 1#1 := by
  unfold takeInRange
  rw [Host.reduce_eq_fold]
  apply fold_andi_one
  intro i hi
  have hd := (Finset.mem_filter.1 hi).2
  have h0 : i 0 = k := by
    have hv : ((reducesTo_S4194304x1_S4194304_d1).drop i 0 : Nat) = i 0 :=
      Shape.ReducesTo.drop_apply_val_of_eq _ i 0 0
    rw [hd] at hv
    exact Fin.ext hv.symm
  rw [eq_ix2 i, h0]
  have ht : RefTerm.takeIdx idx (ix2 k (i 1)) = idx (ix1 k) := takeIdx_apply idx k (i 1) (by omega)
  show IntOp.andi (IntOp.cmpi .sge (RefTerm.takeIdx idx (ix2 k (i 1))) 0#32) (IntOp.cmpi .sle (RefTerm.takeIdx idx (ix2 k (i 1))) 2047#32) = 1#1
  rw [ht, (sge_iff_toNat (by omega) (by decide)).2 (by simp), (sle_iff_toNat (by omega) (by decide)).2 (by simp; omega)]
  decide

/-- Where slot `k`'s row word is `r` below 2048, the gathered entry `(k, c)` is `y (r, c)`. -/
theorem gatherRows_apply (y : FVec Ideal S2048x64 .f32) (idx : IVec S4194304 32) (k : Fin 4194304) (c : Fin 64) (r : Fin 2048)
    (h : (idx (ix1 k)).toNat = r.val) : gatherRows (F := Ideal) y idx (ix2 k c) = y (ix2 r c) := by
  have hr := r.isLt
  unfold gatherRows
  rw [select_apply, bcast_rows_apply, takeInRange_apply idx k (by omega), select_one, gather_apply]
  congr 2
  refine Fin.ext ?_
  show min (RefTerm.takeIdx idx (ix2 k 0)).toInt.toNat 2047 = r.val
  rw [takeIdx_apply idx k 0 (by omega), toInt_eq_toNat_of_lt (by omega), h]
  omega

/-! ## The scatter-add as a sum over the slots -/

/-- A destination word is a column below 2048, or 2048. -/
theorem edgeDst_le (adj : IVec S2048x2048 32) (k : Fin 4194304) : (edgeDst adj (ix1 k)).toNat ≤ 2048 := by
  rw [edgeDst_toNat]
  split
  · have := Nat.mod_lt (pos (bit adj) 4194304 k.val) (show 0 < 2048 by norm_num); omega
  · exact le_rfl

/-- Update entry `J` lands on `(j, c)` exactly when its slot's destination word is `j` and its column is `c`. -/
theorem lands_iff (adj : IVec S2048x2048 32) (j : Fin 2048) (c : Fin 64) (J : S4194304x64.Idx) :
      sd.resultIdx? J (broadcastInDim S4194304x1 ![0] bcast_S4194304_S4194304x1_0 (edgeDst adj)) = some (ix2 j c)
        ↔ ((edgeDst adj (ix1 (J 0))).toNat = j.val ∧ (J 1).val = c.val) := by
  obtain ⟨k, c', rfl⟩ : ∃ (k : Fin 4194304) (c' : Fin 64), J = ix2 k c' := ⟨J 0, J 1, eq_ix2 J⟩
  show sd.resultIdx? (ix2 k c') _ = some (ix2 j c) ↔ ((edgeDst adj (ix1 k)).toNat = j.val ∧ c'.val = c.val)
  have hle := edgeDst_le adj k
  rw [sd_resultIdx, bcast_col_apply, toInt_eq_toNat_of_lt (by omega)]
  exact ⟨fun ⟨a, b⟩ => ⟨by exact_mod_cast a, congrArg Fin.val b⟩, fun ⟨a, b⟩ => ⟨by exact_mod_cast a, Fin.ext b⟩⟩

/-- The accumulating scatter over the extended reals, at an index: the operand there plus the sum of the updates that land there. -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ J ∈ Finset.univ.filter (fun J => d.resultIdx? J idx = some i), upd J := rfl

/-- The array of zeros is zero at every index. -/
theorem zeros_apply (i : S2048x64.Idx) :
    broadcastInDim S2048x64 ![] bcast_S_S2048x64 (constant (F := Ideal) S_ .f32 0x00000000#32) i = 0 :=
  Ideal.ofBits_zero_f32

/-- The scatter-add at a destination, as a sum over the edge slots: each slot whose destination word is the row
    contributes its gathered row's entry in the column. -/
theorem aggregate_eq_sum_slots (y : FVec Ideal S2048x64 .f32) (adj : IVec S2048x2048 32) (j : Fin 2048) (c : Fin 64) :
    aggregate (F := Ideal) y adj (ix2 j c)
      = ∑ k : Fin 4194304, if (edgeDst adj (ix1 k)).toNat = j.val then gatherRows (F := Ideal) y (edgeSrc adj) (ix2 k c) else 0 := by
  unfold aggregate
  rw [scatterAdd_apply, zeros_apply, zero_add, Finset.sum_filter]
  refine (Finset.sum_congr rfl fun J _ => if_congr (lands_iff adj j c J) rfl rfl).trans ?_
  rw [sum_idx2]
  refine Finset.sum_congr rfl fun k _ => ?_
  show (∑ c' : Fin 64, if ((edgeDst adj (ix1 k)).toNat = j.val ∧ c'.val = c.val)
      then gatherRows (F := Ideal) y (edgeSrc adj) (ix2 k c') else 0) = _
  by_cases hk : (edgeDst adj (ix1 k)).toNat = j.val
  · simp only [hk, true_and, Fin.val_inj, Finset.sum_ite_eq', Finset.mem_univ, if_true]
  · simp only [hk, false_and, if_false, Finset.sum_const_zero]

/-! ## From the slots to the nonzero positions -/

/-- The entry of `y` the flat position `p` contributes to destination `j`, column `c`: row `p / 2048` when `p`'s
    column `p % 2048` is `j`, else nothing. -/
def flatTerm (y : FVec Ideal S2048x64 .f32) (j : Fin 2048) (c : Fin 64) (p : ℕ) : EReal :=
  if h : p < 4194304 then (if p % 2048 = j.val then y (ix2 (⟨p / 2048, by omega⟩ : Fin 2048) c) else 0) else 0

/-- One slot's contribution: below the number of nonzero entries, the flat term of the slot's position; from there on,
    nothing (the destination word 2048 is no row). -/
theorem slot_term (y : FVec Ideal S2048x64 .f32) (adj : IVec S2048x2048 32) (j : Fin 2048) (c : Fin 64) (k : Fin 4194304) :
    (if (edgeDst adj (ix1 k)).toNat = j.val then gatherRows (F := Ideal) y (edgeSrc adj) (ix2 k c) else 0)
      = if k.val < count (bit adj) 4194304 then flatTerm y j c (pos (bit adj) 4194304 k.val) else 0 := by
  have hj := j.isLt
  by_cases hk : k.val < count (bit adj) 4194304
  · have hp := pos_lt (bit adj) 4194304 k.val hk
    have hd : (edgeDst adj (ix1 k)).toNat = pos (bit adj) 4194304 k.val % 2048 := by rw [edgeDst_toNat, if_pos hk]
    have hs : (edgeSrc adj (ix1 k)).toNat = pos (bit adj) 4194304 k.val / 2048 := by rw [edgeSrc_toNat, if_pos hk]
    rw [if_pos hk, hd]
    unfold flatTerm
    rw [dif_pos hp]
    by_cases hm : pos (bit adj) 4194304 k.val % 2048 = j.val
    · rw [if_pos hm, if_pos hm]
      exact gatherRows_apply y (edgeSrc adj) k c ⟨pos (bit adj) 4194304 k.val / 2048, by omega⟩ hs
    · rw [if_neg hm, if_neg hm]
  · have hd : (edgeDst adj (ix1 k)).toNat = 2048 := by rw [edgeDst_toNat, if_neg hk]
    rw [if_neg hk, if_neg (by omega)]

/-- The sum over the slots is the sum over the nonzero positions. -/
theorem sum_slots_eq_sum_positions (y : FVec Ideal S2048x64 .f32) (adj : IVec S2048x2048 32) (j : Fin 2048) (c : Fin 64) :
    (∑ k : Fin 4194304, if k.val < count (bit adj) 4194304 then flatTerm y j c (pos (bit adj) 4194304 k.val) else 0)
      = ∑ p ∈ (Finset.range 4194304).filter (fun p => bit adj p = true), flatTerm y j c p := by
  have hs : (Finset.range 4194304).filter (fun k => k < count (bit adj) 4194304) = Finset.range (count (bit adj) 4194304) := by
    ext k
    have := count_le (bit adj) 4194304
    simp only [Finset.mem_filter, Finset.mem_range]
    omega
  rw [Fin.sum_univ_eq_sum_range (fun k => if k < count (bit adj) 4194304 then flatTerm y j c (pos (bit adj) 4194304 k) else 0) 4194304,
    ← Finset.sum_filter, hs, sum_pos]

/-! ## From the positions to the rows -/

/-- A sum over the positions below `m * n`, row by row. -/
theorem sum_range_mul {M : Type} [AddCommMonoid M] (m n : ℕ) (h : ℕ → M) :
    ∑ p ∈ Finset.range (m * n), h p = ∑ i : Fin m, ∑ j' : Fin n, h (j'.val + n * i.val) := by
  rw [← Fin.sum_univ_eq_sum_range, ← (finProdFinEquiv (m := m) (n := n)).sum_comp, Fintype.sum_prod_type]
  rfl

/-- Position `j' + 2048 i` is entry `(i, j')`: it contributes to destination `j` when `j' = j` and the entry is
    nonzero, and then row `i`. -/
theorem flat_at (y : FVec Ideal S2048x64 .f32) (adj : IVec S2048x2048 32) (j : Fin 2048) (c : Fin 64) (i j' : Fin 2048) :
    (if bit adj (j'.val + 2048 * i.val) = true then flatTerm y j c (j'.val + 2048 * i.val) else 0)
      = if j' = j then (if adj (ix2 i j) = 0#32 then (0 : EReal) else 1) * y (ix2 i c) else 0 := by
  have hi := i.isLt
  have hj' := j'.isLt
  have hp : j'.val + 2048 * i.val < 4194304 := by omega
  have hmod : (j'.val + 2048 * i.val) % 2048 = j'.val := by omega
  have hdiv : (j'.val + 2048 * i.val) / 2048 = i.val := by omega
  have hrow : (⟨(j'.val + 2048 * i.val) / 2048, by omega⟩ : Fin 2048) = i := Fin.ext hdiv
  have hcol : (⟨(j'.val + 2048 * i.val) % 2048, by omega⟩ : Fin 2048) = j' := Fin.ext hmod
  unfold flatTerm
  rw [dif_pos hp, hrow]
  by_cases hj : j' = j
  · subst hj
    rw [if_pos rfl, if_pos hmod]
    unfold bit
    rw [dif_pos hp, hrow, hcol]
    by_cases ha : adj (ix2 i j') = 0#32
    · rw [if_pos ha, zero_mul, if_neg (by simp [ha])]
    · rw [if_neg ha, one_mul, if_pos (by simp [ha])]
  · have hne : ¬ (j'.val + 2048 * i.val) % 2048 = j.val := by rw [hmod]; exact fun e => hj (Fin.ext e)
    rw [if_neg hj, if_neg hne, ite_self]

/-- The nonzero positions, row by row: at destination `j`, the rows `i` whose entry `(i, j)` is nonzero. -/
theorem sum_positions_eq (y : FVec Ideal S2048x64 .f32) (adj : IVec S2048x2048 32) (j : Fin 2048) (c : Fin 64) :
    ∑ p ∈ (Finset.range 4194304).filter (fun p => bit adj p = true), flatTerm y j c p
      = ∑ i : Fin 2048, (if adj (ix2 i j) = 0#32 then (0 : EReal) else 1) * y (ix2 i c) := by
  rw [Finset.sum_filter, show (4194304 : ℕ) = 2048 * 2048 from by norm_num, sum_range_mul]
  refine Finset.sum_congr rfl fun i _ => ?_
  rw [Finset.sum_congr rfl fun j' _ => flat_at y adj j c i j', Finset.sum_ite_eq' Finset.univ j, if_pos (Finset.mem_univ _)]

/-! ## The aggregation at an index -/

/-- The aggregation at `(j, c)`: the sum over the rows `i` of the indicator of a nonzero entry `(i, j)` times `y (i, c)`. -/
theorem aggregate_apply (y : FVec Ideal S2048x64 .f32) (adj : IVec S2048x2048 32) (j : Fin 2048) (c : Fin 64) :
    aggregate (F := Ideal) y adj (ix2 j c)
      = ∑ i : Fin 2048, (if adj (ix2 i j) = 0#32 then (0 : EReal) else 1) * y (ix2 i c) := by
  rw [aggregate_eq_sum_slots, Finset.sum_congr rfl fun k _ => slot_term y adj j c k, sum_slots_eq_sum_positions,
    sum_positions_eq]

end Cert.ReferenceIdeal.RefAggregate

end
-- ==== Proof.RefValue.lean ====
/-
  The reference's result over the extended reals is the specification's network, the second layer aggregated before
  its linear map, with an edge wherever the adjacency entry is nonzero.

  Stage by stage at an index: a product with a transposed weight is the linear map `y · wᵀ`; the bias copied down the
  rows reads the bias; the rectifier is the maximum with zero; a row's maximum folded from minus infinity and a row's
  sum from zero are the fold and the sum over the row's columns; the column copied back along the rows reads the row's
  entry. The two convolutions, the rectifier and the log-softmax then meet the specification's unfolding.
-/
import proofs.«114369_g3530463117553_cont_sun_c4_324_4_alg».proof.Proof.RefAggregate
import proofs.«114369_g3530463117553_cont_sun_c4_324_4_alg».proof.Proof.Spec
import Idealize.ShloMosaic.PureOps.Ideal.Laws
import Idealize.ShloMosaic.Lib.Pipeline.Value
import Idealize.ShloMosaic.Lib.ValueLayout
import Idealize.ShloMosaic.Lib.IdealHost
import Idealize.ShloMosaic.Lib.StackMember

noncomputable section

namespace Cert.ReferenceIdeal.RefValue

open Idealize.ShloMosaic Cert.ReferenceIdeal Cert.ReferenceIdeal.RefTerm Cert.GraphConvSpec ValueIdx

variable [Facts]
open Facts₀ Facts

/-- The edge weight the reference gives an adjacency word: one where it is nonzero. -/
def edge (adj : IVec S2048x2048 32) (i j : Fin 2048) : EReal := if adj (ix2 i j) = 0#32 then 0 else 1

/-- The record of the 2048×64 by 64×64 product is the plain one. -/
theorem dot64_eq : dot_S2048x64_S64x64_S2048x64_1_0_0_1_n_n = DotDims.plain 2048 64 64 := rfl

/-- The 2048×64 by 64×64 product at an index is the sum over the contracted coordinate. -/
theorem dot64_apply (l : FVec Ideal S2048x64 .f32) (w : FVec Ideal S64x64 .f32) (r : Fin 2048) (k : Fin 64) :
    Host.dotGeneral (F := Ideal) dot_S2048x64_S64x64_S2048x64_1_0_0_1_n_n none l w (ix2 r k)
      = ∑ c : Fin 64, l (ix2 r c) * w (ix2 c k) := by
  rw [dot64_eq]
  exact StackMember.dotGeneral_plain_apply none l w r k

/-- The transposed 64×64 weight at `(c, k)` is the weight at `(k, c)`. -/
theorem transpose64_apply (w : FVec Ideal S64x64 .f32) (c k : Fin 64) :
    transpose S64x64 [1, 0] w transposes_S64x64_S64x64_1_0 (ix2 c k) = w (ix2 k c) := by
  refine transpose_apply [1, 0] w transposes_S64x64_S64x64_1_0 (ix2 c k) (ix2 k c) ?_
  intro b
  match b with
  | ⟨0, _⟩ => rfl
  | ⟨1, _⟩ => rfl

/-- The record of the 2048×64 by 64×32 product is the plain one. -/
theorem dot32_eq : dot_S2048x64_S64x32_S2048x32_1_0_0_1_n_n = DotDims.plain 2048 64 32 := rfl

/-- The 2048×64 by 64×32 product at an index is the sum over the contracted coordinate. -/
theorem dot32_apply (l : FVec Ideal S2048x64 .f32) (w : FVec Ideal S64x32 .f32) (r : Fin 2048) (o : Fin 32) :
    Host.dotGeneral (F := Ideal) dot_S2048x64_S64x32_S2048x32_1_0_0_1_n_n none l w (ix2 r o)
      = ∑ c : Fin 64, l (ix2 r c) * w (ix2 c o) := by
  rw [dot32_eq]
  exact StackMember.dotGeneral_plain_apply none l w r o

/-- The transposed 32×64 weight at `(c, o)` is the weight at `(o, c)`. -/
theorem transpose32_apply (w : FVec Ideal S32x64 .f32) (c : Fin 64) (o : Fin 32) :
    transpose S64x32 [1, 0] w transposes_S32x64_S64x32_1_0 (ix2 c o) = w (ix2 o c) := by
  refine transpose_apply [1, 0] w transposes_S32x64_S64x32_1_0 (ix2 c o) (ix2 o c) ?_
  intro b
  match b with
  | ⟨0, _⟩ => rfl
  | ⟨1, _⟩ => rfl

/-- The bias of the first layer copied down the rows. -/
theorem bias64_apply (b : FVec Ideal S64 .f32) (r : Fin 2048) (k : Fin 64) :
    broadcastInDim S2048x64 ![0, 1] bcast_S1x64_S2048x64_0_1 (broadcastInDim S1x64 ![1] bcast_S64_S1x64_1 b) (ix2 r k)
      = b (ix1 k) := by
  refine (broadcastInDim_apply ![0, 1] bcast_S1x64_S2048x64_0_1 _ (ix2 r k) (ix2 (0 : Fin 1) k) ?_).trans ?_
  · intro a
    match a with
    | ⟨0, _⟩ => rfl
    | ⟨1, _⟩ => rfl
  · refine broadcastInDim_apply ![1] bcast_S64_S1x64_1 b (ix2 (0 : Fin 1) k) (ix1 k) ?_
    intro a
    match a with
    | ⟨0, _⟩ => rfl

/-- The bias of the second layer copied down the rows. -/
theorem bias32_apply (b : FVec Ideal S32 .f32) (r : Fin 2048) (o : Fin 32) :
    broadcastInDim S2048x32 ![0, 1] bcast_S1x32_S2048x32_0_1 (broadcastInDim S1x32 ![1] bcast_S32_S1x32_1 b) (ix2 r o)
      = b (ix1 o) := by
  refine (broadcastInDim_apply ![0, 1] bcast_S1x32_S2048x32_0_1 _ (ix2 r o) (ix2 (0 : Fin 1) o) ?_).trans ?_
  · intro a
    match a with
    | ⟨0, _⟩ => rfl
    | ⟨1, _⟩ => rfl
  · refine broadcastInDim_apply ![1] bcast_S32_S1x32_1 b (ix2 (0 : Fin 1) o) (ix1 o) ?_
    intro a
    match a with
    | ⟨0, _⟩ => rfl

/-- The zero word copied to every entry is zero. -/
theorem zero64_apply (j : S2048x64.Idx) :
    broadcastInDim S2048x64 ![] bcast_S_S2048x64 (constant (F := Ideal) S_ .f32 0x00000000#32) j = 0 := by
  rw [broadcastInDim_scalar_apply, constant_apply, Ideal.ofBits_zero_f32]

/-- The product with a transposed 64×64 weight at an index. -/
theorem dotT64_apply (l : FVec Ideal S2048x64 .f32) (w : FVec Ideal S64x64 .f32) (r : Fin 2048) (k : Fin 64) :
    Host.dotGeneral (F := Ideal) dot_S2048x64_S64x64_S2048x64_1_0_0_1_n_n none l
        (transpose S64x64 [1, 0] w transposes_S64x64_S64x64_1_0) (ix2 r k)
      = lin (fn2 l) (fn2 w) r k := by
  rw [dot64_apply]
  refine Finset.sum_congr rfl fun c _ => ?_
  rw [transpose64_apply]

/-- The product with a transposed 32×64 weight at an index. -/
theorem dotT32_apply (l : FVec Ideal S2048x64 .f32) (w : FVec Ideal S32x64 .f32) (r : Fin 2048) (o : Fin 32) :
    Host.dotGeneral (F := Ideal) dot_S2048x64_S64x32_S2048x32_1_0_0_1_n_n none l
        (transpose S64x32 [1, 0] w transposes_S32x64_S64x32_1_0) (ix2 r o)
      = lin (fn2 l) (fn2 w) r o := by
  rw [dot32_apply]
  refine Finset.sum_congr rfl fun c _ => ?_
  rw [transpose32_apply]

/-- The gathered and added rows are the specification's aggregation with the reference's edge weights. -/
theorem aggregate_eq (y : FVec Ideal S2048x64 .f32) (adj : IVec S2048x2048 32) :
    fn2 (aggregate (F := Ideal) y adj) = aggr (edge adj) (fn2 y) := by
  funext j c
  exact RefAggregate.aggregate_apply y adj j c

/-- The first convolution before the rectifier, at an index. -/
theorem conv1_apply (x : FVec Ideal S2048x64 .f32) (adj : IVec S2048x2048 32) (w1r : FVec Ideal S64x64 .f32) (b1 : FVec Ideal S64 .f32)
    (w1s : FVec Ideal S64x64 .f32) (r : Fin 2048) (k : Fin 64) :
    conv1 (F := Ideal) x adj w1r b1 w1s (ix2 r k)
      = lin (aggr (edge adj) (fn2 x)) (fn2 w1r) r k + fn1 b1 k + lin (fn2 x) (fn2 w1s) r k := by
  unfold conv1
  rw [addf_apply, addf_apply, dotT64_apply, dotT64_apply, bias64_apply, aggregate_eq]

/-- The rectifier at an index. -/
theorem relu_apply (z : FVec Ideal S2048x64 .f32) (j : S2048x64.Idx) : relu (F := Ideal) z j = max (z j) 0 := by
  unfold relu
  rw [maximumf_apply, zero64_apply]

/-- The hidden layer of the reference is the specification's. -/
theorem hidden_eq (x : FVec Ideal S2048x64 .f32) (adj : IVec S2048x2048 32) (w1r : FVec Ideal S64x64 .f32) (b1 : FVec Ideal S64 .f32)
    (w1s : FVec Ideal S64x64 .f32) :
    fn2 (relu (F := Ideal) (conv1 x adj w1r b1 w1s))
      = Cert.GraphConvSpec.hidden (edge adj) (fn2 x) (fn2 w1r) (fn1 b1) (fn2 w1s) := by
  funext r k
  show relu (F := Ideal) (conv1 x adj w1r b1 w1s) (ix2 r k) = _
  rw [relu_apply, conv1_apply]
  rfl

/-- The second convolution at an index. -/
theorem conv2_apply (h : FVec Ideal S2048x64 .f32) (adj : IVec S2048x2048 32) (w2r : FVec Ideal S32x64 .f32) (b2 : FVec Ideal S32 .f32)
    (w2s : FVec Ideal S32x64 .f32) (r : Fin 2048) (o : Fin 32) :
    conv2 (F := Ideal) h adj w2r b2 w2s (ix2 r o)
      = logitsAggrFirst (edge adj) (fn2 h) (fn2 w2r) (fn1 b2) (fn2 w2s) r o := by
  unfold conv2
  rw [addf_apply, addf_apply, dotT32_apply, dotT32_apply, bias32_apply, aggregate_eq]
  rfl

/-- The row-reduced shape is the source with its second axis dropped. -/
theorem reduces_rows : S2048x32.Reduces [1] S2048 := by decide

/-- The index inserted over row `r` at column `o` is `(r, o)`. -/
theorem lift_rows (r : Fin 2048) (o : Fin 32) : reduces_rows.lift (ix1 r) o = ix2 r o := by
  funext a
  apply Fin.ext
  match a with
  | ⟨0, _⟩ => rfl
  | ⟨1, _⟩ => rfl

/-- The word of minus infinity is the bottom element. -/
theorem ofBits_neg_inf : Ideal.ofBits .f32 0xFF800000#32 = ⊥ := by simp [Ideal.ofBits, Ideal.ieee]

/-- The row maximum of the reference is the fold of `max` from the bottom over the row. -/
theorem rowMax_apply (z : FVec Ideal S2048x32 .f32) (r : Fin 2048) :
    Host.reduce (FloatOps.maximumf (F := Ideal) (φ := .f32)) z (constant (F := Ideal) S_ .f32 0xFF800000#32)
        reducesTo_S2048x32_S2048_d1 h_S_ (ix1 r)
      = rowMax (fn2 z) r := by
  rw [Host.reduce_eq_fold_single _ z _ reducesTo_S2048x32_S2048_d1 reduces_rows h_S_ (ix1 r), constant_apply, ofBits_neg_inf]
  unfold rowMax
  refine congrArg (fun f => (Finset.univ : Finset (Fin 32)).fold max ⊥ f) ?_
  funext o
  exact congrArg z (lift_rows r o)

/-- The row sum of the reference from the zero word is the sum over the row. -/
theorem rowSum_apply (e : FVec Ideal S2048x32 .f32) (r : Fin 2048) :
    Host.reduceAdd (F := Ideal) e (constant (F := Ideal) S_ .f32 0x00000000#32) reducesTo_S2048x32_S2048_d1 h_S_ (ix1 r)
      = ∑ o : Fin 32, e (ix2 r o) := by
  rw [hostReduceAdd_apply, Ideal.hostReduceAdd_single reducesTo_S2048x32_S2048_d1 reduces_rows, constant_apply,
    Ideal.ofBits_zero_f32, zero_add]
  exact Finset.sum_congr rfl fun o _ => congrArg e (lift_rows r o)

/-- A column copied along the rows reads the column's entry. -/
theorem col_apply {α : Type} (u : S2048x1.Idx → α) (r : Fin 2048) (o : Fin 32) :
    broadcastInDim S2048x32 ![0, 1] bcast_S2048x1_S2048x32_0_1 u (ix2 r o) = u (ix2 r (0 : Fin 1)) := by
  refine broadcastInDim_apply ![0, 1] bcast_S2048x1_S2048x32_0_1 u (ix2 r o) (ix2 r (0 : Fin 1)) ?_
  intro a
  match a with
  | ⟨0, _⟩ => rfl
  | ⟨1, _⟩ => rfl

/-- A vector as a column reads the vector's entry. -/
theorem unit_apply {α : Type} (v : S2048.Idx → α) (r : Fin 2048) :
    broadcastInDim S2048x1 ![0] bcast_S2048_S2048x1_0 v (ix2 r (0 : Fin 1)) = v (ix1 r) := by
  refine broadcastInDim_apply ![0] bcast_S2048_S2048x1_0 v (ix2 r (0 : Fin 1)) (ix1 r) ?_
  intro a
  match a with
  | ⟨0, _⟩ => rfl

/-- The logits less their row maximum, at an index. -/
theorem shifted_apply (z : FVec Ideal S2048x32 .f32) (r : Fin 2048) (o : Fin 32) :
    shifted (F := Ideal) z (ix2 r o) = z (ix2 r o) - rowMax (fn2 z) r := by
  unfold shifted
  rw [subf_apply, col_apply, unit_apply, maximumf_apply, rowMax_apply, broadcastInDim_scalar_apply, constant_apply,
    ofBits_neg_inf, max_eq_right bot_le]

/-- The host's logarithm at an index is the logarithm of the entry. -/
theorem hostLog_apply {s : Shape} (x : FVec Ideal s .f32) (i : s.Idx) : Host.log (F := Ideal) x i = Ideal.log (x i) := rfl

/-- The host's exponential at an index is the exponential of the entry. -/
theorem hostExp_apply {s : Shape} (x : FVec Ideal s .f32) (i : s.Idx) : Host.exp (F := Ideal) x i = Ideal.exp (x i) := rfl

/-- The row-wise log-softmax of the reference is the specification's. -/
theorem logSoftmax_apply (z : FVec Ideal S2048x32 .f32) (r : Fin 2048) (o : Fin 32) :
    RefTerm.logSoftmax (F := Ideal) z (ix2 r o) = Cert.GraphConvSpec.logSoftmax (fn2 z) r o := by
  unfold RefTerm.logSoftmax
  rw [subf_apply, col_apply, shifted_apply]
  rw [hostLog_apply, unit_apply, rowSum_apply]
  unfold Cert.GraphConvSpec.logSoftmax
  refine congrArg (fun t => z (ix2 r o) - rowMax (fn2 z) r - Ideal.log t) ?_
  refine Finset.sum_congr rfl fun o' _ => ?_
  rw [hostExp_apply, shifted_apply]

/-- The reference's result at an index is the specification's network with the reference's edge weights. -/
theorem out_apply (x : FVec Ideal S2048x64 .f32) (adj : IVec S2048x2048 32) (w1r : FVec Ideal S64x64 .f32) (b1 : FVec Ideal S64 .f32)
    (w1s : FVec Ideal S64x64 .f32) (w2r : FVec Ideal S32x64 .f32) (b2 : FVec Ideal S32 .f32) (w2s : FVec Ideal S32x64 .f32)
    (r : Fin 2048) (o : Fin 32) :
    RefTerm.out (F := Ideal) x adj w1r b1 w1s w2r b2 w2s (ix2 r o)
      = resultAggrFirst (edge adj) (fn2 x) (fn2 w1r) (fn1 b1) (fn2 w1s) (fn2 w2r) (fn1 b2) (fn2 w2s) r o := by
  unfold RefTerm.out resultAggrFirst
  rw [logSoftmax_apply, ← hidden_eq]
  refine congrArg (fun z => Cert.GraphConvSpec.logSoftmax z r o) ?_
  funext r' o'
  exact conv2_apply _ adj w2r b2 w2s r' o'

end Cert.ReferenceIdeal.RefValue

end
-- ==== Proof.PreDecode.lean ====
/-
  What the precondition says of the argument arrays at the extended reals: every float entry is a real number, and
  every entry of the adjacency is the word 0 or the word 1.

  The predicate is a conjunction of eight "for all entries" tests, each a fold by `and` of a one-bit array down to a
  single bit. A fold by `and` that ends in 1 met only 1s, so each test holds entry by entry. For a float array the entry
  test is |x| < +∞, where |x| = max x (-x) on the extended reals and the bit pattern 0x7F800000 denotes ⊤; that
  inequality excludes both x = ⊤ and x = ⊥ (either makes the maximum ⊤). For the adjacency the entry test is the
  disjunction of two word equalities, with 0 and with 1.
-/
import proofs.«114369_g3530463117553_cont_sun_c4_324_4_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic Cert.Pre_finite_inputs

variable [Cert.Pre_finite_inputs.Facts]

/-- The rank-0 shape has exactly one index: an index is a function out of the empty type of axes. -/
local instance : Subsingleton S_.Idx := ⟨fun a b => funext fun d => d.elim0⟩

/-- The binary32 pattern with exponent all ones and mantissa zero denotes +∞. -/
theorem inf_bits : Ideal.ofBits .f32 0x7F800000#32 = (⊤ : EReal) := by simp [Ideal.ofBits, Ideal.ieee]

/-- On the extended reals, max x (-x) < ⊤ leaves x neither ⊤ (then the maximum is ⊤) nor ⊥ (then -x = ⊤). -/
theorem real_of_abs_lt_top {x : EReal} (h : max x (-x) < ⊤) : x ≠ ⊤ ∧ x ≠ ⊥ := by
  constructor
  · rintro rfl; simp at h
  · rintro rfl; simp at h

/-- For any shape: if the fold by `and` of the bits [|x i| < +∞] over all axes is 1, every entry of x is a real. -/
theorem finite_of_all {s : Shape} {axes : List (Fin s.rank)} (hb : S_.BroadcastsInDim s (![] : Fin 0 → Fin s.rank))
    (hr : s.ReducesTo axes S_) (h0 : 0 < S_.numel) (x : FVec Ideal s .f32)
    (e : Host.reduce IntOp.andi (cmpf .olt (Host.absf x) (broadcastInDim s ![] hb (constant S_ .f32 0x7F800000#32)))
          (constantI S_ 1 1#1) hr h0 ValueIdx.ix0 = 1#1) :
    ∀ i, x i ≠ (⊤ : EReal) ∧ x i ≠ (⊥ : EReal) := by
  intro i
  -- the bit at i is 1
  have hi := Host.reduce_andi_all _ _ hr h0 _ e i
  apply real_of_abs_lt_top
  -- read the bit at i: the broadcast scalar is the same constant at every index
  simp only [cmpf, Host.absf, StableHlo.Predicate.bcast_scalar hb h0, constant] at hi
  -- at the extended reals the comparison is the order's, and the absolute value is max x (-x)
  change BitVec.ofBool (decide (max (x i) (-(x i)) < Ideal.ofBits .f32 0x7F800000#32)) = 1#1 at hi
  rw [StableHlo.Predicate.ofBool_eq_one_iff, decide_eq_true_eq, inf_bits] at hi
  exact hi

/-- For any shape: if the fold by `and` of the bits [a i = 0 or a i = 1] over all axes is 1, every word of a is 0 or 1. -/
theorem word01_of_all {s : Shape} {axes : List (Fin s.rank)} (hb : S_.BroadcastsInDim s (![] : Fin 0 → Fin s.rank))
    (hr : s.ReducesTo axes S_) (h0 : 0 < S_.numel) (a : IVec s 32)
    (e : Host.reduce IntOp.andi
          (ori (cmpi .eq a (broadcastInDim s ![] hb (constantI S_ 32 0#32)))
               (cmpi .eq a (broadcastInDim s ![] hb (constantI S_ 32 1#32))))
          (constantI S_ 1 1#1) hr h0 ValueIdx.ix0 = 1#1) :
    ∀ i, a i = 0#32 ∨ a i = 1#32 := by
  intro i
  have hi := Host.reduce_andi_all _ _ hr h0 _ e i
  -- an `or` of two bits is 1 iff one of them is; an equality bit is 1 iff the words are equal
  simp only [ori, cmpi, StableHlo.Predicate.bcast_scalar hb h0, constantI, IntOp.ori_eq_one, IntOp.cmpi_eq] at hi
  exact hi

/-- The printed predicate, all ones: the float arrays are finite entry by entry and the adjacency is 0/1. -/
theorem of_pre (x : FVec Ideal S2048x64 .f32) (adj : IVec S2048x2048 32) (w1r : FVec Ideal S64x64 .f32) (b1 : FVec Ideal S64 .f32)
    (w1s : FVec Ideal S64x64 .f32) (w2r : FVec Ideal S32x64 .f32) (b2 : FVec Ideal S32 .f32) (w2s : FVec Ideal S32x64 .f32)
    (h : Cert.Pre_finite_inputs.fn (F := Ideal) x adj w1r b1 w1s w2r b2 w2s = fun _ => 1#1) :
    (∀ i, x i ≠ (⊤ : EReal) ∧ x i ≠ (⊥ : EReal)) ∧ (∀ i, adj i = 0#32 ∨ adj i = 1#32)
      ∧ (∀ i, w1r i ≠ (⊤ : EReal) ∧ w1r i ≠ (⊥ : EReal)) ∧ (∀ i, b1 i ≠ (⊤ : EReal) ∧ b1 i ≠ (⊥ : EReal))
      ∧ (∀ i, w1s i ≠ (⊤ : EReal) ∧ w1s i ≠ (⊥ : EReal)) ∧ (∀ i, w2r i ≠ (⊤ : EReal) ∧ w2r i ≠ (⊥ : EReal))
      ∧ (∀ i, b2 i ≠ (⊤ : EReal) ∧ b2 i ≠ (⊥ : EReal)) ∧ (∀ i, w2s i ≠ (⊤ : EReal) ∧ w2s i ≠ (⊥ : EReal)) := by
  -- the predicate's one bit
  have h0 := congrFun h ValueIdx.ix0
  -- the chain of lets is a left-nested conjunction (by `and` on one bit) of the eight folds
  simp only [fn, fn_part1, fn_part2, andi, IntOp.andi_eq_one] at h0
  obtain ⟨⟨⟨⟨⟨⟨⟨hx, hw1r⟩, hb1⟩, hw1s⟩, hw2r⟩, hb2⟩, hw2s⟩, hadj⟩ := h0
  exact ⟨finite_of_all _ _ _ x hx, word01_of_all _ _ _ adj hadj, finite_of_all _ _ _ w1r hw1r, finite_of_all _ _ _ b1 hb1,
    finite_of_all _ _ _ w1s hw1s, finite_of_all _ _ _ w2r hw2r, finite_of_all _ _ _ b2 hb2, finite_of_all _ _ _ w2s hw2s⟩

end Cert.PreDecode

end
-- ==== Proof.lean ====
/-
  A fused two-layer graph convolution with a row-wise log-softmax, against its gather and scatter-add reference.

  The kernel walks the adjacency in sixteen row blocks: each grid point casts its block of integer entries to
  floats, keeps the cast block, and adds the block's share `Aᵀ_blk · x_blk` to a running aggregation; the last point
  applies the first layer's two linear maps, bias and rectifier, multiplies the hidden layer by the second layer's
  relation weight, aggregates that 32-column product over the whole kept adjacency, adds the root term and the
  bias, and takes the log-softmax of each row. The reference lists the nonzero entries of the adjacency as edges
  (a running count, a histogram of the running counts, a running sum of the histogram), gathers a feature row per
  edge and adds it into the edge's destination row, once per layer, with the same linear maps and log-softmax.

  Over the extended reals both are the network of Proof/Spec.lean. The reference's edge list enumerates each
  nonzero entry once (Proof/NonzeroComb.lean, Proof/RefEdges.lean), so its aggregation at destination `j` is the sum
  over the sources `i` with a nonzero entry `(i, j)` of row `i` (Proof/RefAggregate.lean, Proof/RefValue.lean); the
  kernel's sixteen partial products add up to `∑ i, a(i, j) · x(i, ·)` with `a` the entries as integers
  (Proof/KValue.lean over the payloads of Proof/KPayload.lean). The two edge weights agree exactly when every entry is 0
  or 1, which the precondition states beside the finiteness of the float inputs (Proof/PreDecode.lean); finiteness
  is what lets the second layer's aggregation move across its linear map (distributivity fails at infinities).
  The frames: the kernel's body is run once per control case (first point, middle points, last point) with the
  two scratch arrays' contents carried from point to point (Proof/KData.lean, Proof/KBody.lean, and their copies at the
  word-level instance); the reference's is its run with the result dropped (Proof/RefRun.lean).
-/
import proofs.«114369_g3530463117553_cont_sun_c4_324_4_alg».proof.Defs
import proofs.«114369_g3530463117553_cont_sun_c4_324_4_alg».proof.Proof.Gen.Kernel
import proofs.«114369_g3530463117553_cont_sun_c4_324_4_alg».proof.Proof.Gen.KernelIdeal
import proofs.«114369_g3530463117553_cont_sun_c4_324_4_alg».proof.Proof.Gen.ReferenceIdeal
import proofs.«114369_g3530463117553_cont_sun_c4_324_4_alg».proof.Proof.Gen.Pre_finite_inputs
import proofs.«114369_g3530463117553_cont_sun_c4_324_4_alg».proof.Proof.KBody
import proofs.«114369_g3530463117553_cont_sun_c4_324_4_alg».proof.Proof.KBodyBits
import proofs.«114369_g3530463117553_cont_sun_c4_324_4_alg».proof.Proof.KValue
import proofs.«114369_g3530463117553_cont_sun_c4_324_4_alg».proof.Proof.RefRun
import proofs.«114369_g3530463117553_cont_sun_c4_324_4_alg».proof.Proof.RefValue
import proofs.«114369_g3530463117553_cont_sun_c4_324_4_alg».proof.Proof.PreDecode
import proofs.«114369_g3530463117553_cont_sun_c4_324_4_alg».proof.Proof.Spec
import Idealize.ShloMosaic.Adequacy
import Idealize.ShloMosaic.Init

noncomputable section

namespace Cert.Proof

open Idealize.ShloMosaic Idealize.SL.Sem Cert.GraphConvSpec ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- An adjacency word that is 0 or 1 denotes the same edge weight read as an integer or as a nonzero test. -/
theorem edge_eq (adj : IVec Cert.KernelIdeal.S2048x2048 32) (h : ∀ i, adj i = 0#32 ∨ adj i = 1#32) :
    Cert.ReferenceIdeal.RefValue.edge adj = Cert.KernelIdeal.KValue.edge adj := by
  funext i j
  unfold Cert.ReferenceIdeal.RefValue.edge Cert.KernelIdeal.KValue.edge
  rcases h (ix2 i j) with h0 | h1
  · rw [h0]; simp
  · rw [h1]; simp

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

theorem algebraic : Cert.algebraic_KernelIdeal_ReferenceIdeal := by
  intro m ρ m' ρ' hpre hagree
  refine ⟨_, Cert.KernelIdeal.KValue.run_value m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7]
  obtain ⟨hx, hadj, hw1r, hb1, hw1s, hw2r, hb2, hw2s⟩ := Cert.PreDecode.of_pre _ _ _ _ _ _ _ _ (hpre c)
  funext j
  obtain ⟨r, o, rfl⟩ : ∃ (r : Fin 2048) (o : Fin 32), j = ix2 r o := ⟨j 0, j 1, eq_ix2 j⟩
  rw [Cert.ReferenceIdeal.RefValue.out_apply, edge_eq _ hadj]
  have he : ∀ i k, Cert.KernelIdeal.KValue.edge (m ((c.tc : Thread Cert.KernelIdeal.nD Cert.KernelIdeal.τ).loc Cert.KernelIdeal.main_arg1)) i k ≠ ⊤
      ∧ Cert.KernelIdeal.KValue.edge (m ((c.tc : Thread Cert.KernelIdeal.nD Cert.KernelIdeal.τ).loc Cert.KernelIdeal.main_arg1)) i k ≠ ⊥ := fun i k =>
    ⟨EReal.coe_ne_top _, EReal.coe_ne_bot _⟩
  exact (congrFun (congrFun (resultLinFirst_eq_resultAggrFirst _ _ _ _ _ _ _ _ he (fun i k => hx _) (fun i k => hw1r _)
    (fun k => hb1 _) (fun i k => hw1s _) (fun i k => hw2r _)) r) o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
